-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v346) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x16 : Shape := ⟨2, ![100000, 16]⟩
abbrev S2x3200000 : Shape := ⟨2, ![2, 3200000]⟩
abbrev S3200000 : Shape := ⟨1, ![3200000]⟩
abbrev S8x16x32 : Shape := ⟨3, ![8, 16, 32]⟩
abbrev S16x32 : Shape := ⟨2, ![16, 32]⟩
abbrev S32 : Shape := ⟨1, ![32]⟩
abbrev S8x32x16 : Shape := ⟨3, ![8, 32, 16]⟩
abbrev S32x16 : Shape := ⟨2, ![32, 16]⟩
abbrev S16 : Shape := ⟨1, ![16]⟩
abbrev S_ : Shape := ⟨0, ![]⟩
abbrev S1x3200000 : Shape := ⟨2, ![1, 3200000]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel
  bcast_S_S8x16x32 : S_.BroadcastsInDim S8x16x32 (![] : Fin 0 → Fin S8x16x32.rank)
  reducesTo_S8x16x32_S_d0_1_2 : S8x16x32.ReducesTo [0, 1, 2] S_
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_
  bcast_S_S8x32x16 : S_.BroadcastsInDim S8x32x16 (![] : Fin 0 → Fin S8x32x16.rank)
  reducesTo_S8x32x16_S_d0_1_2 : S8x32x16.ReducesTo [0, 1, 2] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  slices_S2x3200000_S1x3200000_1_0 : S2x3200000.Slices ![1, 0] S1x3200000
  shapeCasts_S1x3200000_S3200000 : S1x3200000.ShapeCasts S3200000
  bcast_S_S3200000 : S_.BroadcastsInDim S3200000 (![] : Fin 0 → Fin S3200000.rank)
  reducesTo_S3200000_S_d0 : S3200000.ReducesTo [0] S_

variable [Facts]

def fn_part2 {F : FTy → Type} [FloatOps F] (main_arg1 : IVec S2x3200000 32) (main_arg2 : IVec S3200000 32) (main_v33 : IVec S_ 1) : IVec S_ 1 :=
  let main_v34 : IVec S1x3200000 32 := (extractStridedSlice S1x3200000 ![1, 0] · slices_S2x3200000_S1x3200000_1_0) main_arg1
  let main_v35 : IVec S3200000 32 := shapeCast S3200000 main_v34 shapeCasts_S1x3200000_S3200000
  let main_c_12 : IVec S_ 32 := constantI S_ 32 0#32
  let main_v36 : IVec S3200000 32 := broadcastInDim S3200000 ![] bcast_S_S3200000 main_c_12
  let main_v37 : IVec S3200000 1 := cmpi .sge main_v35 main_v36
  let main_v38 : IVec S1x3200000 32 := (extractStridedSlice S1x3200000 ![1, 0] · slices_S2x3200000_S1x3200000_1_0) main_arg1
  let main_v39 : IVec S3200000 32 := shapeCast S3200000 main_v38 shapeCasts_S1x3200000_S3200000
  let main_c_13 : IVec S_ 32 := constantI S_ 32 100000#32
  let main_v40 : IVec S3200000 32 := broadcastInDim S3200000 ![] bcast_S_S3200000 main_c_13
  let main_v41 : IVec S3200000 1 := cmpi .slt main_v39 main_v40
  let main_v42 : IVec S3200000 1 := andi main_v37 main_v41
  let main_c_14 : IVec S_ 1 := constantI S_ 1 1#1
  let main_v43 : IVec S_ 1 := (fun x v => Host.reduce IntOp.andi x v reducesTo_S3200000_S_d0 h_S_) main_v42 main_c_14
  let main_v44 : IVec S_ 1 := andi main_v33 main_v43
  let main_c_15 : IVec S_ 32 := constantI S_ 32 0#32
  let main_v45 : IVec S3200000 32 := broadcastInDim S3200000 ![] bcast_S_S3200000 main_c_15
  let main_v46 : IVec S3200000 1 := cmpi .sge main_arg2 main_v45
  let main_c_16 : IVec S_ 32 := constantI S_ 32 8#32
  let main_v47 : IVec S3200000 32 := broadcastInDim S3200000 ![] bcast_S_S3200000 main_c_16
  let main_v48 : IVec S3200000 1 := cmpi .slt main_arg2 main_v47
  let main_v49 : IVec S3200000 1 := andi main_v46 main_v48
  let main_c_17 : IVec S_ 1 := constantI S_ 1 1#1
  let main_v50 : IVec S_ 1 := (fun x v => Host.reduce IntOp.andi x v reducesTo_S3200000_S_d0 h_S_) main_v49 main_c_17
  let main_v51 : IVec S_ 1 := andi main_v44 main_v50
  main_v51

def fn_part1 {F : FTy → Type} [FloatOps F] (main_arg1 : IVec S2x3200000 32) (main_arg2 : IVec S3200000 32) (main_arg6 : FVec F S8x32x16 .f32) (main_arg7 : FVec F S32x16 .f32) (main_arg8 : FVec F S16 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S8x32x16 .f32 := Host.absf main_arg6
  let main_cst_6 : FVec F S_ .f32 := constant S_ .f32 0x7F800000#32
  let main_v20 : FVec F S8x32x16 .f32 := broadcastInDim S8x32x16 ![] bcast_S_S8x32x16 main_cst_6
  let main_v21 : IVec S8x32x16 1 := cmpf .olt main_v19 main_v20
  let main_c_7 : IVec S_ 1 := constantI S_ 1 1#1
  let main_v22 : IVec S_ 1 := (fun x v => Host.reduce IntOp.andi x v reducesTo_S8x32x16_S_d0_1_2 h_S_) main_v21 main_c_7
  let main_v23 : IVec S_ 1 := andi main_v18 main_v22
  let main_v24 : FVec F S32x16 .f32 := Host.absf main_arg7
  let main_cst_8 : FVec F S_ .f32 := constant S_ .f32 0x7F800000#32
  let main_v25 : FVec F S32x16 .f32 := broadcastInDim S32x16 ![] bcast_S_S32x16 main_cst_8
  let main_v26 : IVec S32x16 1 := cmpf .olt main_v24 main_v25
  let main_c_9 : IVec S_ 1 := constantI S_ 1 1#1
  let main_v27 : IVec S_ 1 := (fun x v => Host.reduce IntOp.andi x v reducesTo_S32x16_S_d0_1 h_S_) main_v26 main_c_9
  let main_v28 : IVec S_ 1 := andi main_v23 main_v27
  let main_v29 : FVec F S16 .f32 := Host.absf main_arg8
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg1 main_arg2 main_v33

def fn {F : FTy → Type} [FloatOps F] (main_arg0 : FVec F S100000x16 .f32) (main_arg1 : IVec S2x3200000 32) (main_arg2 : IVec S3200000 32) (main_arg3 : FVec F S8x16x32 .f32) (main_arg4 : FVec F S16x32 .f32) (main_arg5 : FVec F S32 .f32) (main_arg6 : FVec F S8x32x16 .f32) (main_arg7 : FVec F S32x16 .f32) (main_arg8 : FVec F S16 .f32) : IVec S_ 1 :=
  let main_v0 : FVec F S100000x16 .f32 := Host.absf main_arg0
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S8x16x32 .f32 := Host.absf main_arg3
  let main_cst_0 : FVec F S_ .f32 := constant S_ .f32 0x7F800000#32
  let main_v5 : FVec F S8x16x32 .f32 := broadcastInDim S8x16x32 ![] bcast_S_S8x16x32 main_cst_0
  let main_v6 : IVec S8x16x32 1 := cmpf .olt main_v4 main_v5
  let main_c_1 : IVec S_ 1 := constantI S_ 1 1#1
  let main_v7 : IVec S_ 1 := (fun x v => Host.reduce IntOp.andi x v reducesTo_S8x16x32_S_d0_1_2 h_S_) main_v6 main_c_1
  let main_v8 : IVec S_ 1 := andi main_v3 main_v7
  let main_v9 : FVec F S16x32 .f32 := Host.absf main_arg4
  let main_cst_2 : FVec F S_ .f32 := constant S_ .f32 0x7F800000#32
  let main_v10 : FVec F S16x32 .f32 := broadcastInDim S16x32 ![] bcast_S_S16x32 main_cst_2
  let main_v11 : IVec S16x32 1 := cmpf .olt main_v9 main_v10
  let main_c_3 : IVec S_ 1 := constantI S_ 1 1#1
  let main_v12 : IVec S_ 1 := (fun x v => Host.reduce IntOp.andi x v reducesTo_S16x32_S_d0_1 h_S_) main_v11 main_c_3
  let main_v13 : IVec S_ 1 := andi main_v8 main_v12
  let main_v14 : FVec F S32 .f32 := Host.absf main_arg5
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg1 main_arg2 main_arg6 main_arg7 main_arg8 main_v13 main_v16
-- ==== Kernel.lean ====
abbrev S100000x16 : Shape := ⟨2, ![100000, 16]⟩
abbrev S2x3200000 : Shape := ⟨2, ![2, 3200000]⟩
abbrev S3200000 : Shape := ⟨1, ![3200000]⟩
abbrev S8x16x32 : Shape := ⟨3, ![8, 16, 32]⟩
abbrev S16x32 : Shape := ⟨2, ![16, 32]⟩
abbrev S32 : Shape := ⟨1, ![32]⟩
abbrev S8x32x16 : Shape := ⟨3, ![8, 32, 16]⟩
abbrev S32x16 : Shape := ⟨2, ![32, 16]⟩
abbrev S16 : Shape := ⟨1, ![16]⟩
abbrev S1x3200000 : Shape := ⟨2, ![1, 3200000]⟩
abbrev S_ : Shape := ⟨0, ![]⟩
abbrev S800000 : Shape := ⟨1, ![800000]⟩
abbrev S3200000x1 : Shape := ⟨2, ![3200000, 1]⟩
abbrev S100000x8 : Shape := ⟨2, ![100000, 8]⟩
abbrev S3200000x16 : Shape := ⟨2, ![3200000, 16]⟩
abbrev S800000x16 : Shape := ⟨2, ![800000, 16]⟩
abbrev S100000x128 : Shape := ⟨2, ![100000, 128]⟩
abbrev S128x32 : Shape := ⟨2, ![128, 32]⟩
abbrev S1x32 : Shape := ⟨2, ![1, 32]⟩
abbrev S100000x32 : Shape := ⟨2, ![100000, 32]⟩
abbrev S5000x16 : Shape := ⟨2, ![5000, 16]⟩
abbrev S5000x128 : Shape := ⟨2, ![5000, 128]⟩
abbrev S5000x8 : Shape := ⟨2, ![5000, 8]⟩
abbrev S5000x32 : Shape := ⟨2, ![5000, 32]⟩
abbrev S5000x1 : Shape := ⟨2, ![5000, 1]⟩
abbrev S3200000x32 : Shape := ⟨2, ![3200000, 32]⟩
abbrev S800000x32 : Shape := ⟨2, ![800000, 32]⟩
abbrev S100000x256 : Shape := ⟨2, ![100000, 256]⟩
abbrev S256x16 : Shape := ⟨2, ![256, 16]⟩
abbrev S1x16 : Shape := ⟨2, ![1, 16]⟩
abbrev S5000x256 : Shape := ⟨2, ![5000, 256]⟩

abbrev nBuf : Space → Nat
  | .hbm => 64
  | .vmem => 24
  | .smem => 0
  | _ => 0

abbrev bufTy : (tb : Table) → Fin (tcTables nBuf tb) → BufTy
  | .hbm, ⟨0, _⟩ => ⟨S100000x16, .f32⟩
  | .hbm, ⟨1, _⟩ => ⟨S2x3200000, .i32⟩
  | .hbm, ⟨2, _⟩ => ⟨S3200000, .i32⟩
  | .hbm, ⟨3, _⟩ => ⟨S8x16x32, .f32⟩
  | .hbm, ⟨4, _⟩ => ⟨S16x32, .f32⟩
  | .hbm, ⟨5, _⟩ => ⟨S32, .f32⟩
  | .hbm, ⟨6, _⟩ => ⟨S8x32x16, .f32⟩
  | .hbm, ⟨7, _⟩ => ⟨S32x16, .f32⟩
  | .hbm, ⟨8, _⟩ => ⟨S16, .f32⟩
  | .hbm, ⟨9, _⟩ => ⟨S1x3200000, .i32⟩
  | .hbm, ⟨10, _⟩ => ⟨S3200000, .i32⟩
  | .hbm, ⟨11, _⟩ => ⟨S1x3200000, .i32⟩
  | .hbm, ⟨12, _⟩ => ⟨S3200000, .i32⟩
  | .hbm, ⟨13, _⟩ => ⟨S_, .i32⟩
  | .hbm, ⟨14, _⟩ => ⟨S3200000, .i32⟩
  | .hbm, ⟨15, _⟩ => ⟨S3200000, .i32⟩
  | .hbm, ⟨16, _⟩ => ⟨S3200000, .i32⟩
  | .hbm, ⟨17, _⟩ => ⟨S_, .f32⟩
  | .hbm, ⟨18, _⟩ => ⟨S3200000, .f32⟩
  | .hbm, ⟨19, _⟩ => ⟨S_, .f32⟩
  | .hbm, ⟨20, _⟩ => ⟨S800000, .f32⟩
  | .hbm, ⟨21, _⟩ => ⟨S3200000x1, .i32⟩
  | .hbm, ⟨22, _⟩ => ⟨S800000, .f32⟩
  | .hbm, ⟨23, _⟩ => ⟨S_, .f32⟩
  | .hbm, ⟨24, _⟩ => ⟨S800000, .f32⟩
  | .hbm, ⟨25, _⟩ => ⟨S800000, .f32⟩
  | .hbm, ⟨26, _⟩ => ⟨S_, .f32⟩
  | .hbm, ⟨27, _⟩ => ⟨S800000, .f32⟩
  | .hbm, ⟨28, _⟩ => ⟨S800000, .f32⟩
  | .hbm, ⟨29, _⟩ => ⟨S100000x8, .f32⟩
  | .hbm, ⟨30, _⟩ => ⟨S_, .i32⟩
  | .hbm, ⟨31, _⟩ => ⟨S3200000, .i32⟩
  | .hbm, ⟨32, _⟩ => ⟨S3200000, .i1⟩
  | .hbm, ⟨33, _⟩ => ⟨S_, .i32⟩
  | .hbm, ⟨34, _⟩ => ⟨S3200000, .i32⟩
  | .hbm, ⟨35, _⟩ => ⟨S3200000, .i32⟩
  | .hbm, ⟨36, _⟩ => ⟨S3200000, .i32⟩
  | .hbm, ⟨37, _⟩ => ⟨S3200000x1, .i32⟩
  | .hbm, ⟨38, _⟩ => ⟨S3200000x16, .f32⟩
  | .hbm, ⟨39, _⟩ => ⟨S_, .f32⟩
  | .hbm, ⟨40, _⟩ => ⟨S800000x16, .f32⟩
  | .hbm, ⟨41, _⟩ => ⟨S3200000x1, .i32⟩
  | .hbm, ⟨42, _⟩ => ⟨S800000x16, .f32⟩
  | .hbm, ⟨43, _⟩ => ⟨S100000x128, .f32⟩
  | .hbm, ⟨44, _⟩ => ⟨S128x32, .f32⟩
  | .hbm, ⟨45, _⟩ => ⟨S1x32, .f32⟩
  | .hbm, ⟨46, _⟩ => ⟨S100000x32, .f32⟩
  | .hbm, ⟨47, _⟩ => ⟨S_, .i32⟩
  | .hbm, ⟨48, _⟩ => ⟨S3200000, .i32⟩
  | .hbm, ⟨49, _⟩ => ⟨S3200000, .i1⟩
  | .hbm, ⟨50, _⟩ => ⟨S_, .i32⟩
  | .hbm, ⟨51, _⟩ => ⟨S3200000, .i32⟩
  | .hbm, ⟨52, _⟩ => ⟨S3200000, .i32⟩
  | .hbm, ⟨53, _⟩ => ⟨S3200000, .i32⟩
  | .hbm, ⟨54, _⟩ => ⟨S3200000x1, .i32⟩
  | .hbm, ⟨55, _⟩ => ⟨S3200000x32, .f32⟩
  | .hbm, ⟨56, _⟩ => ⟨S_, .f32⟩
  | .hbm, ⟨57, _⟩ => ⟨S800000x32, .f32⟩
  | .hbm, ⟨58, _⟩ => ⟨S3200000x1, .i32⟩
  | .hbm, ⟨59, _⟩ => ⟨S800000x32, .f32⟩
  | .hbm, ⟨60, _⟩ => ⟨S100000x256, .f32⟩
  | .hbm, ⟨61, _⟩ => ⟨S256x16, .f32⟩
  | .hbm, ⟨62, _⟩ => ⟨S1x16, .f32⟩
  | .hbm, ⟨63, _⟩ => ⟨S100000x16, .f32⟩
  | .local _ .vmem, ⟨0, _⟩ => ⟨S5000x16, .f32⟩
  | .local _ .vmem, ⟨1, _⟩ => ⟨S5000x16, .f32⟩
  | .local _ .vmem, ⟨2, _⟩ => ⟨S5000x128, .f32⟩
  | .local _ .vmem, ⟨3, _⟩ => ⟨S5000x128, .f32⟩
  | .local _ .vmem, ⟨4, _⟩ => ⟨S5000x8, .f32⟩
  | .local _ .vmem, ⟨5, _⟩ => ⟨S5000x8, .f32⟩
  | .local _ .vmem, ⟨6, _⟩ => ⟨S16x32, .f32⟩
  | .local _ .vmem, ⟨7, _⟩ => ⟨S128x32, .f32⟩
  | .local _ .vmem, ⟨8, _⟩ => ⟨S1x32, .f32⟩
  | .local _ .vmem, ⟨9, _⟩ => ⟨S5000x32, .f32⟩
  | .local _ .vmem, ⟨10, _⟩ => ⟨S5000x32, .f32⟩
  | .local _ .vmem, ⟨11, _⟩ => ⟨S5000x128, .f32⟩
  | .local _ .vmem, ⟨12, _⟩ => ⟨S5000x32, .f32⟩
  | .local _ .vmem, ⟨13, _⟩ => ⟨S5000x32, .f32⟩
  | .local _ .vmem, ⟨14, _⟩ => ⟨S5000x256, .f32⟩
  | .local _ .vmem, ⟨15, _⟩ => ⟨S5000x256, .f32⟩
  | .local _ .vmem, ⟨16, _⟩ => ⟨S5000x8, .f32⟩
  | .local _ .vmem, ⟨17, _⟩ => ⟨S5000x8, .f32⟩
  | .local _ .vmem, ⟨18, _⟩ => ⟨S32x16, .f32⟩
  | .local _ .vmem, ⟨19, _⟩ => ⟨S256x16, .f32⟩
  | .local _ .vmem, ⟨20, _⟩ => ⟨S1x16, .f32⟩
  | .local _ .vmem, ⟨21, _⟩ => ⟨S5000x16, .f32⟩
  | .local _ .vmem, ⟨22, _⟩ => ⟨S5000x16, .f32⟩
  | .local _ .vmem, ⟨23, _⟩ => ⟨S5000x256, .f32⟩
  | _, _ => ⟨S100000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_3 : Ref sig .tc := ⟨.hbm, 30, rfl⟩
abbrev main_v16 : Ref sig .tc := ⟨.hbm, 31, rfl⟩
abbrev main_v17 : Ref sig .tc := ⟨.hbm, 32, rfl⟩
abbrev main_c_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_v30 : Ref sig .tc := ⟨.hbm, 48, rfl⟩
abbrev main_v31 : Ref sig .tc := ⟨.hbm, 49, rfl⟩
abbrev main_c_7 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg6_1 : Ref sig .tc := ⟨.vmem, 22, rfl⟩
abbrev cc1_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x8 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S32x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x16 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S800000 : S_.BroadcastsInDim S800000 (![] : Fin 0 → Fin S800000.rank)
  bcast_S3200000_S3200000x1_0 : S3200000.BroadcastsInDim S3200000x1 (![0] : Fin 1 → Fin S3200000x1.rank)
  shapeCasts_S800000_S100000x8 : S800000.ShapeCasts S100000x8
  bcast_S_S800000x16 : S_.BroadcastsInDim S800000x16 (![] : Fin 0 → Fin S800000x16.rank)
  shapeCasts_S800000x16_S100000x128 : S800000x16.ShapeCasts S100000x128
  shapeCasts_S8x16x32_S128x32 : S8x16x32.ShapeCasts S128x32
  shapeCasts_S32_S1x32 : S32.ShapeCasts S1x32
  inb_S5000x128_S5000x16_0_0 : ∀ a, (![0, 0] : Fin 2 → Nat) a + S5000x16.size a ≤ S5000x128.size a
  h_S5000x16 : 0 < S5000x16.numel
  shapeCasts_S5000x16_S5000x16 : S5000x16.ShapeCasts S5000x16
  inb_S5000x8_S5000x1_0_0 : ∀ a, (![0, 0] : Fin 2 → Nat) a + S5000x1.size a ≤ S5000x8.size a
  h_S5000x1 : 0 < S5000x1.numel
  shapeCasts_S5000x1_S5000x1 : S5000x1.ShapeCasts S5000x1
  broadcasts_S5000x1_S5000x16 : S5000x1.Broadcasts S5000x16
  inb_S5000x128_S5000x16_0_16 : ∀ a, (![0, 16] : Fin 2 → Nat) a + S5000x16.size a ≤ S5000x128.size a
  inb_S5000x8_S5000x1_0_1 : ∀ a, (![0, 1] : Fin 2 → Nat) a + S5000x1.size a ≤ S5000x8.size a
  inb_S5000x128_S5000x16_0_32 : ∀ a, (![0, 32] : Fin 2 → Nat) a + S5000x16.size a ≤ S5000x128.size a
  inb_S5000x8_S5000x1_0_2 : ∀ a, (![0, 2] : Fin 2 → Nat) a + S5000x1.size a ≤ S5000x8.size a
  inb_S5000x128_S5000x16_0_48 : ∀ a, (![0, 48] : Fin 2 → Nat) a + S5000x16.size a ≤ S5000x128.size a
  inb_S5000x8_S5000x1_0_3 : ∀ a, (![0, 3] : Fin 2 → Nat) a + S5000x1.size a ≤ S5000x8.size a
  inb_S5000x128_S5000x16_0_64 : ∀ a, (![0, 64] : Fin 2 → Nat) a + S5000x16.size a ≤ S5000x128.size a
  inb_S5000x8_S5000x1_0_4 : ∀ a, (![0, 4] : Fin 2 → Nat) a + S5000x1.size a ≤ S5000x8.size a
  inb_S5000x128_S5000x16_0_80 : ∀ a, (![0, 80] : Fin 2 → Nat) a + S5000x16.size a ≤ S5000x128.size a
  inb_S5000x8_S5000x1_0_5 : ∀ a, (![0, 5] : Fin 2 → Nat) a + S5000x1.size a ≤ S5000x8.size a
  inb_S5000x128_S5000x16_0_96 : ∀ a, (![0, 96] : Fin 2 → Nat) a + S5000x16.size a ≤ S5000x128.size a
  inb_S5000x8_S5000x1_0_6 : ∀ a, (![0, 6] : Fin 2 → Nat) a + S5000x1.size a ≤ S5000x8.size a
  inb_S5000x128_S5000x16_0_112 : ∀ a, (![0, 112] : Fin 2 → Nat) a + S5000x16.size a ≤ S5000x128.size a
  inb_S5000x8_S5000x1_0_7 : ∀ a, (![0, 7] : Fin 2 → Nat) a + S5000x1.size a ≤ S5000x8.size a
  inb_S5000x16_S5000x16_0_0 : ∀ a, (![0, 0] : Fin 2 → Nat) a + S5000x16.size a ≤ S5000x16.size a
  bitsLt_bf16_f32 : FTy.bits .bf16 < FTy.bits .f32
  inb_S16x32_S16x32_0_0 : ∀ a, (![0, 0] : Fin 2 → Nat) a + S16x32.size a ≤ S16x32.size a
  h_S16x32 : 0 < S16x32.numel
  inb_S5000x128_S5000x128_0_0 : ∀ a, (![0, 0] : Fin 2 → Nat) a + S5000x128.size a ≤ S5000x128.size a
  h_S5000x128 : 0 < S5000x128.numel
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  bcast_S_S800000x32 : S_.BroadcastsInDim S800000x32 (![] : Fin 0 → Fin S800000x32.rank)
  shapeCasts_S800000x32_S100000x256 : S800000x32.ShapeCasts S100000x256
  shapeCasts_S8x32x16_S256x16 : S8x32x16.ShapeCasts S256x16
  shapeCasts_S16_S1x16 : S16.ShapeCasts S1x16
  inb_S5000x256_S5000x32_0_0 : ∀ a, (![0, 0] : Fin 2 → Nat) a + S5000x32.size a ≤ S5000x256.size a
  shapeCasts_S5000x32_S5000x32 : S5000x32.ShapeCasts S5000x32
  broadcasts_S5000x1_S5000x32 : S5000x1.Broadcasts S5000x32
  inb_S5000x256_S5000x32_0_32 : ∀ a, (![0, 32] : Fin 2 → Nat) a + S5000x32.size a ≤ S5000x256.size a
  inb_S5000x256_S5000x32_0_64 : ∀ a, (![0, 64] : Fin 2 → Nat) a + S5000x32.size a ≤ S5000x256.size a
  inb_S5000x256_S5000x32_0_96 : ∀ a, (![0, 96] : Fin 2 → Nat) a + S5000x32.size a ≤ S5000x256.size a
  inb_S5000x256_S5000x32_0_128 : ∀ a, (![0, 128] : Fin 2 → Nat) a + S5000x32.size a ≤ S5000x256.size a
  inb_S5000x256_S5000x32_0_160 : ∀ a, (![0, 160] : Fin 2 → Nat) a + S5000x32.size a ≤ S5000x256.size a
  inb_S5000x256_S5000x32_0_192 : ∀ a, (![0, 192] : Fin 2 → Nat) a + S5000x32.size a ≤ S5000x256.size a
  inb_S5000x256_S5000x32_0_224 : ∀ a, (![0, 224] : Fin 2 → Nat) a + S5000x32.size a ≤ S5000x256.size a
  inb_S32x16_S32x16_0_0 : ∀ a, (![0, 0] : Fin 2 → Nat) a + S32x16.size a ≤ S32x16.size a
  h_S32x16 : 0 < S32x16.numel
  inb_S5000x256_S5000x256_0_0 : ∀ a, (![0, 0] : Fin 2 → Nat) a + S5000x256.size a ≤ S5000x256.size a
  h_S5000x256 : 0 < S5000x256.numel
  inb_S256x16_S256x16_0_0 : ∀ a, (![0, 0] : Fin 2 → Nat) a + S256x16.size a ≤ S256x16.size a
  h_S256x16 : 0 < S256x16.numel
  shapeCasts_S256x16_S256x16 : S256x16.ShapeCasts S256x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  scatter_S800000_S3200000x1_S3200000_n_0_0_1_wf : ScatterDims.WF S800000 S3200000x1 S3200000 [] [0] [0] 1
  gather_S100000x16_S3200000x1_S3200000x16_1_0_n_n_0_1_116_wf : GatherDims.WF S100000x16 S3200000x1 S3200000x16 [1] [0] [] [0] [] 1 ![1, 16]
  scatter_S800000x16_S3200000x1_S3200000x16_1_0_0_1_wf : ScatterDims.WF S800000x16 S3200000x1 S3200000x16 [1] [0] [0] 1
  dot_S5000x16_S16x32_S5000x32_1_0_0_1_n_n_wf : DotDims.WF S5000x16 S16x32 S5000x32 [1] [0] [0] [1] [] []
  dot_S5000x128_S128x32_S5000x32_1_0_0_1_n_n_wf : DotDims.WF S5000x128 S128x32 S5000x32 [1] [0] [0] [1] [] []
  gather_S100000x32_S3200000x1_S3200000x32_1_0_n_n_0_1_132_wf : GatherDims.WF S100000x32 S3200000x1 S3200000x32 [1] [0] [] [0] [] 1 ![1, 32]
  scatter_S800000x32_S3200000x1_S3200000x32_1_0_0_1_wf : ScatterDims.WF S800000x32 S3200000x1 S3200000x32 [1] [0] [0] 1
  dot_S5000x32_S32x16_S5000x16_1_0_0_1_n_n_wf : DotDims.WF S5000x32 S32x16 S5000x16 [1] [0] [0] [1] [] []
  dot_S5000x256_S256x16_S5000x16_1_0_0_1_n_n_wf : DotDims.WF S5000x256 S256x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x16.size a ≤ S100000x16.size a
  hwx0_0 : ∀ i : grid0.Coords, EltTy.bits .f32 = 32 ∨ (Rect.block (s := S100000x16) S5000x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x8.size a ≤ S100000x8.size a
  hwx0_2 : ∀ i : grid0.Coords, EltTy.bits .f32 = 32 ∨ (Rect.block (s := S100000x8) S5000x8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x32.size a ≤ S16x32.size a
  hwx0_3 : ∀ i : grid0.Coords, EltTy.bits .f32 = 32 ∨ (Rect.block (s := S16x32) S16x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x32.size a ≤ S128x32.size a
  hwx0_4 : ∀ i : grid0.Coords, EltTy.bits .f32 = 32 ∨ (Rect.block (s := S128x32) S128x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x32.size a ≤ S100000x32.size a
  hwx0_6 : ∀ i : grid0.Coords, EltTy.bits .f32 = 32 ∨ (Rect.block (s := S100000x32) S5000x32.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x256.size a ≤ S100000x256.size a
  hwx1_1 : ∀ i : grid1.Coords, EltTy.bits .f32 = 32 ∨ (Rect.block (s := S100000x256) S5000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x8.size a ≤ S100000x8.size a
  hwx1_2 : ∀ i : grid1.Coords, EltTy.bits .f32 = 32 ∨ (Rect.block (s := S100000x8) S5000x8.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x16.size a ≤ S32x16.size a
  hwx1_3 : ∀ i : grid1.Coords, EltTy.bits .f32 = 32 ∨ (Rect.block (s := S32x16) S32x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x16.size a ≤ S256x16.size a
  hwx1_4 : ∀ i : grid1.Coords, EltTy.bits .f32 = 32 ∨ (Rect.block (s := S256x16) S256x16.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x16.size a ≤ S1x16.size a
  hwx1_5 : ∀ i : grid1.Coords, EltTy.bits .f32 = 32 ∨ (Rect.block (s := S1x16) S1x16.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x16.size a ≤ S100000x16.size a
  hwx1_6 : ∀ i : grid1.Coords, EltTy.bits .f32 = 32 ∨ (Rect.block (s := S100000x16) S5000x16.size (cc1_transform_6 i) (hinb1_6 i)).WholeWords (EltTy.packing .f32)

variable [Facts₀]

def scatter_S800000_S3200000x1_S3200000_n_0_0_1 : ScatterDims S800000 S3200000x1 S3200000 where
  updateWindowDims := []
  insertedWindowDims := [0]
  scatterDimsToOperandDims := [0]
  indexVectorDim := 1
  wf := scatter_S800000_S3200000x1_S3200000_n_0_0_1_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S800000x16_S3200000x1_S3200000x16_1_0_0_1 : ScatterDims S800000x16 S3200000x1 S3200000x16 where
  updateWindowDims := [1]
  insertedWindowDims := [0]
  scatterDimsToOperandDims := [0]
  indexVectorDim := 1
  wf := scatter_S800000x16_S3200000x1_S3200000x16_1_0_0_1_wf
def dot_S5000x16_S16x32_S5000x32_1_0_0_1_n_n : DotDims S5000x16 S16x32 S5000x32 where
  lhsContracting := [1]
  rhsContracting := [0]
  lhsNonContracting := [0]
  rhsNonContracting := [1]
  lhsBatch := []
  rhsBatch := []
  wf := dot_S5000x16_S16x32_S5000x32_1_0_0_1_n_n_wf
def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S800000x32_S3200000x1_S3200000x32_1_0_0_1 : ScatterDims S800000x32 S3200000x1 S3200000x32 where
  updateWindowDims := [1]
  insertedWindowDims := [0]
  scatterDimsToOperandDims := [0]
  indexVectorDim := 1
  wf := scatter_S800000x32_S3200000x1_S3200000x32_1_0_0_1_wf
def dot_S5000x32_S32x16_S5000x16_1_0_0_1_n_n : DotDims S5000x32 S32x16 S5000x16 where
  lhsContracting := [1]
  rhsContracting := [0]
  lhsNonContracting := [0]
  rhsNonContracting := [1]
  lhsBatch := []
  rhsBatch := []
  wf := dot_S5000x32_S32x16_S5000x16_1_0_0_1_n_n_wf
def dot_S5000x256_S256x16_S5000x16_1_0_0_1_n_n : DotDims S5000x256 S256x16 S5000x16 where
  lhsContracting := [1]
  rhsContracting := [0]
  lhsNonContracting := [0]
  rhsNonContracting := [1]
  lhsBatch := []
  rhsBatch := []
  wf := dot_S5000x256_S256x16_S5000x16_1_0_0_1_n_n_wf

abbrev win0_0 : Pipeline.Window sig grid0 :=
  Pipeline.Window.ofSpec (Memref.whole main_arg0) S5000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x8.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S16x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S128x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v29) S5000x32.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v29) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S5000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S5000x8.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S32x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v41) S256x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v42) S1x16.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v43) S5000x16.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x16 : Shape := ⟨2, ![100000, 16]⟩
abbrev S2x3200000 : Shape := ⟨2, ![2, 3200000]⟩
abbrev S3200000 : Shape := ⟨1, ![3200000]⟩
abbrev S8x16x32 : Shape := ⟨3, ![8, 16, 32]⟩
abbrev S16x32 : Shape := ⟨2, ![16, 32]⟩
abbrev S32 : Shape := ⟨1, ![32]⟩
abbrev S8x32x16 : Shape := ⟨3, ![8, 32, 16]⟩
abbrev S32x16 : Shape := ⟨2, ![32, 16]⟩
abbrev S16 : Shape := ⟨1, ![16]⟩
abbrev S1x3200000 : Shape := ⟨2, ![1, 3200000]⟩
abbrev S100000x32 : Shape := ⟨2, ![100000, 32]⟩
abbrev S1x32 : Shape := ⟨2, ![1, 32]⟩
abbrev S_ : Shape := ⟨0, ![]⟩
abbrev S3200000x1 : Shape := ⟨2, ![3200000, 1]⟩
abbrev S3200000x16 : Shape := ⟨2, ![3200000, 16]⟩
abbrev S100000 : Shape := ⟨1, ![100000]⟩
abbrev S100000x1 : Shape := ⟨2, ![100000, 1]⟩
abbrev S1x16x32 : Shape := ⟨3, ![1, 16, 32]⟩
abbrev S1x16 : Shape := ⟨2, ![1, 16]⟩
abbrev S3200000x32 : Shape := ⟨2, ![3200000, 32]⟩
abbrev S1x32x16 : Shape := ⟨3, ![1, 32, 16]⟩

abbrev nBuf : Space → Nat
  | .hbm => 458
  | .vmem => 0
  | .smem => 0
  | _ => 0

abbrev hbmTy0_0 (i : Nat) : BufTy := match i % 128 with
  | 0 => ⟨S100000x16, .f32⟩
  | 1 => ⟨S2x3200000, .i32⟩
  | 2 => ⟨S3200000, .i32⟩
  | 3 => ⟨S8x16x32, .f32⟩
  | 4 => ⟨S16x32, .f32⟩
  | 5 => ⟨S32, .f32⟩
  | 6 => ⟨S8x32x16, .f32⟩
  | 7 => ⟨S32x16, .f32⟩
  | 8 => ⟨S16, .f32⟩
  | 9 => ⟨S1x3200000, .i32⟩
  | 10 => ⟨S3200000, .i32⟩
  | 11 => ⟨S1x3200000, .i32⟩
  | 12 => ⟨S3200000, .i32⟩
  | 13 => ⟨S100000x32, .f32⟩
  | 14 => ⟨S1x32, .f32⟩
  | 15 => ⟨S100000x32, .f32⟩
  | 16 => ⟨S100000x32, .f32⟩
  | 17 => ⟨S_, .i32⟩
  | 18 => ⟨S3200000, .i32⟩
  | 19 => ⟨S3200000, .i1⟩
  | 20 => ⟨S_, .i32⟩
  | 21 => ⟨S3200000, .i32⟩
  | 22 => ⟨S3200000, .i32⟩
  | 23 => ⟨S3200000, .i32⟩
  | 24 => ⟨S3200000x1, .i32⟩
  | 25 => ⟨S3200000x16, .f32⟩
  | 26 => ⟨S_, .i32⟩
  | 27 => ⟨S3200000, .i32⟩
  | 28 => ⟨S3200000, .i1⟩
  | 29 => ⟨S3200000, .f32⟩
  | 30 => ⟨S3200000x1, .f32⟩
  | 31 => ⟨S3200000x16, .f32⟩
  | 32 => ⟨S3200000x16, .f32⟩
  | 33 => ⟨S_, .f32⟩
  | 34 => ⟨S100000x16, .f32⟩
  | 35 => ⟨S3200000x1, .i32⟩
  | 36 => ⟨S100000x16, .f32⟩
  | 37 => ⟨S_, .f32⟩
  | 38 => ⟨S100000, .f32⟩
  | 39 => ⟨S3200000x1, .i32⟩
  | 40 => ⟨S100000, .f32⟩
  | 41 => ⟨S_, .f32⟩
  | 42 => ⟨S_, .f32⟩
  | 43 => ⟨S100000, .f32⟩
  | 44 => ⟨S100000, .f32⟩
  | 45 => ⟨S100000x1, .f32⟩
  | 46 => ⟨S100000x16, .f32⟩
  | 47 => ⟨S100000x16, .f32⟩
  | 48 => ⟨S1x16x32, .f32⟩
  | 49 => ⟨S16x32, .f32⟩
  | 50 => ⟨S100000x32, .f32⟩
  | 51 => ⟨S100000x32, .f32⟩
  | 52 => ⟨S_, .i32⟩
  | 53 => ⟨S3200000, .i32⟩
  | 54 => ⟨S3200000, .i1⟩
  | 55 => ⟨S3200000, .f32⟩
  | 56 => ⟨S3200000x1, .f32⟩
  | 57 => ⟨S3200000x16, .f32⟩
  | 58 => ⟨S3200000x16, .f32⟩
  | 59 => ⟨S_, .f32⟩
  | 60 => ⟨S100000x16, .f32⟩
  | 61 => ⟨S3200000x1, .i32⟩
  | 62 => ⟨S100000x16, .f32⟩
  | 63 => ⟨S_, .f32⟩
  | 64 => ⟨S100000, .f32⟩
  | 65 => ⟨S3200000x1, .i32⟩
  | 66 => ⟨S100000, .f32⟩
  | 67 => ⟨S_, .f32⟩
  | 68 => ⟨S_, .f32⟩
  | 69 => ⟨S100000, .f32⟩
  | 70 => ⟨S100000, .f32⟩
  | 71 => ⟨S100000x1, .f32⟩
  | 72 => ⟨S100000x16, .f32⟩
  | 73 => ⟨S100000x16, .f32⟩
  | 74 => ⟨S1x16x32, .f32⟩
  | 75 => ⟨S16x32, .f32⟩
  | 76 => ⟨S100000x32, .f32⟩
  | 77 => ⟨S100000x32, .f32⟩
  | 78 => ⟨S_, .i32⟩
  | 79 => ⟨S3200000, .i32⟩
  | 80 => ⟨S3200000, .i1⟩
  | 81 => ⟨S3200000, .f32⟩
  | 82 => ⟨S3200000x1, .f32⟩
  | 83 => ⟨S3200000x16, .f32⟩
  | 84 => ⟨S3200000x16, .f32⟩
  | 85 => ⟨S_, .f32⟩
  | 86 => ⟨S100000x16, .f32⟩
  | 87 => ⟨S3200000x1, .i32⟩
  | 88 => ⟨S100000x16, .f32⟩
  | 89 => ⟨S_, .f32⟩
  | 90 => ⟨S100000, .f32⟩
  | 91 => ⟨S3200000x1, .i32⟩
  | 92 => ⟨S100000, .f32⟩
  | 93 => ⟨S_, .f32⟩
  | 94 => ⟨S_, .f32⟩
  | 95 => ⟨S100000, .f32⟩
  | 96 => ⟨S100000, .f32⟩
  | 97 => ⟨S100000x1, .f32⟩
  | 98 => ⟨S100000x16, .f32⟩
  | 99 => ⟨S100000x16, .f32⟩
  | 100 => ⟨S1x16x32, .f32⟩
  | 101 => ⟨S16x32, .f32⟩
  | 102 => ⟨S100000x32, .f32⟩
  | 103 => ⟨S100000x32, .f32⟩
  | 104 => ⟨S_, .i32⟩
  | 105 => ⟨S3200000, .i32⟩
  | 106 => ⟨S3200000, .i1⟩
  | 107 => ⟨S3200000, .f32⟩
  | 108 => ⟨S3200000x1, .f32⟩
  | 109 => ⟨S3200000x16, .f32⟩
  | 110 => ⟨S3200000x16, .f32⟩
  | 111 => ⟨S_, .f32⟩
  | 112 => ⟨S100000x16, .f32⟩
  | 113 => ⟨S3200000x1, .i32⟩
  | 114 => ⟨S100000x16, .f32⟩
  | 115 => ⟨S_, .f32⟩
  | 116 => ⟨S100000, .f32⟩
  | 117 => ⟨S3200000x1, .i32⟩
  | 118 => ⟨S100000, .f32⟩
  | 119 => ⟨S_, .f32⟩
  | 120 => ⟨S_, .f32⟩
  | 121 => ⟨S100000, .f32⟩
  | 122 => ⟨S100000, .f32⟩
  | 123 => ⟨S100000x1, .f32⟩
  | 124 => ⟨S100000x16, .f32⟩
  | 125 => ⟨S100000x16, .f32⟩
  | 126 => ⟨S1x16x32, .f32⟩
  | 127 => ⟨S16x32, .f32⟩
  | _ => ⟨S100000x16, .f32⟩

abbrev hbmTy0_1 (i : Nat) : BufTy := match i % 128 with
  | 0 => ⟨S100000x32, .f32⟩
  | 1 => ⟨S100000x32, .f32⟩
  | 2 => ⟨S_, .i32⟩
  | 3 => ⟨S3200000, .i32⟩
  | 4 => ⟨S3200000, .i1⟩
  | 5 => ⟨S3200000, .f32⟩
  | 6 => ⟨S3200000x1, .f32⟩
  | 7 => ⟨S3200000x16, .f32⟩
  | 8 => ⟨S3200000x16, .f32⟩
  | 9 => ⟨S_, .f32⟩
  | 10 => ⟨S100000x16, .f32⟩
  | 11 => ⟨S3200000x1, .i32⟩
  | 12 => ⟨S100000x16, .f32⟩
  | 13 => ⟨S_, .f32⟩
  | 14 => ⟨S100000, .f32⟩
  | 15 => ⟨S3200000x1, .i32⟩
  | 16 => ⟨S100000, .f32⟩
  | 17 => ⟨S_, .f32⟩
  | 18 => ⟨S_, .f32⟩
  | 19 => ⟨S100000, .f32⟩
  | 20 => ⟨S100000, .f32⟩
  | 21 => ⟨S100000x1, .f32⟩
  | 22 => ⟨S100000x16, .f32⟩
  | 23 => ⟨S100000x16, .f32⟩
  | 24 => ⟨S1x16x32, .f32⟩
  | 25 => ⟨S16x32, .f32⟩
  | 26 => ⟨S100000x32, .f32⟩
  | 27 => ⟨S100000x32, .f32⟩
  | 28 => ⟨S_, .i32⟩
  | 29 => ⟨S3200000, .i32⟩
  | 30 => ⟨S3200000, .i1⟩
  | 31 => ⟨S3200000, .f32⟩
  | 32 => ⟨S3200000x1, .f32⟩
  | 33 => ⟨S3200000x16, .f32⟩
  | 34 => ⟨S3200000x16, .f32⟩
  | 35 => ⟨S_, .f32⟩
  | 36 => ⟨S100000x16, .f32⟩
  | 37 => ⟨S3200000x1, .i32⟩
  | 38 => ⟨S100000x16, .f32⟩
  | 39 => ⟨S_, .f32⟩
  | 40 => ⟨S100000, .f32⟩
  | 41 => ⟨S3200000x1, .i32⟩
  | 42 => ⟨S100000, .f32⟩
  | 43 => ⟨S_, .f32⟩
  | 44 => ⟨S_, .f32⟩
  | 45 => ⟨S100000, .f32⟩
  | 46 => ⟨S100000, .f32⟩
  | 47 => ⟨S100000x1, .f32⟩
  | 48 => ⟨S100000x16, .f32⟩
  | 49 => ⟨S100000x16, .f32⟩
  | 50 => ⟨S1x16x32, .f32⟩
  | 51 => ⟨S16x32, .f32⟩
  | 52 => ⟨S100000x32, .f32⟩
  | 53 => ⟨S100000x32, .f32⟩
  | 54 => ⟨S_, .i32⟩
  | 55 => ⟨S3200000, .i32⟩
  | 56 => ⟨S3200000, .i1⟩
  | 57 => ⟨S3200000, .f32⟩
  | 58 => ⟨S3200000x1, .f32⟩
  | 59 => ⟨S3200000x16, .f32⟩
  | 60 => ⟨S3200000x16, .f32⟩
  | 61 => ⟨S_, .f32⟩
  | 62 => ⟨S100000x16, .f32⟩
  | 63 => ⟨S3200000x1, .i32⟩
  | 64 => ⟨S100000x16, .f32⟩
  | 65 => ⟨S_, .f32⟩
  | 66 => ⟨S100000, .f32⟩
  | 67 => ⟨S3200000x1, .i32⟩
  | 68 => ⟨S100000, .f32⟩
  | 69 => ⟨S_, .f32⟩
  | 70 => ⟨S_, .f32⟩
  | 71 => ⟨S100000, .f32⟩
  | 72 => ⟨S100000, .f32⟩
  | 73 => ⟨S100000x1, .f32⟩
  | 74 => ⟨S100000x16, .f32⟩
  | 75 => ⟨S100000x16, .f32⟩
  | 76 => ⟨S1x16x32, .f32⟩
  | 77 => ⟨S16x32, .f32⟩
  | 78 => ⟨S100000x32, .f32⟩
  | 79 => ⟨S100000x32, .f32⟩
  | 80 => ⟨S_, .i32⟩
  | 81 => ⟨S3200000, .i32⟩
  | 82 => ⟨S3200000, .i1⟩
  | 83 => ⟨S3200000, .f32⟩
  | 84 => ⟨S3200000x1, .f32⟩
  | 85 => ⟨S3200000x16, .f32⟩
  | 86 => ⟨S3200000x16, .f32⟩
  | 87 => ⟨S_, .f32⟩
  | 88 => ⟨S100000x16, .f32⟩
  | 89 => ⟨S3200000x1, .i32⟩
  | 90 => ⟨S100000x16, .f32⟩
  | 91 => ⟨S_, .f32⟩
  | 92 => ⟨S100000, .f32⟩
  | 93 => ⟨S3200000x1, .i32⟩
  | 94 => ⟨S100000, .f32⟩
  | 95 => ⟨S_, .f32⟩
  | 96 => ⟨S_, .f32⟩
  | 97 => ⟨S100000, .f32⟩
  | 98 => ⟨S100000, .f32⟩
  | 99 => ⟨S100000x1, .f32⟩
  | 100 => ⟨S100000x16, .f32⟩
  | 101 => ⟨S100000x16, .f32⟩
  | 102 => ⟨S1x16x32, .f32⟩
  | 103 => ⟨S16x32, .f32⟩
  | 104 => ⟨S100000x32, .f32⟩
  | 105 => ⟨S100000x32, .f32⟩
  | 106 => ⟨S_, .f32⟩
  | 107 => ⟨S100000x32, .f32⟩
  | 108 => ⟨S100000x32, .f32⟩
  | 109 => ⟨S100000x16, .f32⟩
  | 110 => ⟨S1x16, .f32⟩
  | 111 => ⟨S100000x16, .f32⟩
  | 112 => ⟨S100000x16, .f32⟩
  | 113 => ⟨S_, .i32⟩
  | 114 => ⟨S3200000, .i32⟩
  | 115 => ⟨S3200000, .i1⟩
  | 116 => ⟨S_, .i32⟩
  | 117 => ⟨S3200000, .i32⟩
  | 118 => ⟨S3200000, .i32⟩
  | 119 => ⟨S3200000, .i32⟩
  | 120 => ⟨S3200000x1, .i32⟩
  | 121 => ⟨S3200000x32, .f32⟩
  | 122 => ⟨S_, .i32⟩
  | 123 => ⟨S3200000, .i32⟩
  | 124 => ⟨S3200000, .i1⟩
  | 125 => ⟨S3200000, .f32⟩
  | 126 => ⟨S3200000x1, .f32⟩
  | 127 => ⟨S3200000x32, .f32⟩
  | _ => ⟨S100000x16, .f32⟩

abbrev hbmTy0_2 (i : Nat) : BufTy := match i % 128 with
  | 0 => ⟨S3200000x32, .f32⟩
  | 1 => ⟨S_, .f32⟩
  | 2 => ⟨S100000x32, .f32⟩
  | 3 => ⟨S3200000x1, .i32⟩
  | 4 => ⟨S100000x32, .f32⟩
  | 5 => ⟨S_, .f32⟩
  | 6 => ⟨S100000, .f32⟩
  | 7 => ⟨S3200000x1, .i32⟩
  | 8 => ⟨S100000, .f32⟩
  | 9 => ⟨S_, .f32⟩
  | 10 => ⟨S_, .f32⟩
  | 11 => ⟨S100000, .f32⟩
  | 12 => ⟨S100000, .f32⟩
  | 13 => ⟨S100000x1, .f32⟩
  | 14 => ⟨S100000x32, .f32⟩
  | 15 => ⟨S100000x32, .f32⟩
  | 16 => ⟨S1x32x16, .f32⟩
  | 17 => ⟨S32x16, .f32⟩
  | 18 => ⟨S100000x16, .f32⟩
  | 19 => ⟨S100000x16, .f32⟩
  | 20 => ⟨S_, .i32⟩
  | 21 => ⟨S3200000, .i32⟩
  | 22 => ⟨S3200000, .i1⟩
  | 23 => ⟨S3200000, .f32⟩
  | 24 => ⟨S3200000x1, .f32⟩
  | 25 => ⟨S3200000x32, .f32⟩
  | 26 => ⟨S3200000x32, .f32⟩
  | 27 => ⟨S_, .f32⟩
  | 28 => ⟨S100000x32, .f32⟩
  | 29 => ⟨S3200000x1, .i32⟩
  | 30 => ⟨S100000x32, .f32⟩
  | 31 => ⟨S_, .f32⟩
  | 32 => ⟨S100000, .f32⟩
  | 33 => ⟨S3200000x1, .i32⟩
  | 34 => ⟨S100000, .f32⟩
  | 35 => ⟨S_, .f32⟩
  | 36 => ⟨S_, .f32⟩
  | 37 => ⟨S100000, .f32⟩
  | 38 => ⟨S100000, .f32⟩
  | 39 => ⟨S100000x1, .f32⟩
  | 40 => ⟨S100000x32, .f32⟩
  | 41 => ⟨S100000x32, .f32⟩
  | 42 => ⟨S1x32x16, .f32⟩
  | 43 => ⟨S32x16, .f32⟩
  | 44 => ⟨S100000x16, .f32⟩
  | 45 => ⟨S100000x16, .f32⟩
  | 46 => ⟨S_, .i32⟩
  | 47 => ⟨S3200000, .i32⟩
  | 48 => ⟨S3200000, .i1⟩
  | 49 => ⟨S3200000, .f32⟩
  | 50 => ⟨S3200000x1, .f32⟩
  | 51 => ⟨S3200000x32, .f32⟩
  | 52 => ⟨S3200000x32, .f32⟩
  | 53 => ⟨S_, .f32⟩
  | 54 => ⟨S100000x32, .f32⟩
  | 55 => ⟨S3200000x1, .i32⟩
  | 56 => ⟨S100000x32, .f32⟩
  | 57 => ⟨S_, .f32⟩
  | 58 => ⟨S100000, .f32⟩
  | 59 => ⟨S3200000x1, .i32⟩
  | 60 => ⟨S100000, .f32⟩
  | 61 => ⟨S_, .f32⟩
  | 62 => ⟨S_, .f32⟩
  | 63 => ⟨S100000, .f32⟩
  | 64 => ⟨S100000, .f32⟩
  | 65 => ⟨S100000x1, .f32⟩
  | 66 => ⟨S100000x32, .f32⟩
  | 67 => ⟨S100000x32, .f32⟩
  | 68 => ⟨S1x32x16, .f32⟩
  | 69 => ⟨S32x16, .f32⟩
  | 70 => ⟨S100000x16, .f32⟩
  | 71 => ⟨S100000x16, .f32⟩
  | 72 => ⟨S_, .i32⟩
  | 73 => ⟨S3200000, .i32⟩
  | 74 => ⟨S3200000, .i1⟩
  | 75 => ⟨S3200000, .f32⟩
  | 76 => ⟨S3200000x1, .f32⟩
  | 77 => ⟨S3200000x32, .f32⟩
  | 78 => ⟨S3200000x32, .f32⟩
  | 79 => ⟨S_, .f32⟩
  | 80 => ⟨S100000x32, .f32⟩
  | 81 => ⟨S3200000x1, .i32⟩
  | 82 => ⟨S100000x32, .f32⟩
  | 83 => ⟨S_, .f32⟩
  | 84 => ⟨S100000, .f32⟩
  | 85 => ⟨S3200000x1, .i32⟩
  | 86 => ⟨S100000, .f32⟩
  | 87 => ⟨S_, .f32⟩
  | 88 => ⟨S_, .f32⟩
  | 89 => ⟨S100000, .f32⟩
  | 90 => ⟨S100000, .f32⟩
  | 91 => ⟨S100000x1, .f32⟩
  | 92 => ⟨S100000x32, .f32⟩
  | 93 => ⟨S100000x32, .f32⟩
  | 94 => ⟨S1x32x16, .f32⟩
  | 95 => ⟨S32x16, .f32⟩
  | 96 => ⟨S100000x16, .f32⟩
  | 97 => ⟨S100000x16, .f32⟩
  | 98 => ⟨S_, .i32⟩
  | 99 => ⟨S3200000, .i32⟩
  | 100 => ⟨S3200000, .i1⟩
  | 101 => ⟨S3200000, .f32⟩
  | 102 => ⟨S3200000x1, .f32⟩
  | 103 => ⟨S3200000x32, .f32⟩
  | 104 => ⟨S3200000x32, .f32⟩
  | 105 => ⟨S_, .f32⟩
  | 106 => ⟨S100000x32, .f32⟩
  | 107 => ⟨S3200000x1, .i32⟩
  | 108 => ⟨S100000x32, .f32⟩
  | 109 => ⟨S_, .f32⟩
  | 110 => ⟨S100000, .f32⟩
  | 111 => ⟨S3200000x1, .i32⟩
  | 112 => ⟨S100000, .f32⟩
  | 113 => ⟨S_, .f32⟩
  | 114 => ⟨S_, .f32⟩
  | 115 => ⟨S100000, .f32⟩
  | 116 => ⟨S100000, .f32⟩
  | 117 => ⟨S100000x1, .f32⟩
  | 118 => ⟨S100000x32, .f32⟩
  | 119 => ⟨S100000x32, .f32⟩
  | 120 => ⟨S1x32x16, .f32⟩
  | 121 => ⟨S32x16, .f32⟩
  | 122 => ⟨S100000x16, .f32⟩
  | 123 => ⟨S100000x16, .f32⟩
  | 124 => ⟨S_, .i32⟩
  | 125 => ⟨S3200000, .i32⟩
  | 126 => ⟨S3200000, .i1⟩
  | 127 => ⟨S3200000, .f32⟩
  | _ => ⟨S100000x16, .f32⟩

abbrev hbmTy0_3 (i : Nat) : BufTy := match i % 128 with
  | 0 => ⟨S3200000x1, .f32⟩
  | 1 => ⟨S3200000x32, .f32⟩
  | 2 => ⟨S3200000x32, .f32⟩
  | 3 => ⟨S_, .f32⟩
  | 4 => ⟨S100000x32, .f32⟩
  | 5 => ⟨S3200000x1, .i32⟩
  | 6 => ⟨S100000x32, .f32⟩
  | 7 => ⟨S_, .f32⟩
  | 8 => ⟨S100000, .f32⟩
  | 9 => ⟨S3200000x1, .i32⟩
  | 10 => ⟨S100000, .f32⟩
  | 11 => ⟨S_, .f32⟩
  | 12 => ⟨S_, .f32⟩
  | 13 => ⟨S100000, .f32⟩
  | 14 => ⟨S100000, .f32⟩
  | 15 => ⟨S100000x1, .f32⟩
  | 16 => ⟨S100000x32, .f32⟩
  | 17 => ⟨S100000x32, .f32⟩
  | 18 => ⟨S1x32x16, .f32⟩
  | 19 => ⟨S32x16, .f32⟩
  | 20 => ⟨S100000x16, .f32⟩
  | 21 => ⟨S100000x16, .f32⟩
  | 22 => ⟨S_, .i32⟩
  | 23 => ⟨S3200000, .i32⟩
  | 24 => ⟨S3200000, .i1⟩
  | 25 => ⟨S3200000, .f32⟩
  | 26 => ⟨S3200000x1, .f32⟩
  | 27 => ⟨S3200000x32, .f32⟩
  | 28 => ⟨S3200000x32, .f32⟩
  | 29 => ⟨S_, .f32⟩
  | 30 => ⟨S100000x32, .f32⟩
  | 31 => ⟨S3200000x1, .i32⟩
  | 32 => ⟨S100000x32, .f32⟩
  | 33 => ⟨S_, .f32⟩
  | 34 => ⟨S100000, .f32⟩
  | 35 => ⟨S3200000x1, .i32⟩
  | 36 => ⟨S100000, .f32⟩
  | 37 => ⟨S_, .f32⟩
  | 38 => ⟨S_, .f32⟩
  | 39 => ⟨S100000, .f32⟩
  | 40 => ⟨S100000, .f32⟩
  | 41 => ⟨S100000x1, .f32⟩
  | 42 => ⟨S100000x32, .f32⟩
  | 43 => ⟨S100000x32, .f32⟩
  | 44 => ⟨S1x32x16, .f32⟩
  | 45 => ⟨S32x16, .f32⟩
  | 46 => ⟨S100000x16, .f32⟩
  | 47 => ⟨S100000x16, .f32⟩
  | 48 => ⟨S_, .i32⟩
  | 49 => ⟨S3200000, .i32⟩
  | 50 => ⟨S3200000, .i1⟩
  | 51 => ⟨S3200000, .f32⟩
  | 52 => ⟨S3200000x1, .f32⟩
  | 53 => ⟨S3200000x32, .f32⟩
  | 54 => ⟨S3200000x32, .f32⟩
  | 55 => ⟨S_, .f32⟩
  | 56 => ⟨S100000x32, .f32⟩
  | 57 => ⟨S3200000x1, .i32⟩
  | 58 => ⟨S100000x32, .f32⟩
  | 59 => ⟨S_, .f32⟩
  | 60 => ⟨S100000, .f32⟩
  | 61 => ⟨S3200000x1, .i32⟩
  | 62 => ⟨S100000, .f32⟩
  | 63 => ⟨S_, .f32⟩
  | 64 => ⟨S_, .f32⟩
  | 65 => ⟨S100000, .f32⟩
  | 66 => ⟨S100000, .f32⟩
  | 67 => ⟨S100000x1, .f32⟩
  | 68 => ⟨S100000x32, .f32⟩
  | 69 => ⟨S100000x32, .f32⟩
  | 70 => ⟨S1x32x16, .f32⟩
  | 71 => ⟨S32x16, .f32⟩
  | 72 => ⟨S100000x16, .f32⟩
  | 73 => ⟨S100000x16, .f32⟩
  | _ => ⟨S100000x16, .f32⟩

abbrev hbmTy (i : Nat) : BufTy := match i / 128 with
  | 0 => hbmTy0_0 i
  | 1 => hbmTy0_1 i
  | 2 => hbmTy0_2 i
  | 3 => hbmTy0_3 i
  | _ => ⟨S100000x16, .f32⟩

abbrev bufTy : (tb : Table) → Fin (tcTables nBuf tb) → BufTy
  | .hbm, ⟨i, _⟩ => hbmTy i
  | _, _ => ⟨S100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_c_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_call0_v0 : Ref sig .tc := ⟨.hbm, 42, rfl⟩
abbrev main_call0_v1 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_4 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_5 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_6 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_7 : Ref sig .tc := ⟨.hbm, 67, rfl⟩
abbrev main_call1_v0 : Ref sig .tc := ⟨.hbm, 68, rfl⟩
abbrev main_call1_v1 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_c_8 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_9 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_10 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_11 : Ref sig .tc := ⟨.hbm, 93, rfl⟩
abbrev main_call2_v0 : Ref sig .tc := ⟨.hbm, 94, rfl⟩
abbrev main_call2_v1 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_c_12 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_13 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_cst_14 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_cst_15 : Ref sig .tc := ⟨.hbm, 119, rfl⟩
abbrev main_call3_v0 : Ref sig .tc := ⟨.hbm, 120, rfl⟩
abbrev main_call3_v1 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_c_16 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_cst_17 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_cst_18 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_cst_19 : Ref sig .tc := ⟨.hbm, 145, rfl⟩
abbrev main_call4_v0 : Ref sig .tc := ⟨.hbm, 146, rfl⟩
abbrev main_call4_v1 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_c_20 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_cst_21 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_cst_22 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_cst_23 : Ref sig .tc := ⟨.hbm, 171, rfl⟩
abbrev main_call5_v0 : Ref sig .tc := ⟨.hbm, 172, rfl⟩
abbrev main_call5_v1 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_c_24 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_cst_25 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_cst_26 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_cst_27 : Ref sig .tc := ⟨.hbm, 197, rfl⟩
abbrev main_call6_v0 : Ref sig .tc := ⟨.hbm, 198, rfl⟩
abbrev main_call6_v1 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_c_28 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev main_cst_29 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_cst_30 : Ref sig .tc := ⟨.hbm, 219, rfl⟩
abbrev main_v164 : Ref sig .tc := ⟨.hbm, 220, rfl⟩
abbrev main_v165 : Ref sig .tc := ⟨.hbm, 221, rfl⟩
abbrev main_v166 : Ref sig .tc := ⟨.hbm, 222, rfl⟩
abbrev main_cst_31 : Ref sig .tc := ⟨.hbm, 223, rfl⟩
abbrev main_call7_v0 : Ref sig .tc := ⟨.hbm, 224, rfl⟩
abbrev main_call7_v1 : Ref sig .tc := ⟨.hbm, 225, rfl⟩
abbrev main_v167 : Ref sig .tc := ⟨.hbm, 226, rfl⟩
abbrev main_v168 : Ref sig .tc := ⟨.hbm, 227, rfl⟩
abbrev main_v169 : Ref sig .tc := ⟨.hbm, 228, rfl⟩
abbrev main_v170 : Ref sig .tc := ⟨.hbm, 229, rfl⟩
abbrev main_v171 : Ref sig .tc := ⟨.hbm, 230, rfl⟩
abbrev main_v172 : Ref sig .tc := ⟨.hbm, 231, rfl⟩
abbrev main_v173 : Ref sig .tc := ⟨.hbm, 232, rfl⟩
abbrev main_v174 : Ref sig .tc := ⟨.hbm, 233, rfl⟩
abbrev main_call8_cst : Ref sig .tc := ⟨.hbm, 234, rfl⟩
abbrev main_call8_v0 : Ref sig .tc := ⟨.hbm, 235, rfl⟩
abbrev main_v175 : Ref sig .tc := ⟨.hbm, 236, rfl⟩
abbrev main_v176 : Ref sig .tc := ⟨.hbm, 237, rfl⟩
abbrev main_v177 : Ref sig .tc := ⟨.hbm, 238, rfl⟩
abbrev main_v178 : Ref sig .tc := ⟨.hbm, 239, rfl⟩
abbrev main_v179 : Ref sig .tc := ⟨.hbm, 240, rfl⟩
abbrev main_c_32 : Ref sig .tc := ⟨.hbm, 241, rfl⟩
abbrev main_v180 : Ref sig .tc := ⟨.hbm, 242, rfl⟩
abbrev main_v181 : Ref sig .tc := ⟨.hbm, 243, rfl⟩
abbrev main_c_33 : Ref sig .tc := ⟨.hbm, 244, rfl⟩
abbrev main_v182 : Ref sig .tc := ⟨.hbm, 245, rfl⟩
abbrev main_v183 : Ref sig .tc := ⟨.hbm, 246, rfl⟩
abbrev main_v184 : Ref sig .tc := ⟨.hbm, 247, rfl⟩
abbrev main_v185 : Ref sig .tc := ⟨.hbm, 248, rfl⟩
abbrev main_v186 : Ref sig .tc := ⟨.hbm, 249, rfl⟩
abbrev main_c_34 : Ref sig .tc := ⟨.hbm, 250, rfl⟩
abbrev main_v187 : Ref sig .tc := ⟨.hbm, 251, rfl⟩
abbrev main_v188 : Ref sig .tc := ⟨.hbm, 252, rfl⟩
abbrev main_v189 : Ref sig .tc := ⟨.hbm, 253, rfl⟩
abbrev main_v190 : Ref sig .tc := ⟨.hbm, 254, rfl⟩
abbrev main_v191 : Ref sig .tc := ⟨.hbm, 255, rfl⟩
abbrev main_v192 : Ref sig .tc := ⟨.hbm, 256, rfl⟩
abbrev main_cst_35 : Ref sig .tc := ⟨.hbm, 257, rfl⟩
abbrev main_v193 : Ref sig .tc := ⟨.hbm, 258, rfl⟩
abbrev main_v194 : Ref sig .tc := ⟨.hbm, 259, rfl⟩
abbrev main_v195 : Ref sig .tc := ⟨.hbm, 260, rfl⟩
abbrev main_cst_36 : Ref sig .tc := ⟨.hbm, 261, rfl⟩
abbrev main_v196 : Ref sig .tc := ⟨.hbm, 262, rfl⟩
abbrev main_v197 : Ref sig .tc := ⟨.hbm, 263, rfl⟩
abbrev main_v198 : Ref sig .tc := ⟨.hbm, 264, rfl⟩
abbrev main_cst_37 : Ref sig .tc := ⟨.hbm, 265, rfl⟩
abbrev main_call9_v0 : Ref sig .tc := ⟨.hbm, 266, rfl⟩
abbrev main_call9_v1 : Ref sig .tc := ⟨.hbm, 267, rfl⟩
abbrev main_v199 : Ref sig .tc := ⟨.hbm, 268, rfl⟩
abbrev main_v200 : Ref sig .tc := ⟨.hbm, 269, rfl⟩
abbrev main_v201 : Ref sig .tc := ⟨.hbm, 270, rfl⟩
abbrev main_v202 : Ref sig .tc := ⟨.hbm, 271, rfl⟩
abbrev main_v203 : Ref sig .tc := ⟨.hbm, 272, rfl⟩
abbrev main_v204 : Ref sig .tc := ⟨.hbm, 273, rfl⟩
abbrev main_v205 : Ref sig .tc := ⟨.hbm, 274, rfl⟩
abbrev main_v206 : Ref sig .tc := ⟨.hbm, 275, rfl⟩
abbrev main_c_38 : Ref sig .tc := ⟨.hbm, 276, rfl⟩
abbrev main_v207 : Ref sig .tc := ⟨.hbm, 277, rfl⟩
abbrev main_v208 : Ref sig .tc := ⟨.hbm, 278, rfl⟩
abbrev main_v209 : Ref sig .tc := ⟨.hbm, 279, rfl⟩
abbrev main_v210 : Ref sig .tc := ⟨.hbm, 280, rfl⟩
abbrev main_v211 : Ref sig .tc := ⟨.hbm, 281, rfl⟩
abbrev main_v212 : Ref sig .tc := ⟨.hbm, 282, rfl⟩
abbrev main_cst_39 : Ref sig .tc := ⟨.hbm, 283, rfl⟩
abbrev main_v213 : Ref sig .tc := ⟨.hbm, 284, rfl⟩
abbrev main_v214 : Ref sig .tc := ⟨.hbm, 285, rfl⟩
abbrev main_v215 : Ref sig .tc := ⟨.hbm, 286, rfl⟩
abbrev main_cst_40 : Ref sig .tc := ⟨.hbm, 287, rfl⟩
abbrev main_v216 : Ref sig .tc := ⟨.hbm, 288, rfl⟩
abbrev main_v217 : Ref sig .tc := ⟨.hbm, 289, rfl⟩
abbrev main_v218 : Ref sig .tc := ⟨.hbm, 290, rfl⟩
abbrev main_cst_41 : Ref sig .tc := ⟨.hbm, 291, rfl⟩
abbrev main_call10_v0 : Ref sig .tc := ⟨.hbm, 292, rfl⟩
abbrev main_call10_v1 : Ref sig .tc := ⟨.hbm, 293, rfl⟩
abbrev main_v219 : Ref sig .tc := ⟨.hbm, 294, rfl⟩
abbrev main_v220 : Ref sig .tc := ⟨.hbm, 295, rfl⟩
abbrev main_v221 : Ref sig .tc := ⟨.hbm, 296, rfl⟩
abbrev main_v222 : Ref sig .tc := ⟨.hbm, 297, rfl⟩
abbrev main_v223 : Ref sig .tc := ⟨.hbm, 298, rfl⟩
abbrev main_v224 : Ref sig .tc := ⟨.hbm, 299, rfl⟩
abbrev main_v225 : Ref sig .tc := ⟨.hbm, 300, rfl⟩
abbrev main_v226 : Ref sig .tc := ⟨.hbm, 301, rfl⟩
abbrev main_c_42 : Ref sig .tc := ⟨.hbm, 302, rfl⟩
abbrev main_v227 : Ref sig .tc := ⟨.hbm, 303, rfl⟩
abbrev main_v228 : Ref sig .tc := ⟨.hbm, 304, rfl⟩
abbrev main_v229 : Ref sig .tc := ⟨.hbm, 305, rfl⟩
abbrev main_v230 : Ref sig .tc := ⟨.hbm, 306, rfl⟩
abbrev main_v231 : Ref sig .tc := ⟨.hbm, 307, rfl⟩
abbrev main_v232 : Ref sig .tc := ⟨.hbm, 308, rfl⟩
abbrev main_cst_43 : Ref sig .tc := ⟨.hbm, 309, rfl⟩
abbrev main_v233 : Ref sig .tc := ⟨.hbm, 310, rfl⟩
abbrev main_v234 : Ref sig .tc := ⟨.hbm, 311, rfl⟩
abbrev main_v235 : Ref sig .tc := ⟨.hbm, 312, rfl⟩
abbrev main_cst_44 : Ref sig .tc := ⟨.hbm, 313, rfl⟩
abbrev main_v236 : Ref sig .tc := ⟨.hbm, 314, rfl⟩
abbrev main_v237 : Ref sig .tc := ⟨.hbm, 315, rfl⟩
abbrev main_v238 : Ref sig .tc := ⟨.hbm, 316, rfl⟩
abbrev main_cst_45 : Ref sig .tc := ⟨.hbm, 317, rfl⟩
abbrev main_call11_v0 : Ref sig .tc := ⟨.hbm, 318, rfl⟩
abbrev main_call11_v1 : Ref sig .tc := ⟨.hbm, 319, rfl⟩
abbrev main_v239 : Ref sig .tc := ⟨.hbm, 320, rfl⟩
abbrev main_v240 : Ref sig .tc := ⟨.hbm, 321, rfl⟩
abbrev main_v241 : Ref sig .tc := ⟨.hbm, 322, rfl⟩
abbrev main_v242 : Ref sig .tc := ⟨.hbm, 323, rfl⟩
abbrev main_v243 : Ref sig .tc := ⟨.hbm, 324, rfl⟩
abbrev main_v244 : Ref sig .tc := ⟨.hbm, 325, rfl⟩
abbrev main_v245 : Ref sig .tc := ⟨.hbm, 326, rfl⟩
abbrev main_v246 : Ref sig .tc := ⟨.hbm, 327, rfl⟩
abbrev main_c_46 : Ref sig .tc := ⟨.hbm, 328, rfl⟩
abbrev main_v247 : Ref sig .tc := ⟨.hbm, 329, rfl⟩
abbrev main_v248 : Ref sig .tc := ⟨.hbm, 330, rfl⟩
abbrev main_v249 : Ref sig .tc := ⟨.hbm, 331, rfl⟩
abbrev main_v250 : Ref sig .tc := ⟨.hbm, 332, rfl⟩
abbrev main_v251 : Ref sig .tc := ⟨.hbm, 333, rfl⟩
abbrev main_v252 : Ref sig .tc := ⟨.hbm, 334, rfl⟩
abbrev main_cst_47 : Ref sig .tc := ⟨.hbm, 335, rfl⟩
abbrev main_v253 : Ref sig .tc := ⟨.hbm, 336, rfl⟩
abbrev main_v254 : Ref sig .tc := ⟨.hbm, 337, rfl⟩
abbrev main_v255 : Ref sig .tc := ⟨.hbm, 338, rfl⟩
abbrev main_cst_48 : Ref sig .tc := ⟨.hbm, 339, rfl⟩
abbrev main_v256 : Ref sig .tc := ⟨.hbm, 340, rfl⟩
abbrev main_v257 : Ref sig .tc := ⟨.hbm, 341, rfl⟩
abbrev main_v258 : Ref sig .tc := ⟨.hbm, 342, rfl⟩
abbrev main_cst_49 : Ref sig .tc := ⟨.hbm, 343, rfl⟩
abbrev main_call12_v0 : Ref sig .tc := ⟨.hbm, 344, rfl⟩
abbrev main_call12_v1 : Ref sig .tc := ⟨.hbm, 345, rfl⟩
abbrev main_v259 : Ref sig .tc := ⟨.hbm, 346, rfl⟩
abbrev main_v260 : Ref sig .tc := ⟨.hbm, 347, rfl⟩
abbrev main_v261 : Ref sig .tc := ⟨.hbm, 348, rfl⟩
abbrev main_v262 : Ref sig .tc := ⟨.hbm, 349, rfl⟩
abbrev main_v263 : Ref sig .tc := ⟨.hbm, 350, rfl⟩
abbrev main_v264 : Ref sig .tc := ⟨.hbm, 351, rfl⟩
abbrev main_v265 : Ref sig .tc := ⟨.hbm, 352, rfl⟩
abbrev main_v266 : Ref sig .tc := ⟨.hbm, 353, rfl⟩
abbrev main_c_50 : Ref sig .tc := ⟨.hbm, 354, rfl⟩
abbrev main_v267 : Ref sig .tc := ⟨.hbm, 355, rfl⟩
abbrev main_v268 : Ref sig .tc := ⟨.hbm, 356, rfl⟩
abbrev main_v269 : Ref sig .tc := ⟨.hbm, 357, rfl⟩
abbrev main_v270 : Ref sig .tc := ⟨.hbm, 358, rfl⟩
abbrev main_v271 : Ref sig .tc := ⟨.hbm, 359, rfl⟩
abbrev main_v272 : Ref sig .tc := ⟨.hbm, 360, rfl⟩
abbrev main_cst_51 : Ref sig .tc := ⟨.hbm, 361, rfl⟩
abbrev main_v273 : Ref sig .tc := ⟨.hbm, 362, rfl⟩
abbrev main_v274 : Ref sig .tc := ⟨.hbm, 363, rfl⟩
abbrev main_v275 : Ref sig .tc := ⟨.hbm, 364, rfl⟩
abbrev main_cst_52 : Ref sig .tc := ⟨.hbm, 365, rfl⟩
abbrev main_v276 : Ref sig .tc := ⟨.hbm, 366, rfl⟩
abbrev main_v277 : Ref sig .tc := ⟨.hbm, 367, rfl⟩
abbrev main_v278 : Ref sig .tc := ⟨.hbm, 368, rfl⟩
abbrev main_cst_53 : Ref sig .tc := ⟨.hbm, 369, rfl⟩
abbrev main_call13_v0 : Ref sig .tc := ⟨.hbm, 370, rfl⟩
abbrev main_call13_v1 : Ref sig .tc := ⟨.hbm, 371, rfl⟩
abbrev main_v279 : Ref sig .tc := ⟨.hbm, 372, rfl⟩
abbrev main_v280 : Ref sig .tc := ⟨.hbm, 373, rfl⟩
abbrev main_v281 : Ref sig .tc := ⟨.hbm, 374, rfl⟩
abbrev main_v282 : Ref sig .tc := ⟨.hbm, 375, rfl⟩
abbrev main_v283 : Ref sig .tc := ⟨.hbm, 376, rfl⟩
abbrev main_v284 : Ref sig .tc := ⟨.hbm, 377, rfl⟩
abbrev main_v285 : Ref sig .tc := ⟨.hbm, 378, rfl⟩
abbrev main_v286 : Ref sig .tc := ⟨.hbm, 379, rfl⟩
abbrev main_c_54 : Ref sig .tc := ⟨.hbm, 380, rfl⟩
abbrev main_v287 : Ref sig .tc := ⟨.hbm, 381, rfl⟩
abbrev main_v288 : Ref sig .tc := ⟨.hbm, 382, rfl⟩
abbrev main_v289 : Ref sig .tc := ⟨.hbm, 383, rfl⟩
abbrev main_v290 : Ref sig .tc := ⟨.hbm, 384, rfl⟩
abbrev main_v291 : Ref sig .tc := ⟨.hbm, 385, rfl⟩
abbrev main_v292 : Ref sig .tc := ⟨.hbm, 386, rfl⟩
abbrev main_cst_55 : Ref sig .tc := ⟨.hbm, 387, rfl⟩
abbrev main_v293 : Ref sig .tc := ⟨.hbm, 388, rfl⟩
abbrev main_v294 : Ref sig .tc := ⟨.hbm, 389, rfl⟩
abbrev main_v295 : Ref sig .tc := ⟨.hbm, 390, rfl⟩
abbrev main_cst_56 : Ref sig .tc := ⟨.hbm, 391, rfl⟩
abbrev main_v296 : Ref sig .tc := ⟨.hbm, 392, rfl⟩
abbrev main_v297 : Ref sig .tc := ⟨.hbm, 393, rfl⟩
abbrev main_v298 : Ref sig .tc := ⟨.hbm, 394, rfl⟩
abbrev main_cst_57 : Ref sig .tc := ⟨.hbm, 395, rfl⟩
abbrev main_call14_v0 : Ref sig .tc := ⟨.hbm, 396, rfl⟩
abbrev main_call14_v1 : Ref sig .tc := ⟨.hbm, 397, rfl⟩
abbrev main_v299 : Ref sig .tc := ⟨.hbm, 398, rfl⟩
abbrev main_v300 : Ref sig .tc := ⟨.hbm, 399, rfl⟩
abbrev main_v301 : Ref sig .tc := ⟨.hbm, 400, rfl⟩
abbrev main_v302 : Ref sig .tc := ⟨.hbm, 401, rfl⟩
abbrev main_v303 : Ref sig .tc := ⟨.hbm, 402, rfl⟩
abbrev main_v304 : Ref sig .tc := ⟨.hbm, 403, rfl⟩
abbrev main_v305 : Ref sig .tc := ⟨.hbm, 404, rfl⟩
abbrev main_v306 : Ref sig .tc := ⟨.hbm, 405, rfl⟩
abbrev main_c_58 : Ref sig .tc := ⟨.hbm, 406, rfl⟩
abbrev main_v307 : Ref sig .tc := ⟨.hbm, 407, rfl⟩
abbrev main_v308 : Ref sig .tc := ⟨.hbm, 408, rfl⟩
abbrev main_v309 : Ref sig .tc := ⟨.hbm, 409, rfl⟩
abbrev main_v310 : Ref sig .tc := ⟨.hbm, 410, rfl⟩
abbrev main_v311 : Ref sig .tc := ⟨.hbm, 411, rfl⟩
abbrev main_v312 : Ref sig .tc := ⟨.hbm, 412, rfl⟩
abbrev main_cst_59 : Ref sig .tc := ⟨.hbm, 413, rfl⟩
abbrev main_v313 : Ref sig .tc := ⟨.hbm, 414, rfl⟩
abbrev main_v314 : Ref sig .tc := ⟨.hbm, 415, rfl⟩
abbrev main_v315 : Ref sig .tc := ⟨.hbm, 416, rfl⟩
abbrev main_cst_60 : Ref sig .tc := ⟨.hbm, 417, rfl⟩
abbrev main_v316 : Ref sig .tc := ⟨.hbm, 418, rfl⟩
abbrev main_v317 : Ref sig .tc := ⟨.hbm, 419, rfl⟩
abbrev main_v318 : Ref sig .tc := ⟨.hbm, 420, rfl⟩
abbrev main_cst_61 : Ref sig .tc := ⟨.hbm, 421, rfl⟩
abbrev main_call15_v0 : Ref sig .tc := ⟨.hbm, 422, rfl⟩
abbrev main_call15_v1 : Ref sig .tc := ⟨.hbm, 423, rfl⟩
abbrev main_v319 : Ref sig .tc := ⟨.hbm, 424, rfl⟩
abbrev main_v320 : Ref sig .tc := ⟨.hbm, 425, rfl⟩
abbrev main_v321 : Ref sig .tc := ⟨.hbm, 426, rfl⟩
abbrev main_v322 : Ref sig .tc := ⟨.hbm, 427, rfl⟩
abbrev main_v323 : Ref sig .tc := ⟨.hbm, 428, rfl⟩
abbrev main_v324 : Ref sig .tc := ⟨.hbm, 429, rfl⟩
abbrev main_v325 : Ref sig .tc := ⟨.hbm, 430, rfl⟩
abbrev main_v326 : Ref sig .tc := ⟨.hbm, 431, rfl⟩
abbrev main_c_62 : Ref sig .tc := ⟨.hbm, 432, rfl⟩
abbrev main_v327 : Ref sig .tc := ⟨.hbm, 433, rfl⟩
abbrev main_v328 : Ref sig .tc := ⟨.hbm, 434, rfl⟩
abbrev main_v329 : Ref sig .tc := ⟨.hbm, 435, rfl⟩
abbrev main_v330 : Ref sig .tc := ⟨.hbm, 436, rfl⟩
abbrev main_v331 : Ref sig .tc := ⟨.hbm, 437, rfl⟩
abbrev main_v332 : Ref sig .tc := ⟨.hbm, 438, rfl⟩
abbrev main_cst_63 : Ref sig .tc := ⟨.hbm, 439, rfl⟩
abbrev main_v333 : Ref sig .tc := ⟨.hbm, 440, rfl⟩
abbrev main_v334 : Ref sig .tc := ⟨.hbm, 441, rfl⟩
abbrev main_v335 : Ref sig .tc := ⟨.hbm, 442, rfl⟩
abbrev main_cst_64 : Ref sig .tc := ⟨.hbm, 443, rfl⟩
abbrev main_v336 : Ref sig .tc := ⟨.hbm, 444, rfl⟩
abbrev main_v337 : Ref sig .tc := ⟨.hbm, 445, rfl⟩
abbrev main_v338 : Ref sig .tc := ⟨.hbm, 446, rfl⟩
abbrev main_cst_65 : Ref sig .tc := ⟨.hbm, 447, rfl⟩
abbrev main_call16_v0 : Ref sig .tc := ⟨.hbm, 448, rfl⟩
abbrev main_call16_v1 : Ref sig .tc := ⟨.hbm, 449, rfl⟩
abbrev main_v339 : Ref sig .tc := ⟨.hbm, 450, rfl⟩
abbrev main_v340 : Ref sig .tc := ⟨.hbm, 451, rfl⟩
abbrev main_v341 : Ref sig .tc := ⟨.hbm, 452, rfl⟩
abbrev main_v342 : Ref sig .tc := ⟨.hbm, 453, rfl⟩
abbrev main_v343 : Ref sig .tc := ⟨.hbm, 454, rfl⟩
abbrev main_v344 : Ref sig .tc := ⟨.hbm, 455, rfl⟩
abbrev main_v345 : Ref sig .tc := ⟨.hbm, 456, rfl⟩
abbrev main_v346 : Ref sig .tc := ⟨.hbm, 457, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  slices_S8x16x32_S1x16x32_0_0_0 : S8x16x32.Slices ![0, 0, 0] S1x16x32
  shapeCasts_S1x16x32_S16x32 : S1x16x32.ShapeCasts S16x32
  slices_S8x16x32_S1x16x32_1_0_0 : S8x16x32.Slices ![1, 0, 0] S1x16x32
  slices_S8x16x32_S1x16x32_2_0_0 : S8x16x32.Slices ![2, 0, 0] S1x16x32
  slices_S8x16x32_S1x16x32_3_0_0 : S8x16x32.Slices ![3, 0, 0] S1x16x32
  slices_S8x16x32_S1x16x32_4_0_0 : S8x16x32.Slices ![4, 0, 0] S1x16x32
  slices_S8x16x32_S1x16x32_5_0_0 : S8x16x32.Slices ![5, 0, 0] S1x16x32
  slices_S8x16x32_S1x16x32_6_0_0 : S8x16x32.Slices ![6, 0, 0] S1x16x32
  slices_S8x16x32_S1x16x32_7_0_0 : S8x16x32.Slices ![7, 0, 0] S1x16x32
  bcast_S_S100000x32 : S_.BroadcastsInDim S100000x32 (![] : Fin 0 → Fin S100000x32.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3200000x1_S3200000x32_0_1 : S3200000x1.BroadcastsInDim S3200000x32 (![0, 1] : Fin 2 → Fin S3200000x32.rank)
  bcast_S100000x1_S100000x32_0_1 : S100000x1.BroadcastsInDim S100000x32 (![0, 1] : Fin 2 → Fin S100000x32.rank)
  slices_S8x32x16_S1x32x16_0_0_0 : S8x32x16.Slices ![0, 0, 0] S1x32x16
  shapeCasts_S1x32x16_S32x16 : S1x32x16.ShapeCasts S32x16
  slices_S8x32x16_S1x32x16_1_0_0 : S8x32x16.Slices ![1, 0, 0] S1x32x16
  slices_S8x32x16_S1x32x16_2_0_0 : S8x32x16.Slices ![2, 0, 0] S1x32x16
  slices_S8x32x16_S1x32x16_3_0_0 : S8x32x16.Slices ![3, 0, 0] S1x32x16
  slices_S8x32x16_S1x32x16_4_0_0 : S8x32x16.Slices ![4, 0, 0] S1x32x16
  slices_S8x32x16_S1x32x16_5_0_0 : S8x32x16.Slices ![5, 0, 0] S1x32x16
  slices_S8x32x16_S1x32x16_6_0_0 : S8x32x16.Slices ![6, 0, 0] S1x32x16
  slices_S8x32x16_S1x32x16_7_0_0 : S8x32x16.Slices ![7, 0, 0] S1x32x16
  dot_S100000x16_S16x32_S100000x32_1_0_0_1_n_n_wf : DotDims.WF S100000x16 S16x32 S100000x32 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  scatter_S100000_S3200000x1_S3200000_n_0_0_1_wf : ScatterDims.WF S100000 S3200000x1 S3200000 [] [0] [0] 1
  dot_S100000x32_S32x16_S100000x16_1_0_0_1_n_n_wf : DotDims.WF S100000x32 S32x16 S100000x16 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1

variable [Facts₀]

def dot_S100000x16_S16x32_S100000x32_1_0_0_1_n_n : DotDims S100000x16 S16x32 S100000x32 where
  lhsContracting := [1]
  rhsContracting := [0]
  lhsNonContracting := [0]
  rhsNonContracting := [1]
  lhsBatch := []
  rhsBatch := []
  wf := dot_S100000x16_S16x32_S100000x32_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf

class Facts : Prop extends Facts₀ where

variable [Facts]
-- ==== Proof.KDefs.lean ====
import proofs.«416438_j26963804684494_2_alg».proof.Proof.Gen.KernelIdeal

/-! The arrays the two regions read, as terms of the argument arrays: the kernel program's host operations before each
    region, composed (generic in the float instance). Row 0 of the [2, E] index array holds the edges' sources, row 1
    their destinations; the key of an edge is destination · 8 + relation type. -/

noncomputable section

namespace Cert.KernelIdeal.KV

open Cert.KernelIdeal Cert.KernelIdeal.Gen Idealize.ShloMosaic

variable {F : FTy → Type} [FloatOps F]

/-! ## The host terms -/

/-- Row r of the [2,E] index array, as a length-E vector (slice, reshape). -/
def row0 (a1 : IVec S2x3200000 32) : IVec S3200000 32 :=
  shapeCast S3200000 (extractStridedSlice S1x3200000 ![0, 0] a1 slices_S2x3200000_S1x3200000_0_0) shapeCasts_S1x3200000_S3200000
def row1 (a1 : IVec S2x3200000 32) : IVec S3200000 32 :=
  shapeCast S3200000 (extractStridedSlice S1x3200000 ![1, 0] a1 slices_S2x3200000_S1x3200000_1_0) shapeCasts_S1x3200000_S3200000

/-- Row 0 with each negative entry wrapped by +100000, as an [E,1] column. -/
def srcCol (a1 : IVec S2x3200000 32) : IVec S3200000x1 32 :=
  broadcastInDim S3200000x1 ![0] bcast_S3200000_S3200000x1_0
    (select (cmpi .slt (row0 a1) (broadcastInDim S3200000 ![] bcast_S_S3200000 (constantI S_ 32 0#32)))
      (addi (row0 a1) (broadcastInDim S3200000 ![] bcast_S_S3200000 (constantI S_ 32 100000#32)))
      (row0 a1))

/-- The key (row 1) * 8 + a2, as a length-E vector and as an [E,1] column. -/
def keyVec (a1 : IVec S2x3200000 32) (a2 : IVec S3200000 32) : IVec S3200000 32 :=
  addi (muli (row1 a1) (broadcastInDim S3200000 ![] bcast_S_S3200000 (constantI S_ 32 8#32))) a2
def keyCol (a1 : IVec S2x3200000 32) (a2 : IVec S3200000 32) : IVec S3200000x1 32 :=
  broadcastInDim S3200000x1 ![0] bcast_S3200000_S3200000x1_0 (keyVec a1 a2)

/-- 1 / max(count of each key, 1), as a [100000,8] array. -/
def invOf (a1 : IVec S2x3200000 32) (a2 : IVec S3200000 32) : FVec F S100000x8 .f32 :=
  shapeCast S100000x8
    (Host.divf (broadcastInDim S800000 ![] bcast_S_S800000 (constant (F := F) S_ .f32 0x3F800000#32))
      (maximumf
        (Host.scatterAdd scatter_S800000_S3200000x1_S3200000_n_0_0_1
          (broadcastInDim S800000 ![] bcast_S_S800000 (constant (F := F) S_ .f32 0x00000000#32))
          (keyCol a1 a2)
          (broadcastInDim S3200000 ![] bcast_S_S3200000 (constant (F := F) S_ .f32 0x3F800000#32)))
        (broadcastInDim S800000 ![] bcast_S_S800000 (constant (F := F) S_ .f32 0x3F800000#32))))
    shapeCasts_S800000_S100000x8

/-- The rows of X gathered at the source column and summed per key, as a [100000,128] array. -/
def sumFlat16 (X : FVec F S100000x16 .f32) (a1 : IVec S2x3200000 32) (a2 : IVec S3200000 32) : FVec F S100000x128 .f32 :=
  shapeCast S100000x128
    (Host.scatterAdd scatter_S800000x16_S3200000x1_S3200000x16_1_0_0_1
      (broadcastInDim S800000x16 ![] bcast_S_S800000x16 (constant (F := F) S_ .f32 0x00000000#32))
      (keyCol a1 a2)
      (Host.gather gather_S100000x16_S3200000x1_S3200000x16_1_0_n_n_0_1_116 X (srcCol a1)))
    shapeCasts_S800000x16_S100000x128

/-- The same at width 32, as a [100000,256] array. -/
def sumFlat32 (X : FVec F S100000x32 .f32) (a1 : IVec S2x3200000 32) (a2 : IVec S3200000 32) : FVec F S100000x256 .f32 :=
  shapeCast S100000x256
    (Host.scatterAdd scatter_S800000x32_S3200000x1_S3200000x32_1_0_0_1
      (broadcastInDim S800000x32 ![] bcast_S_S800000x32 (constant (F := F) S_ .f32 0x00000000#32))
      (keyCol a1 a2)
      (Host.gather gather_S100000x32_S3200000x1_S3200000x32_1_0_n_n_0_1_132 X (srcCol a1)))
    shapeCasts_S800000x32_S100000x256

end Cert.KernelIdeal.KV

end
-- ==== Proof.KHost.lean ====
import proofs.«416438_j26963804684494_2_alg».proof.Proof.Gen.KernelIdeal.Frame
import proofs.«416438_j26963804684494_2_alg».proof.Proof.KDefs
import Idealize.ShloMosaic.Lib.StableHlo.Run

/-! The contents of the arrays the two regions read, as terms of the argument arrays: the host
    operations before each region, composed. -/

set_option maxRecDepth 16384

noncomputable section

namespace Cert.KernelIdeal.KV

open Cert.KernelIdeal Cert.KernelIdeal.Gen Idealize.ShloMosaic Idealize.ShloMosaic.StableHlo
open Idealize.ShloMosaic.TcCoe
open Idealize.SL.Sem

variable {F : FTy → Type} [FloatOps F]

variable (m : (ℓ : Loc nD τ sig) → Buf (Elt F) ℓ) (ρ : Dev nD → PrngReg)

/-! ## Region 0's entry -/

/-- No host operation of the two stretches writes the reference: the fold leaves it. -/
macro "not_written" : tactic =>
  `(tactic| (
    refine StableHlo.after_of_forall_not_mem _ _ (List.forall_iff_forall_mem.mp ?_)
    simp only [hostOps0, hostOps1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

theorem V1_x (c : Dev nD) : V1 m ρ c main_arg0 = m ((c : Thread nD τ).loc main_arg0) :=
  calc W1 m ρ c (Proc.devRef .tc main_arg0)
    _ = W0 m ρ c (Proc.devRef .tc main_arg0) := by not_written
    _ = m ((c : Thread nD τ).loc main_arg0) := rfl

theorem V1_root (c : Dev nD) : V1 m ρ c main_arg4 = m ((c : Thread nD τ).loc main_arg4) :=
  calc W1 m ρ c (Proc.devRef .tc main_arg4)
    _ = W0 m ρ c (Proc.devRef .tc main_arg4) := by not_written
    _ = m ((c : Thread nD τ).loc main_arg4) := rfl

theorem V1_w (c : Dev nD) :
    V1 m ρ c main_v27 = shapeCast _ (m ((c : Thread nD τ).loc main_arg3)) shapeCasts_S8x16x32_S128x32 := by
  show StableHlo.after hostOps0 (W0 m ρ c) (Proc.devRef .tc main_v27) = _
  after_results_simp
  rfl

theorem V1_b (c : Dev nD) :
    V1 m ρ c main_v28 = shapeCast _ (m ((c : Thread nD τ).loc main_arg5)) shapeCasts_S32_S1x32 := by
  show StableHlo.after hostOps0 (W0 m ρ c) (Proc.devRef .tc main_v28) = _
  after_results_simp
  rfl

theorem V1_inv (c : Dev nD) :
    V1 m ρ c main_v15 = invOf (F := F) (m ((c : Thread nD τ).loc main_arg1)) (m ((c : Thread nD τ).loc main_arg2)) := by
  show StableHlo.after hostOps0 (W0 m ρ c) (Proc.devRef .tc main_v15) = _
  after_results_simp
  rfl

theorem V1_sum (c : Dev nD) :
    V1 m ρ c main_v26 = sumFlat16 (m ((c : Thread nD τ).loc main_arg0)) (m ((c : Thread nD τ).loc main_arg1))
      (m ((c : Thread nD τ).loc main_arg2)) := by
  show StableHlo.after hostOps0 (W0 m ρ c) (Proc.devRef .tc main_v26) = _
  after_results_simp
  rfl

/-! ## Region 0's exit, at the references the second stretch of host operations reads

    None of them is an array of region 0, so the region leaves each as the first stretch left it. -/

theorem W2_arg6 (c : Dev nD) : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := by not_written
    _ = m ((c : Thread nD τ).loc main_arg6) := rfl

theorem W2_arg8 (c : Dev nD) : W2 m ρ c (Proc.devRef .tc main_arg8) = m ((c : Thread nD τ).loc main_arg8) :=
  calc W2 m ρ c (Proc.devRef .tc main_arg8)
    _ = W1 m ρ c (Proc.devRef .tc main_arg8) := W2_of_ne m ρ c main_arg8 (by decide)
    _ = W0 m ρ c (Proc.devRef .tc main_arg8) := by not_written
    _ = m ((c : Thread nD τ).loc main_arg8) := rfl

/-- Row 0 of the index array, as the first stretch computed it. -/
theorem W2_v1 (c : Dev nD) : W2 m ρ c (Proc.devRef .tc main_v1) = row0 (m ((c : Thread nD τ).loc main_arg1)) :=
  calc W2 m ρ c (Proc.devRef .tc main_v1)
    _ = W1 m ρ c (Proc.devRef .tc main_v1) := W2_of_ne m ρ c main_v1 (by decide)
    _ = row0 (m ((c : Thread nD τ).loc main_arg1)) := by
      show StableHlo.after hostOps0 (W0 m ρ c) (Proc.devRef .tc main_v1) = _
      after_results_simp
      rfl

/-- The key, as the first stretch computed it. -/
theorem W2_v6 (c : Dev nD) :
    W2 m ρ c (Proc.devRef .tc main_v6) = keyVec (m ((c : Thread nD τ).loc main_arg1)) (m ((c : Thread nD τ).loc main_arg2)) :=
  calc W2 m ρ c (Proc.devRef .tc main_v6)
    _ = W1 m ρ c (Proc.devRef .tc main_v6) := W2_of_ne m ρ c main_v6 (by decide)
    _ = keyVec (m ((c : Thread nD τ).loc main_arg1)) (m ((c : Thread nD τ).loc main_arg2)) := by
      show StableHlo.after hostOps0 (W0 m ρ c) (Proc.devRef .tc main_v6) = _
      after_results_simp
      rfl

/-! ## Region 1's entry -/

/-- The second stretch does not write region 0's output array. -/
theorem V3_h_W2 (c : Dev nD) : V3 m ρ c main_v29 = W2 m ρ c (Proc.devRef .tc main_v29) := by not_written

/-- Region 0's output array (window 6) holds what the pipeline's write-backs leave. -/
theorem V3_h (c : Dev nD) : V3 m ρ c main_v29 = (dat0 (V1 m ρ) c).arrAt 6 cfg0.N :=
  (V3_h_W2 m ρ c).trans (W2_arr m ρ c 6)

theorem V3_sum (c : Dev nD) :
    V3 m ρ c main_v40 = sumFlat32 (V3 m ρ c main_v29) (m ((c : Thread nD τ).loc main_arg1))
      (m ((c : Thread nD τ).loc main_arg2)) := by
  rw [V3_h_W2]
  show StableHlo.after hostOps1 (W2 m ρ c) (Proc.devRef .tc main_v40) = _
  after_results_simp
  rw [W2_v1, W2_v6]
  rfl

/-- The inverse counts are an input window's array of region 0 (window 2): left as entered. -/
theorem V3_inv (c : Dev nD) :
    V3 m ρ c main_v15 = invOf (F := F) (m ((c : Thread nD τ).loc main_arg1)) (m ((c : Thread nD τ).loc main_arg2)) :=
  calc W3 m ρ c (Proc.devRef .tc main_v15)
    _ = W2 m ρ c (Proc.devRef .tc main_v15) := by not_written
    _ = W1 m ρ c (Proc.devRef .tc main_v15) :=
      (W2_arr m ρ c 2).trans (((dat0 (V1 m ρ) c).arrAt_in 2 rfl _).trans (A_eq0 (V1 m ρ) c 2))
    _ = invOf (F := F) (m ((c : Thread nD τ).loc main_arg1)) (m ((c : Thread nD τ).loc main_arg2)) := V1_inv m ρ c

theorem V3_root (c : Dev nD) : V3 m ρ c main_arg7 = m ((c : Thread nD τ).loc main_arg7) :=
  calc W3 m ρ c (Proc.devRef .tc main_arg7)
    _ = W2 m ρ c (Proc.devRef .tc main_arg7) := by not_written
    _ = W1 m ρ c (Proc.devRef .tc main_arg7) := W2_of_ne m ρ c main_arg7 (by decide)
    _ = W0 m ρ c (Proc.devRef .tc main_arg7) := by not_written
    _ = m ((c : Thread nD τ).loc main_arg7) := rfl

theorem V3_w (c : Dev nD) :
    V3 m ρ c main_v41 = shapeCast _ (m ((c : Thread nD τ).loc main_arg6)) shapeCasts_S8x32x16_S256x16 := by
  show StableHlo.after hostOps1 (W2 m ρ c) (Proc.devRef .tc main_v41) = _
  after_results_simp
  rw [W2_arg6]
  rfl

theorem V3_b (c : Dev nD) :
    V3 m ρ c main_v42 = shapeCast _ (m ((c : Thread nD τ).loc main_arg8)) shapeCasts_S16_S1x16 := by
  show StableHlo.after hostOps1 (W2 m ρ c) (Proc.devRef .tc main_v42) = _
  after_results_simp
  rw [W2_arg8]
  rfl

end Cert.KernelIdeal.KV
-- ==== Proof.KSpec.lean ====
/-
  One layer of the convolution as the kernel's region computes it, as a function on ANY number `R` of rows: the same
  formula holds of a block of 5000 rows and of the whole array of 100000 rows, since every output row depends on its
  own row of each row-indexed operand only.

  Row `p`, output feature `o`:   ( Σ_d x[p,d]·root[d,o]  +  Σ_k (s[p,k]·inv[p, k / D])·w[k,o] )  +  bias[0,o] ,
  where `k` runs over the 8·D columns of the flattened (relation, feature) axis, so `k / D` is the column's relation.
  Layer 1 (D = 16 in, 32 out) clamps the result below at zero; layer 2 (D = 32 in, 16 out) does not.
-/
import proofs.«416438_j26963804684494_2_alg».proof.KernelIdeal
import Idealize.ShloMosaic.PureOps.Ideal
import Idealize.ShloMosaic.Lib.ValueIdx

noncomputable section

namespace Cert.KernelIdeal.KV

open Idealize.ShloMosaic Idealize.ShloMosaic.ValueIdx Cert.KernelIdeal

/-- The relation a column of layer 1's flattened [8·16] axis belongs to. -/
def rel16 (k : Fin 128) : Fin 8 := ⟨k.val / 16, by omega⟩
/-- The relation a column of layer 2's flattened [8·32] axis belongs to. -/
def rel32 (k : Fin 256) : Fin 8 := ⟨k.val / 32, by omega⟩

/-- Layer 1 on `R` rows, clamped below at zero. -/
def rowsL1 {R : ℕ} (x : (⟨2, ![R, 16]⟩ : Shape).Idx → EReal) (s : (⟨2, ![R, 128]⟩ : Shape).Idx → EReal)
    (inv : (⟨2, ![R, 8]⟩ : Shape).Idx → EReal) (root : (⟨2, ![16, 32]⟩ : Shape).Idx → EReal)
    (w : (⟨2, ![128, 32]⟩ : Shape).Idx → EReal) (bias : (⟨2, ![1, 32]⟩ : Shape).Idx → EReal) :
    (⟨2, ![R, 32]⟩ : Shape).Idx → EReal :=
  fun j => max ((∑ d : Fin 16, x (ix2 (j 0) d) * root (ix2 d (j 1))
      + ∑ k : Fin 128, (s (ix2 (j 0) k) * inv (ix2 (j 0) (rel16 k))) * w (ix2 k (j 1))) + bias (ix2 (0 : Fin 1) (j 1))) 0

/-- Layer 2 on `R` rows (no activation). -/
def rowsL2 {R : ℕ} (x : (⟨2, ![R, 32]⟩ : Shape).Idx → EReal) (s : (⟨2, ![R, 256]⟩ : Shape).Idx → EReal)
    (inv : (⟨2, ![R, 8]⟩ : Shape).Idx → EReal) (root : (⟨2, ![32, 16]⟩ : Shape).Idx → EReal)
    (w : (⟨2, ![256, 16]⟩ : Shape).Idx → EReal) (bias : (⟨2, ![1, 16]⟩ : Shape).Idx → EReal) :
    (⟨2, ![R, 16]⟩ : Shape).Idx → EReal :=
  fun j => (∑ d : Fin 32, x (ix2 (j 0) d) * root (ix2 d (j 1))
      + ∑ k : Fin 256, (s (ix2 (j 0) k) * inv (ix2 (j 0) (rel32 k))) * w (ix2 k (j 1))) + bias (ix2 (0 : Fin 1) (j 1))

end Cert.KernelIdeal.KV

end
-- ==== Proof.KArr.lean ====
/-
  From blocks to arrays.  Each of the two layers runs over the 100000 rows in 20 blocks of 5000 rows: at block `t` the
  row-indexed operands (features, scattered sums, inverse degrees) are rows 5000·t … 5000·t + 4999 of their arrays, the small
  operands (root weights, relation weights, bias) are the whole arrays, and the output block is written back to the same
  rows of the output array.  A layer's formula gives each output row from its own row of each row-indexed operand only, so
  the formula on a block is the block of the formula on the arrays; the 20 blocks tile the rows, so the output array
  ends holding the formula of the arrays.
-/
import proofs.«416438_j26963804684494_2_alg».proof.Proof.Gen.KernelIdeal.Frame
import proofs.«416438_j26963804684494_2_alg».proof.Proof.KSpec
import Idealize.ShloMosaic.Lib.Pipeline.Value

set_option maxRecDepth 16384

noncomputable section

namespace Cert.KernelIdeal.KV

open Cert.KernelIdeal Cert.KernelIdeal.Gen Idealize.ShloMosaic Idealize.ShloMosaic.ValueIdx Idealize.ShloMosaic.TcCoe
open Idealize.ShloMosaic.Pipeline (Dat)

variable (V : (c : Dev nD) → (b : Ref sig .tc) → Buf (Elt Ideal) ((c : Thread nD τ).loc b))

/-! ## A layer's value at a row depends on that row only -/

/-- Layer 1 at row `j 0` of one family of operands equals layer 1 at row `i 0` of another as soon as the two rows agree
    operand by operand and the small operands agree on column `j 1 = i 1`. -/
theorem rowsL1_congr {R R' : ℕ}
    (x : (⟨2, ![R, 16]⟩ : Shape).Idx → EReal) (s : (⟨2, ![R, 128]⟩ : Shape).Idx → EReal)
    (inv : (⟨2, ![R, 8]⟩ : Shape).Idx → EReal) (root : (⟨2, ![16, 32]⟩ : Shape).Idx → EReal)
    (w : (⟨2, ![128, 32]⟩ : Shape).Idx → EReal) (bias : (⟨2, ![1, 32]⟩ : Shape).Idx → EReal)
    (x' : (⟨2, ![R', 16]⟩ : Shape).Idx → EReal) (s' : (⟨2, ![R', 128]⟩ : Shape).Idx → EReal)
    (inv' : (⟨2, ![R', 8]⟩ : Shape).Idx → EReal) (root' : (⟨2, ![16, 32]⟩ : Shape).Idx → EReal)
    (w' : (⟨2, ![128, 32]⟩ : Shape).Idx → EReal) (bias' : (⟨2, ![1, 32]⟩ : Shape).Idx → EReal)
    (j : (⟨2, ![R, 32]⟩ : Shape).Idx) (i : (⟨2, ![R', 32]⟩ : Shape).Idx)
    (hx : ∀ d, x (ix2 (j 0) d) = x' (ix2 (i 0) d)) (hs : ∀ k, s (ix2 (j 0) k) = s' (ix2 (i 0) k))
    (hinv : ∀ r, inv (ix2 (j 0) r) = inv' (ix2 (i 0) r)) (hroot : ∀ d, root (ix2 d (j 1)) = root' (ix2 d (i 1)))
    (hw : ∀ k, w (ix2 k (j 1)) = w' (ix2 k (i 1))) (hb : bias (ix2 (0 : Fin 1) (j 1)) = bias' (ix2 (0 : Fin 1) (i 1))) :
    rowsL1 x s inv root w bias j = rowsL1 x' s' inv' root' w' bias' i := by
  unfold rowsL1
  simp only [hx, hs, hinv, hroot, hw, hb]

/-! ## Layer 1's region -/

/-- The index maps over the 20 points: the row-indexed operands and the output are at row block `t`, column block 0;
    the small operands at block (0, 0). -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Entry (p, k) of the feature block at point `t` is entry (5000·t + p, k) of the feature array. -/
theorem blk0_0 (c : Dev nD) (t : Fin cfg0.N) (y : S5000x16.Idx) (i : S100000x16.Idx)
    (h0 : (i 0).val = 5000 * t.val + (y 0).val) (h1 : (i 1).val = (y 1).val) :
    (iblk0 V c 0 t : Vec Ideal S5000x16 .f32) y = (V c main_arg0 : S100000x16.Idx → EReal) i := by
  obtain ⟨e0, e1, -⟩ := idx0 t
  unfold iblk0
  rw [View.read_apply]
  show V c main_arg0 _ = V c main_arg0 _
  congr 1
  funext a
  apply Fin.ext
  match a with
  | ⟨0, _⟩ => show win0_0.index t (0 : Fin 2) * 5000 + 1 * (y 0).val = (i 0).val; rw [e0, h0]; omega
  | ⟨1, _⟩ => show win0_0.index t (1 : Fin 2) * 16 + 1 * (y 1).val = (i 1).val; rw [e1, h1]; omega

/-- Entry (p, k) of the per-relation sum block at point `t` is entry (5000·t + p, k) of the per-relation sum array. -/
theorem blk0_1 (c : Dev nD) (t : Fin cfg0.N) (y : S5000x128.Idx) (i : S100000x128.Idx)
    (h0 : (i 0).val = 5000 * t.val + (y 0).val) (h1 : (i 1).val = (y 1).val) :
    (iblk0 V c 1 t : Vec Ideal S5000x128 .f32) y = (V c main_v26 : S100000x128.Idx → EReal) i := by
  obtain ⟨-, -, e0, e1, -⟩ := idx0 t
  unfold iblk0
  rw [View.read_apply]
  show V c main_v26 _ = V c main_v26 _
  congr 1
  funext a
  apply Fin.ext
  match a with
  | ⟨0, _⟩ => show win0_1.index t (0 : Fin 2) * 5000 + 1 * (y 0).val = (i 0).val; rw [e0, h0]; omega
  | ⟨1, _⟩ => show win0_1.index t (1 : Fin 2) * 128 + 1 * (y 1).val = (i 1).val; rw [e1, h1]; omega

/-- Entry (p, k) of the inverse-degree block at point `t` is entry (5000·t + p, k) of the inverse-degree array. -/
theorem blk0_2 (c : Dev nD) (t : Fin cfg0.N) (y : S5000x8.Idx) (i : S100000x8.Idx)
    (h0 : (i 0).val = 5000 * t.val + (y 0).val) (h1 : (i 1).val = (y 1).val) :
    (iblk0 V c 2 t : Vec Ideal S5000x8 .f32) y = (V c main_v15 : S100000x8.Idx → EReal) i := by
  obtain ⟨-, -, -, -, e0, e1, -⟩ := idx0 t
  unfold iblk0
  rw [View.read_apply]
  show V c main_v15 _ = V c main_v15 _
  congr 1
  funext a
  apply Fin.ext
  match a with
  | ⟨0, _⟩ => show win0_2.index t (0 : Fin 2) * 5000 + 1 * (y 0).val = (i 0).val; rw [e0, h0]; omega
  | ⟨1, _⟩ => show win0_2.index t (1 : Fin 2) * 8 + 1 * (y 1).val = (i 1).val; rw [e1, h1]; omega

/-- The root-weight block at every point is the whole root-weight array. -/
theorem blk0_3 (c : Dev nD) (t : Fin cfg0.N) (y : S16x32.Idx) :
    (iblk0 V c 3 t : Vec Ideal S16x32 .f32) y = (V c main_arg4 : S16x32.Idx → EReal) y := by
  obtain ⟨-, -, -, -, -, -, e0, e1, -⟩ := idx0 t
  unfold iblk0
  rw [View.read_apply]
  show V c main_arg4 _ = V c main_arg4 _
  congr 1
  funext a
  apply Fin.ext
  match a with
  | ⟨0, _⟩ => show win0_3.index t (0 : Fin 2) * 16 + 1 * (y 0).val = (y 0).val; rw [e0]; omega
  | ⟨1, _⟩ => show win0_3.index t (1 : Fin 2) * 32 + 1 * (y 1).val = (y 1).val; rw [e1]; omega

/-- The relation-weight block at every point is the whole relation-weight array. -/
theorem blk0_4 (c : Dev nD) (t : Fin cfg0.N) (y : S128x32.Idx) :
    (iblk0 V c 4 t : Vec Ideal S128x32 .f32) y = (V c main_v27 : S128x32.Idx → EReal) y := by
  obtain ⟨-, -, -, -, -, -, -, -, e0, e1, -⟩ := idx0 t
  unfold iblk0
  rw [View.read_apply]
  show V c main_v27 _ = V c main_v27 _
  congr 1
  funext a
  apply Fin.ext
  match a with
  | ⟨0, _⟩ => show win0_4.index t (0 : Fin 2) * 128 + 1 * (y 0).val = (y 0).val; rw [e0]; omega
  | ⟨1, _⟩ => show win0_4.index t (1 : Fin 2) * 32 + 1 * (y 1).val = (y 1).val; rw [e1]; omega

/-- The bias block at every point is the whole bias array. -/
theorem blk0_5 (c : Dev nD) (t : Fin cfg0.N) (y : S1x32.Idx) :
    (iblk0 V c 5 t : Vec Ideal S1x32 .f32) y = (V c main_v28 : S1x32.Idx → EReal) y := by
  obtain ⟨-, -, -, -, -, -, -, -, -, -, e0, e1, -⟩ := idx0 t
  unfold iblk0
  rw [View.read_apply]
  show V c main_v28 _ = V c main_v28 _
  congr 1
  funext a
  apply Fin.ext
  match a with
  | ⟨0, _⟩ => show win0_5.index t (0 : Fin 2) * 1 + 1 * (y 0).val = (y 0).val; rw [e0]; omega
  | ⟨1, _⟩ => show win0_5.index t (1 : Fin 2) * 32 + 1 * (y 1).val = (y 1).val; rw [e1]; omega

/-- Where entry (p, o) of the output block at point `t` sits in the output array: row 5000·t + p, column o. -/
theorem out0_emb (t : Fin cfg0.N) (j : S5000x32.Idx) :
    ((((cfg0.win 6).blk t).view.emb j : S100000x32.Idx) 0).val = 5000 * t.val + (j 0).val
    ∧ ((((cfg0.win 6).blk t).view.emb j : S100000x32.Idx) 1).val = (j 1).val := by
  obtain ⟨-, -, -, -, -, -, -, -, -, -, -, -, e0, e1⟩ := idx0 t
  constructor
  · show win0_6.index t (0 : Fin 2) * 5000 + 1 * (j 0).val = _; rw [e0]; omega
  · show win0_6.index t (1 : Fin 2) * 32 + 1 * (j 1).val = _; rw [e1]; omega

/-- What point `t` writes back is block `t` of layer 1 of the arrays. -/
theorem flushed0_eq (c : Dev nD)
    (hbody : ∀ t : Fin cfg0.N, outsAt0 (F := Ideal) V c t = rowsL1 (iblk0 V c 0 t) (iblk0 V c 1 t) (iblk0 V c 2 t) (iblk0 V c 3 t) (iblk0 V c 4 t) (iblk0 V c 5 t))
    (t : Fin cfg0.N) :
    (dat0 (F := Ideal) V c).flushed 6 t = ((cfg0.win 6).blk t).view.read (Elt Ideal) (rowsL1 (V c main_arg0) (V c main_v26) (V c main_v15) (V c main_arg4) (V c main_v27) (V c main_v28)) := by
  show (cfg0.win 6).cut (grid0.coords t) ((dat0 V c).after 6 t) = _
  rw [after0_6, hbody t]
  funext j
  obtain ⟨r0, r1⟩ := out0_emb t j
  show rowsL1 (iblk0 V c 0 t) (iblk0 V c 1 t) (iblk0 V c 2 t) (iblk0 V c 3 t) (iblk0 V c 4 t) (iblk0 V c 5 t) ((cfg0.win 6).xinj (grid0.coords t) j)
    = rowsL1 (V c main_arg0) (V c main_v26) (V c main_v15) (V c main_arg4) (V c main_v27) (V c main_v28) (((cfg0.win 6).blk t).view.emb j)
  exact rowsL1_congr (iblk0 V c 0 t) (iblk0 V c 1 t) (iblk0 V c 2 t) (iblk0 V c 3 t) (iblk0 V c 4 t) (iblk0 V c 5 t)
    (V c main_arg0) (V c main_v26) (V c main_v15) (V c main_arg4) (V c main_v27) (V c main_v28)
    ((cfg0.win 6).xinj (grid0.coords t) j) (((cfg0.win 6).blk t).view.emb j)
    (fun d => blk0_0 V c t _ _ r0 rfl) (fun k => blk0_1 V c t _ _ r0 rfl) (fun r => blk0_2 V c t _ _ r0 rfl)
    (fun d => (blk0_3 V c t _).trans (congrArg (V c main_arg4 : S16x32.Idx → EReal) (funext fun a => by match a with | ⟨0, _⟩ => rfl | ⟨1, _⟩ => exact Fin.ext r1.symm)))
    (fun k => (blk0_4 V c t _).trans (congrArg (V c main_v27 : S128x32.Idx → EReal) (funext fun a => by match a with | ⟨0, _⟩ => rfl | ⟨1, _⟩ => exact Fin.ext r1.symm)))
    ((blk0_5 V c t _).trans (congrArg (V c main_v28 : S1x32.Idx → EReal) (funext fun a => by match a with | ⟨0, _⟩ => rfl | ⟨1, _⟩ => exact Fin.ext r1.symm)))

/-- A position of the output array is in point `t`'s block iff each coordinate is in the block's range on its axis. -/
theorem mem_blk0 (t : Fin cfg0.N) (i : S100000x32.Idx) :
    i ∈ ((cfg0.win 6).blk t).view.set ↔ ∀ a : Fin 2, win0_6.index t a * S5000x32.size a ≤ (i a).val ∧ (i a).val < win0_6.index t a * S5000x32.size a + S5000x32.size a := by
  show i ∈ ((View.whole main_v29).slice (win0_6.rect t)).set ↔ _
  rw [View.set_slice_whole, Rect.mem_set_unit]
  exact Iff.rfl

/-- The 20 row blocks tile the output array: row r is in the block of point r / 5000. -/
theorem cover0 (i : S100000x32.Idx) :
    ∃ t : Fin cfg0.N, (cfg0.win 6).flush t = true ∧ i ∈ ((cfg0.win 6).blk t).view.set := by
  have hi0 : (i 0).val < 100000 := (i 0).isLt
  have hi1 : (i 1).val < 32 := (i 1).isLt
  have hN : cfg0.N = 20 := N_0
  obtain ⟨t, ht⟩ : ∃ t : Fin cfg0.N, t.val = (i 0).val / 5000 := ⟨⟨(i 0).val / 5000, hN ▸ (by omega : (i 0).val / 5000 < 20)⟩, rfl⟩
  obtain ⟨-, -, -, -, -, -, -, -, -, -, -, -, e0, e1⟩ := idx0 t
  refine ⟨t, flush0_6 t, ?_⟩
  rw [mem_blk0]
  intro a
  match a with
  | ⟨0, _⟩ => show win0_6.index t (0 : Fin 2) * 5000 ≤ (i 0).val ∧ (i 0).val < win0_6.index t (0 : Fin 2) * 5000 + 5000; rw [e0, ht]; omega
  | ⟨1, _⟩ => show win0_6.index t (1 : Fin 2) * 32 ≤ (i 1).val ∧ (i 1).val < win0_6.index t (1 : Fin 2) * 32 + 32; rw [e1]; omega

/-- After the 20 points the output array of layer 1's region holds layer 1 of the operand arrays as the region found them. -/
theorem arr0 (c : Dev nD)
    (hbody : ∀ t : Fin cfg0.N, outsAt0 (F := Ideal) V c t = rowsL1 (iblk0 V c 0 t) (iblk0 V c 1 t) (iblk0 V c 2 t) (iblk0 V c 3 t) (iblk0 V c 4 t) (iblk0 V c 5 t)) :
    (dat0 (F := Ideal) V c).arrAt 6 cfg0.N = rowsL1 (V c main_arg0) (V c main_v26) (V c main_v15) (V c main_arg4) (V c main_v27) (V c main_v28) :=
  (dat0 (F := Ideal) V c).arrAt_eq_of_cover 6 (rowsL1 (V c main_arg0) (V c main_v26) (V c main_v15) (V c main_arg4) (V c main_v27) (V c main_v28))
    (fun t _ => flushed0_eq V c hbody t) cover0

/-! ## Layer 2's region -/

/-- Layer 2 at row `j 0` of one family of operands equals layer 2 at row `i 0` of another as soon as the two rows agree
    operand by operand and the small operands agree on column `j 1 = i 1`. -/
theorem rowsL2_congr {R R' : ℕ}
    (x : (⟨2, ![R, 32]⟩ : Shape).Idx → EReal) (s : (⟨2, ![R, 256]⟩ : Shape).Idx → EReal)
    (inv : (⟨2, ![R, 8]⟩ : Shape).Idx → EReal) (root : (⟨2, ![32, 16]⟩ : Shape).Idx → EReal)
    (w : (⟨2, ![256, 16]⟩ : Shape).Idx → EReal) (bias : (⟨2, ![1, 16]⟩ : Shape).Idx → EReal)
    (x' : (⟨2, ![R', 32]⟩ : Shape).Idx → EReal) (s' : (⟨2, ![R', 256]⟩ : Shape).Idx → EReal)
    (inv' : (⟨2, ![R', 8]⟩ : Shape).Idx → EReal) (root' : (⟨2, ![32, 16]⟩ : Shape).Idx → EReal)
    (w' : (⟨2, ![256, 16]⟩ : Shape).Idx → EReal) (bias' : (⟨2, ![1, 16]⟩ : Shape).Idx → EReal)
    (j : (⟨2, ![R, 16]⟩ : Shape).Idx) (i : (⟨2, ![R', 16]⟩ : Shape).Idx)
    (hx : ∀ d, x (ix2 (j 0) d) = x' (ix2 (i 0) d)) (hs : ∀ k, s (ix2 (j 0) k) = s' (ix2 (i 0) k))
    (hinv : ∀ r, inv (ix2 (j 0) r) = inv' (ix2 (i 0) r)) (hroot : ∀ d, root (ix2 d (j 1)) = root' (ix2 d (i 1)))
    (hw : ∀ k, w (ix2 k (j 1)) = w' (ix2 k (i 1))) (hb : bias (ix2 (0 : Fin 1) (j 1)) = bias' (ix2 (0 : Fin 1) (i 1))) :
    rowsL2 x s inv root w bias j = rowsL2 x' s' inv' root' w' bias' i := by
  unfold rowsL2
  simp only [hx, hs, hinv, hroot, hw, hb]

/-- The index maps over the 20 points: the row-indexed operands and the output are at row block `t`, column block 0;
    the small operands at block (0, 0). -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Entry (p, k) of the hidden-feature block at point `t` is entry (5000·t + p, k) of the hidden-feature array. -/
theorem blk1_0 (c : Dev nD) (t : Fin cfg1.N) (y : S5000x32.Idx) (i : S100000x32.Idx)
    (h0 : (i 0).val = 5000 * t.val + (y 0).val) (h1 : (i 1).val = (y 1).val) :
    (iblk1 V c 0 t : Vec Ideal S5000x32 .f32) y = (V c main_v29 : S100000x32.Idx → EReal) i := by
  obtain ⟨e0, e1, -⟩ := idx1 t
  unfold iblk1
  rw [View.read_apply]
  show V c main_v29 _ = V c main_v29 _
  congr 1
  funext a
  apply Fin.ext
  match a with
  | ⟨0, _⟩ => show win1_0.index t (0 : Fin 2) * 5000 + 1 * (y 0).val = (i 0).val; rw [e0, h0]; omega
  | ⟨1, _⟩ => show win1_0.index t (1 : Fin 2) * 32 + 1 * (y 1).val = (i 1).val; rw [e1, h1]; omega

/-- Entry (p, k) of the per-relation sum block at point `t` is entry (5000·t + p, k) of the per-relation sum array. -/
theorem blk1_1 (c : Dev nD) (t : Fin cfg1.N) (y : S5000x256.Idx) (i : S100000x256.Idx)
    (h0 : (i 0).val = 5000 * t.val + (y 0).val) (h1 : (i 1).val = (y 1).val) :
    (iblk1 V c 1 t : Vec Ideal S5000x256 .f32) y = (V c main_v40 : S100000x256.Idx → EReal) i := by
  obtain ⟨-, -, e0, e1, -⟩ := idx1 t
  unfold iblk1
  rw [View.read_apply]
  show V c main_v40 _ = V c main_v40 _
  congr 1
  funext a
  apply Fin.ext
  match a with
  | ⟨0, _⟩ => show win1_1.index t (0 : Fin 2) * 5000 + 1 * (y 0).val = (i 0).val; rw [e0, h0]; omega
  | ⟨1, _⟩ => show win1_1.index t (1 : Fin 2) * 256 + 1 * (y 1).val = (i 1).val; rw [e1, h1]; omega

/-- Entry (p, k) of the inverse-degree block at point `t` is entry (5000·t + p, k) of the inverse-degree array. -/
theorem blk1_2 (c : Dev nD) (t : Fin cfg1.N) (y : S5000x8.Idx) (i : S100000x8.Idx)
    (h0 : (i 0).val = 5000 * t.val + (y 0).val) (h1 : (i 1).val = (y 1).val) :
    (iblk1 V c 2 t : Vec Ideal S5000x8 .f32) y = (V c main_v15 : S100000x8.Idx → EReal) i := by
  obtain ⟨-, -, -, -, e0, e1, -⟩ := idx1 t
  unfold iblk1
  rw [View.read_apply]
  show V c main_v15 _ = V c main_v15 _
  congr 1
  funext a
  apply Fin.ext
  match a with
  | ⟨0, _⟩ => show win1_2.index t (0 : Fin 2) * 5000 + 1 * (y 0).val = (i 0).val; rw [e0, h0]; omega
  | ⟨1, _⟩ => show win1_2.index t (1 : Fin 2) * 8 + 1 * (y 1).val = (i 1).val; rw [e1, h1]; omega

/-- The root-weight block at every point is the whole root-weight array. -/
theorem blk1_3 (c : Dev nD) (t : Fin cfg1.N) (y : S32x16.Idx) :
    (iblk1 V c 3 t : Vec Ideal S32x16 .f32) y = (V c main_arg7 : S32x16.Idx → EReal) y := by
  obtain ⟨-, -, -, -, -, -, e0, e1, -⟩ := idx1 t
  unfold iblk1
  rw [View.read_apply]
  show V c main_arg7 _ = V c main_arg7 _
  congr 1
  funext a
  apply Fin.ext
  match a with
  | ⟨0, _⟩ => show win1_3.index t (0 : Fin 2) * 32 + 1 * (y 0).val = (y 0).val; rw [e0]; omega
  | ⟨1, _⟩ => show win1_3.index t (1 : Fin 2) * 16 + 1 * (y 1).val = (y 1).val; rw [e1]; omega

/-- The relation-weight block at every point is the whole relation-weight array. -/
theorem blk1_4 (c : Dev nD) (t : Fin cfg1.N) (y : S256x16.Idx) :
    (iblk1 V c 4 t : Vec Ideal S256x16 .f32) y = (V c main_v41 : S256x16.Idx → EReal) y := by
  obtain ⟨-, -, -, -, -, -, -, -, e0, e1, -⟩ := idx1 t
  unfold iblk1
  rw [View.read_apply]
  show V c main_v41 _ = V c main_v41 _
  congr 1
  funext a
  apply Fin.ext
  match a with
  | ⟨0, _⟩ => show win1_4.index t (0 : Fin 2) * 256 + 1 * (y 0).val = (y 0).val; rw [e0]; omega
  | ⟨1, _⟩ => show win1_4.index t (1 : Fin 2) * 16 + 1 * (y 1).val = (y 1).val; rw [e1]; omega

/-- The bias block at every point is the whole bias array. -/
theorem blk1_5 (c : Dev nD) (t : Fin cfg1.N) (y : S1x16.Idx) :
    (iblk1 V c 5 t : Vec Ideal S1x16 .f32) y = (V c main_v42 : S1x16.Idx → EReal) y := by
  obtain ⟨-, -, -, -, -, -, -, -, -, -, e0, e1, -⟩ := idx1 t
  unfold iblk1
  rw [View.read_apply]
  show V c main_v42 _ = V c main_v42 _
  congr 1
  funext a
  apply Fin.ext
  match a with
  | ⟨0, _⟩ => show win1_5.index t (0 : Fin 2) * 1 + 1 * (y 0).val = (y 0).val; rw [e0]; omega
  | ⟨1, _⟩ => show win1_5.index t (1 : Fin 2) * 16 + 1 * (y 1).val = (y 1).val; rw [e1]; omega

/-- Where entry (p, o) of the output block at point `t` sits in the output array: row 5000·t + p, column o. -/
theorem out1_emb (t : Fin cfg1.N) (j : S5000x16.Idx) :
    ((((cfg1.win 6).blk t).view.emb j : S100000x16.Idx) 0).val = 5000 * t.val + (j 0).val
    ∧ ((((cfg1.win 6).blk t).view.emb j : S100000x16.Idx) 1).val = (j 1).val := by
  obtain ⟨-, -, -, -, -, -, -, -, -, -, -, -, e0, e1⟩ := idx1 t
  constructor
  · show win1_6.index t (0 : Fin 2) * 5000 + 1 * (j 0).val = _; rw [e0]; omega
  · show win1_6.index t (1 : Fin 2) * 16 + 1 * (j 1).val = _; rw [e1]; omega

/-- What point `t` writes back is block `t` of layer 2 of the arrays. -/
theorem flushed1_eq (c : Dev nD)
    (hbody : ∀ t : Fin cfg1.N, outsAt1 (F := Ideal) V c t = rowsL2 (iblk1 V c 0 t) (iblk1 V c 1 t) (iblk1 V c 2 t) (iblk1 V c 3 t) (iblk1 V c 4 t) (iblk1 V c 5 t))
    (t : Fin cfg1.N) :
    (dat1 (F := Ideal) V c).flushed 6 t = ((cfg1.win 6).blk t).view.read (Elt Ideal) (rowsL2 (V c main_v29) (V c main_v40) (V c main_v15) (V c main_arg7) (V c main_v41) (V c main_v42)) := by
  show (cfg1.win 6).cut (grid1.coords t) ((dat1 V c).after 6 t) = _
  rw [after1_6, hbody t]
  funext j
  obtain ⟨r0, r1⟩ := out1_emb t j
  show rowsL2 (iblk1 V c 0 t) (iblk1 V c 1 t) (iblk1 V c 2 t) (iblk1 V c 3 t) (iblk1 V c 4 t) (iblk1 V c 5 t) ((cfg1.win 6).xinj (grid1.coords t) j)
    = rowsL2 (V c main_v29) (V c main_v40) (V c main_v15) (V c main_arg7) (V c main_v41) (V c main_v42) (((cfg1.win 6).blk t).view.emb j)
  exact rowsL2_congr (iblk1 V c 0 t) (iblk1 V c 1 t) (iblk1 V c 2 t) (iblk1 V c 3 t) (iblk1 V c 4 t) (iblk1 V c 5 t)
    (V c main_v29) (V c main_v40) (V c main_v15) (V c main_arg7) (V c main_v41) (V c main_v42)
    ((cfg1.win 6).xinj (grid1.coords t) j) (((cfg1.win 6).blk t).view.emb j)
    (fun d => blk1_0 V c t _ _ r0 rfl) (fun k => blk1_1 V c t _ _ r0 rfl) (fun r => blk1_2 V c t _ _ r0 rfl)
    (fun d => (blk1_3 V c t _).trans (congrArg (V c main_arg7 : S32x16.Idx → EReal) (funext fun a => by match a with | ⟨0, _⟩ => rfl | ⟨1, _⟩ => exact Fin.ext r1.symm)))
    (fun k => (blk1_4 V c t _).trans (congrArg (V c main_v41 : S256x16.Idx → EReal) (funext fun a => by match a with | ⟨0, _⟩ => rfl | ⟨1, _⟩ => exact Fin.ext r1.symm)))
    ((blk1_5 V c t _).trans (congrArg (V c main_v42 : S1x16.Idx → EReal) (funext fun a => by match a with | ⟨0, _⟩ => rfl | ⟨1, _⟩ => exact Fin.ext r1.symm)))

/-- A position of the output array is in point `t`'s block iff each coordinate is in the block's range on its axis. -/
theorem mem_blk1 (t : Fin cfg1.N) (i : S100000x16.Idx) :
    i ∈ ((cfg1.win 6).blk t).view.set ↔ ∀ a : Fin 2, win1_6.index t a * S5000x16.size a ≤ (i a).val ∧ (i a).val < win1_6.index t a * S5000x16.size a + S5000x16.size a := by
  show i ∈ ((View.whole main_v43).slice (win1_6.rect t)).set ↔ _
  rw [View.set_slice_whole, Rect.mem_set_unit]
  exact Iff.rfl

/-- The 20 row blocks tile the output array: row r is in the block of point r / 5000. -/
theorem cover1 (i : S100000x16.Idx) :
    ∃ t : Fin cfg1.N, (cfg1.win 6).flush t = true ∧ i ∈ ((cfg1.win 6).blk t).view.set := by
  have hi0 : (i 0).val < 100000 := (i 0).isLt
  have hi1 : (i 1).val < 16 := (i 1).isLt
  have hN : cfg1.N = 20 := N_1
  obtain ⟨t, ht⟩ : ∃ t : Fin cfg1.N, t.val = (i 0).val / 5000 := ⟨⟨(i 0).val / 5000, hN ▸ (by omega : (i 0).val / 5000 < 20)⟩, rfl⟩
  obtain ⟨-, -, -, -, -, -, -, -, -, -, -, -, e0, e1⟩ := idx1 t
  refine ⟨t, flush1_6 t, ?_⟩
  rw [mem_blk1]
  intro a
  match a with
  | ⟨0, _⟩ => show win1_6.index t (0 : Fin 2) * 5000 ≤ (i 0).val ∧ (i 0).val < win1_6.index t (0 : Fin 2) * 5000 + 5000; rw [e0, ht]; omega
  | ⟨1, _⟩ => show win1_6.index t (1 : Fin 2) * 16 ≤ (i 1).val ∧ (i 1).val < win1_6.index t (1 : Fin 2) * 16 + 16; rw [e1]; omega

/-- After the 20 points the output array of layer 2's region holds layer 2 of the operand arrays as the region found them. -/
theorem arr1 (c : Dev nD)
    (hbody : ∀ t : Fin cfg1.N, outsAt1 (F := Ideal) V c t = rowsL2 (iblk1 V c 0 t) (iblk1 V c 1 t) (iblk1 V c 2 t) (iblk1 V c 3 t) (iblk1 V c 4 t) (iblk1 V c 5 t)) :
    (dat1 (F := Ideal) V c).arrAt 6 cfg1.N = rowsL2 (V c main_v29) (V c main_v40) (V c main_v15) (V c main_arg7) (V c main_v41) (V c main_v42) :=
  (dat1 (F := Ideal) V c).arrAt_eq_of_cover 6 (rowsL2 (V c main_v29) (V c main_v40) (V c main_v15) (V c main_arg7) (V c main_v41) (V c main_v42))
    (fun t _ => flushed1_eq V c hbody t) cover1

end Cert.KernelIdeal.KV

end
-- ==== Proof.KPay.lean ====
/-
  The arithmetic of the two kernel bodies, READ AT AN INDEX over the extended reals.

  Each body scales slices of its input by a column (a row of the slice times that row's entry of the column), and forms
  one output block: the sum of two matrix products plus a row of biases, clamped below at zero in the first body and not
  clamped in the second. Over the extended reals a change of float format is the identity, a cast to the same shape is the
  identity, a column laid along the rows reads the column's entry of that row, a row laid along the columns reads the
  row's entry of that column, and a matrix product into a zero accumulator is the sum over the contracted coordinate of
  the products. The theorems below read every such term at explicit coordinates (p, d).
-/
import proofs.«416438_j26963804684494_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.KV

open Cert.KernelIdeal Cert.KernelIdeal.Gen Idealize.ShloMosaic Idealize.ShloMosaic.ValueIdx

/-- An [a, 1] column broadcast to [a, b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A table scaled by a column, at (p, d): the table's entry times the column's entry of row p. -/
theorem scale_apply {a b : ℕ} (v : FVec Ideal ⟨2, ![a, b]⟩ .f32) (col : FVec Ideal ⟨2, ![a, 1]⟩ .f32)
    (h : (⟨2, ![a, 1]⟩ : Shape).Broadcasts ⟨2, ![a, b]⟩) (p : Fin a) (d : Fin b) :
    mulf v (broadcastTo ⟨2, ![a, b]⟩ col h) (ix2 p d) = v (ix2 p d) * col (ix2 p (0 : Fin 1)) :=
  congrArg (v (ix2 p d) * ·) (broadcastTo_a1_ab_apply col h p d)

/-! ## The first body: 5000 rows, 16 features in, 32 out -/

/-- A slice scaled by a column, at (p, d): the slice's entry times the column's entry of row p. -/
theorem k0_pay1_apply (v : FVec Ideal S5000x16 .f32) (col : Vec Ideal S5000x1 .f32) (p : Fin 5000) (d : Fin 16) :
    k0_pay1 (F := Ideal) v col (ix2 p d) = v (ix2 p d) * col (ix2 p (0 : Fin 1)) := by
  unfold k0_pay1
  simp only [shapeCast_self]
  exact scale_apply _ _ _ p d

/-- A slice scaled by a column, at (p, d): the slice's entry times the column's entry of row p. -/
theorem k0_pay3_apply (v : Vec Ideal S5000x16 .f32) (col : Vec Ideal S5000x1 .f32) (p : Fin 5000) (d : Fin 16) :
    k0_pay3 (F := Ideal) v col (ix2 p d) = v (ix2 p d) * col (ix2 p (0 : Fin 1)) := by
  unfold k0_pay3
  simp only [shapeCast_self]
  exact scale_apply _ _ _ p d

/-- A slice scaled by a column, at (p, d): the slice's entry times the column's entry of row p. -/
theorem k0_pay4_apply (v : Vec Ideal S5000x16 .f32) (col : Vec Ideal S5000x1 .f32) (p : Fin 5000) (d : Fin 16) :
    k0_pay4 (F := Ideal) v col (ix2 p d) = v (ix2 p d) * col (ix2 p (0 : Fin 1)) := by
  unfold k0_pay4
  simp only [shapeCast_self]
  exact scale_apply _ _ _ p d

/-- A slice scaled by a column, at (p, d): the slice's entry times the column's entry of row p. -/
theorem k0_pay5_apply (v : Vec Ideal S5000x16 .f32) (col : Vec Ideal S5000x1 .f32) (p : Fin 5000) (d : Fin 16) :
    k0_pay5 (F := Ideal) v col (ix2 p d) = v (ix2 p d) * col (ix2 p (0 : Fin 1)) := by
  unfold k0_pay5
  simp only [shapeCast_self]
  exact scale_apply _ _ _ p d

/-- A slice scaled by a column, at (p, d): the slice's entry times the column's entry of row p. -/
theorem k0_pay6_apply (v : Vec Ideal S5000x16 .f32) (col : Vec Ideal S5000x1 .f32) (p : Fin 5000) (d : Fin 16) :
    k0_pay6 (F := Ideal) v col (ix2 p d) = v (ix2 p d) * col (ix2 p (0 : Fin 1)) := by
  unfold k0_pay6
  simp only [shapeCast_self]
  exact scale_apply _ _ _ p d

/-- A slice scaled by a column, at (p, d): the slice's entry times the column's entry of row p. -/
theorem k0_pay8_apply (v : Vec Ideal S5000x16 .f32) (col : Vec Ideal S5000x1 .f32) (p : Fin 5000) (d : Fin 16) :
    k0_pay8 (F := Ideal) v col (ix2 p d) = v (ix2 p d) * col (ix2 p (0 : Fin 1)) := by
  unfold k0_pay8
  simp only [shapeCast_self]
  exact scale_apply _ _ _ p d

/-- A slice scaled by a column, at (p, d): the slice's entry times the column's entry of row p. -/
theorem k0_pay9_apply (v : Vec Ideal S5000x16 .f32) (col : Vec Ideal S5000x1 .f32) (p : Fin 5000) (d : Fin 16) :
    k0_pay9 (F := Ideal) v col (ix2 p d) = v (ix2 p d) * col (ix2 p (0 : Fin 1)) := by
  unfold k0_pay9
  simp only [shapeCast_self]
  exact scale_apply _ _ _ p d

/-- A slice scaled by a column, at (p, d): the slice's entry times the column's entry of row p. -/
theorem k0_pay10_apply (v : Vec Ideal S5000x16 .f32) (col : Vec Ideal S5000x1 .f32) (p : Fin 5000) (d : Fin 16) :
    k0_pay10 (F := Ideal) v col (ix2 p d) = v (ix2 p d) * col (ix2 p (0 : Fin 1)) := by
  unfold k0_pay10
  simp only [shapeCast_self]
  exact scale_apply _ _ _ p d

/-- A cast to the same shape: the value itself. -/
theorem k0_pay7_apply (v : FVec Ideal S5000x16 .f32) : k0_pay7 (F := Ideal) v = v := by
  unfold k0_pay7
  exact shapeCast_self v _

/-- A cast to the same shape: the value itself. -/
theorem k0_pay11_apply (v : Vec Ideal S5000x16 .f32) : k0_pay11 (F := Ideal) v = v := by
  unfold k0_pay11
  exact shapeCast_self v _

/-! ### The product [5000 × 16] · [16 × 32] -/

/-- The left operand's row coordinate is the output's row. -/
theorem lhs_k0a_0 (i : S5000x32.Idx) (q : dot_S5000x16_S16x32_S5000x32_1_0_0_1_n_n.contr.Idx) :
    (dot_S5000x16_S16x32_S5000x32_1_0_0_1_n_n.lhsIdx i q 0).val = (i 0).val := by
  unfold DotDims.lhsIdx
  rw [dif_neg (show ¬(0 : Fin S5000x16.rank) ∈ dot_S5000x16_S16x32_S5000x32_1_0_0_1_n_n.lhsBatch by decide), dif_pos (show (0 : Fin S5000x16.rank) ∈ dot_S5000x16_S16x32_S5000x32_1_0_0_1_n_n.lhsNonContracting by decide)]
  rfl
/-- The left operand's column coordinate is the contracted coordinate. -/
theorem lhs_k0a_1 (i : S5000x32.Idx) (q : dot_S5000x16_S16x32_S5000x32_1_0_0_1_n_n.contr.Idx) :
    (dot_S5000x16_S16x32_S5000x32_1_0_0_1_n_n.lhsIdx i q 1).val = (q ⟨0, by decide⟩).val :=
  dot_S5000x16_S16x32_S5000x32_1_0_0_1_n_n.lhsIdx_val_of_single rfl i q
/-- The right operand's row coordinate is the contracted coordinate. -/
theorem rhs_k0a_0 (i : S5000x32.Idx) (q : dot_S5000x16_S16x32_S5000x32_1_0_0_1_n_n.contr.Idx) :
    (dot_S5000x16_S16x32_S5000x32_1_0_0_1_n_n.rhsIdx i q 0).val = (q ⟨0, by decide⟩).val :=
  dot_S5000x16_S16x32_S5000x32_1_0_0_1_n_n.rhsIdx_val_of_single rfl i q
/-- The right operand's column coordinate is the output's column. -/
theorem rhs_k0a_1 (i : S5000x32.Idx) (q : dot_S5000x16_S16x32_S5000x32_1_0_0_1_n_n.contr.Idx) :
    (dot_S5000x16_S16x32_S5000x32_1_0_0_1_n_n.rhsIdx i q 1).val = (i 1).val := by
  unfold DotDims.rhsIdx
  rw [dif_neg (show ¬(1 : Fin S16x32.rank) ∈ dot_S5000x16_S16x32_S5000x32_1_0_0_1_n_n.rhsBatch by decide), dif_pos (show (1 : Fin S16x32.rank) ∈ dot_S5000x16_S16x32_S5000x32_1_0_0_1_n_n.rhsNonContracting by decide)]
  rfl
/-- The product into a zero accumulator, at (p, o): the sum over the contracted coordinate k of l (p, k) · r (k, o). -/
theorem matmul_k0a_apply {φ₁ φ₂ : FTy} (l : FVec Ideal S5000x16 φ₁) (r : FVec Ideal S16x32 φ₂) (p : Fin 5000) (o : Fin 32) :
    matmul dot_S5000x16_S16x32_S5000x32_1_0_0_1_n_n none l r (constant (F := Ideal) S5000x32 .f32 0x00000000#32) (ix2 p o)
      = ∑ k : Fin 16, l (ix2 p k) * r (ix2 k o) := by
  simp only [matmul]
  rw [Ideal.matmul_constant_zero_apply, ← Equiv.sum_comp (contrEquiv1 dot_S5000x16_S16x32_S5000x32_1_0_0_1_n_n 16 rfl rfl).symm]
  refine Finset.sum_congr rfl fun k _ => ?_
  have hk := contrEquiv1_symm_val dot_S5000x16_S16x32_S5000x32_1_0_0_1_n_n 16 rfl rfl k
  have el : dot_S5000x16_S16x32_S5000x32_1_0_0_1_n_n.lhsIdx (ix2 p o) ((contrEquiv1 dot_S5000x16_S16x32_S5000x32_1_0_0_1_n_n 16 rfl rfl).symm k) = ix2 p k := funext fun a => Fin.ext (by
    match a with
    | ⟨0, _⟩ => exact lhs_k0a_0 _ _
    | ⟨1, _⟩ => exact (lhs_k0a_1 _ _).trans hk)
  have er : dot_S5000x16_S16x32_S5000x32_1_0_0_1_n_n.rhsIdx (ix2 p o) ((contrEquiv1 dot_S5000x16_S16x32_S5000x32_1_0_0_1_n_n 16 rfl rfl).symm k) = ix2 k o := funext fun a => Fin.ext (by
    match a with
    | ⟨0, _⟩ => exact (rhs_k0a_0 _ _).trans hk
    | ⟨1, _⟩ => exact rhs_k0a_1 _ _)
  rw [el, er]

/-! ### The product [5000 × 128] · [128 × 32] -/

/-- The left operand's row coordinate is the output's row. -/
theorem lhs_k0b_0 (i : S5000x32.Idx) (q : dot_S5000x128_S128x32_S5000x32_1_0_0_1_n_n.contr.Idx) :
    (dot_S5000x128_S128x32_S5000x32_1_0_0_1_n_n.lhsIdx i q 0).val = (i 0).val := by
  unfold DotDims.lhsIdx
  rw [dif_neg (show ¬(0 : Fin S5000x128.rank) ∈ dot_S5000x128_S128x32_S5000x32_1_0_0_1_n_n.lhsBatch by decide), dif_pos (show (0 : Fin S5000x128.rank) ∈ dot_S5000x128_S128x32_S5000x32_1_0_0_1_n_n.lhsNonContracting by decide)]
  rfl
/-- The left operand's column coordinate is the contracted coordinate. -/
theorem lhs_k0b_1 (i : S5000x32.Idx) (q : dot_S5000x128_S128x32_S5000x32_1_0_0_1_n_n.contr.Idx) :
    (dot_S5000x128_S128x32_S5000x32_1_0_0_1_n_n.lhsIdx i q 1).val = (q ⟨0, by decide⟩).val :=
  dot_S5000x128_S128x32_S5000x32_1_0_0_1_n_n.lhsIdx_val_of_single rfl i q
/-- The right operand's row coordinate is the contracted coordinate. -/
theorem rhs_k0b_0 (i : S5000x32.Idx) (q : dot_S5000x128_S128x32_S5000x32_1_0_0_1_n_n.contr.Idx) :
    (dot_S5000x128_S128x32_S5000x32_1_0_0_1_n_n.rhsIdx i q 0).val = (q ⟨0, by decide⟩).val :=
  dot_S5000x128_S128x32_S5000x32_1_0_0_1_n_n.rhsIdx_val_of_single rfl i q
/-- The right operand's column coordinate is the output's column. -/
theorem rhs_k0b_1 (i : S5000x32.Idx) (q : dot_S5000x128_S128x32_S5000x32_1_0_0_1_n_n.contr.Idx) :
    (dot_S5000x128_S128x32_S5000x32_1_0_0_1_n_n.rhsIdx i q 1).val = (i 1).val := by
  unfold DotDims.rhsIdx
  rw [dif_neg (show ¬(1 : Fin S128x32.rank) ∈ dot_S5000x128_S128x32_S5000x32_1_0_0_1_n_n.rhsBatch by decide), dif_pos (show (1 : Fin S128x32.rank) ∈ dot_S5000x128_S128x32_S5000x32_1_0_0_1_n_n.rhsNonContracting by decide)]
  rfl
/-- The product into a zero accumulator, at (p, o): the sum over the contracted coordinate k of l (p, k) · r (k, o). -/
theorem matmul_k0b_apply {φ₁ φ₂ : FTy} (l : FVec Ideal S5000x128 φ₁) (r : FVec Ideal S128x32 φ₂) (p : Fin 5000) (o : Fin 32) :
    matmul dot_S5000x128_S128x32_S5000x32_1_0_0_1_n_n none l r (constant (F := Ideal) S5000x32 .f32 0x00000000#32) (ix2 p o)
      = ∑ k : Fin 128, l (ix2 p k) * r (ix2 k o) := by
  simp only [matmul]
  rw [Ideal.matmul_constant_zero_apply, ← Equiv.sum_comp (contrEquiv1 dot_S5000x128_S128x32_S5000x32_1_0_0_1_n_n 128 rfl rfl).symm]
  refine Finset.sum_congr rfl fun k _ => ?_
  have hk := contrEquiv1_symm_val dot_S5000x128_S128x32_S5000x32_1_0_0_1_n_n 128 rfl rfl k
  have el : dot_S5000x128_S128x32_S5000x32_1_0_0_1_n_n.lhsIdx (ix2 p o) ((contrEquiv1 dot_S5000x128_S128x32_S5000x32_1_0_0_1_n_n 128 rfl rfl).symm k) = ix2 p k := funext fun a => Fin.ext (by
    match a with
    | ⟨0, _⟩ => exact lhs_k0b_0 _ _
    | ⟨1, _⟩ => exact (lhs_k0b_1 _ _).trans hk)
  have er : dot_S5000x128_S128x32_S5000x32_1_0_0_1_n_n.rhsIdx (ix2 p o) ((contrEquiv1 dot_S5000x128_S128x32_S5000x32_1_0_0_1_n_n 128 rfl rfl).symm k) = ix2 k o := funext fun a => Fin.ext (by
    match a with
    | ⟨0, _⟩ => exact (rhs_k0b_0 _ _).trans hk
    | ⟨1, _⟩ => exact rhs_k0b_1 _ _)
  rw [el, er]

/-- The first body's output block, at (p, o): the two products' sums plus the bias of column o, clamped below at zero. -/
theorem k0_pay2_apply (v72 : Vec Ideal S5000x16 .f32) (v74 : Vec Ideal S16x32 .f32) (v76 : Vec Ideal S5000x128 .f32)
    (v78 : Vec Ideal S128x32 .f32) (v84 : Vec Ideal S1x32 .f32) (p : Fin 5000) (o : Fin 32) :
    k0_pay2 (F := Ideal) v72 v74 v76 v78 v84 (ix2 p o)
      = max ((∑ d : Fin 16, v72 (ix2 p d) * v74 (ix2 d o) + ∑ k : Fin 128, v76 (ix2 p k) * v78 (ix2 k o))
          + v84 (ix2 (0 : Fin 1) o)) 0 := by
  unfold k0_pay2
  simp only [shapeCast_self]
  rw [maximumf_apply, addf_apply, addf_apply, broadcast_apply, matmul_k0a_apply, matmul_k0b_apply, broadcastTo_1b_ab_apply]
  exact congrArg (max ((∑ d : Fin 16, v72 (ix2 p d) * v74 (ix2 d o) + ∑ k : Fin 128, v76 (ix2 p k) * v78 (ix2 k o))
    + v84 (ix2 (0 : Fin 1) o))) Ideal.ofBits_zero_f32

/-! ## The second body: 5000 rows, 32 features in, 16 out -/

/-- A slice scaled by a column, at (p, d): the slice's entry times the column's entry of row p. -/
theorem k1_pay1_apply (v : FVec Ideal S5000x32 .f32) (col : Vec Ideal S5000x1 .f32) (p : Fin 5000) (d : Fin 32) :
    k1_pay1 (F := Ideal) v col (ix2 p d) = v (ix2 p d) * col (ix2 p (0 : Fin 1)) := by
  unfold k1_pay1
  simp only [shapeCast_self]
  exact scale_apply _ _ _ p d

/-- A slice scaled by a column, at (p, d): the slice's entry times the column's entry of row p. -/
theorem k1_pay3_apply (v : Vec Ideal S5000x32 .f32) (col : Vec Ideal S5000x1 .f32) (p : Fin 5000) (d : Fin 32) :
    k1_pay3 (F := Ideal) v col (ix2 p d) = v (ix2 p d) * col (ix2 p (0 : Fin 1)) := by
  unfold k1_pay3
  simp only [shapeCast_self]
  exact scale_apply _ _ _ p d

/-- A slice scaled by a column, at (p, d): the slice's entry times the column's entry of row p. -/
theorem k1_pay4_apply (v : Vec Ideal S5000x32 .f32) (col : Vec Ideal S5000x1 .f32) (p : Fin 5000) (d : Fin 32) :
    k1_pay4 (F := Ideal) v col (ix2 p d) = v (ix2 p d) * col (ix2 p (0 : Fin 1)) := by
  unfold k1_pay4
  simp only [shapeCast_self]
  exact scale_apply _ _ _ p d

/-- A slice scaled by a column, at (p, d): the slice's entry times the column's entry of row p. -/
theorem k1_pay5_apply (v : Vec Ideal S5000x32 .f32) (col : Vec Ideal S5000x1 .f32) (p : Fin 5000) (d : Fin 32) :
    k1_pay5 (F := Ideal) v col (ix2 p d) = v (ix2 p d) * col (ix2 p (0 : Fin 1)) := by
  unfold k1_pay5
  simp only [shapeCast_self]
  exact scale_apply _ _ _ p d

/-- A slice scaled by a column, at (p, d): the slice's entry times the column's entry of row p. -/
theorem k1_pay6_apply (v : Vec Ideal S5000x32 .f32) (col : Vec Ideal S5000x1 .f32) (p : Fin 5000) (d : Fin 32) :
    k1_pay6 (F := Ideal) v col (ix2 p d) = v (ix2 p d) * col (ix2 p (0 : Fin 1)) := by
  unfold k1_pay6
  simp only [shapeCast_self]
  exact scale_apply _ _ _ p d

/-- A slice scaled by a column, at (p, d): the slice's entry times the column's entry of row p. -/
theorem k1_pay8_apply (v : Vec Ideal S5000x32 .f32) (col : Vec Ideal S5000x1 .f32) (p : Fin 5000) (d : Fin 32) :
    k1_pay8 (F := Ideal) v col (ix2 p d) = v (ix2 p d) * col (ix2 p (0 : Fin 1)) := by
  unfold k1_pay8
  simp only [shapeCast_self]
  exact scale_apply _ _ _ p d

/-- A slice scaled by a column, at (p, d): the slice's entry times the column's entry of row p. -/
theorem k1_pay9_apply (v : Vec Ideal S5000x32 .f32) (col : Vec Ideal S5000x1 .f32) (p : Fin 5000) (d : Fin 32) :
    k1_pay9 (F := Ideal) v col (ix2 p d) = v (ix2 p d) * col (ix2 p (0 : Fin 1)) := by
  unfold k1_pay9
  simp only [shapeCast_self]
  exact scale_apply _ _ _ p d

/-- A slice scaled by a column, at (p, d): the slice's entry times the column's entry of row p. -/
theorem k1_pay10_apply (v : Vec Ideal S5000x32 .f32) (col : Vec Ideal S5000x1 .f32) (p : Fin 5000) (d : Fin 32) :
    k1_pay10 (F := Ideal) v col (ix2 p d) = v (ix2 p d) * col (ix2 p (0 : Fin 1)) := by
  unfold k1_pay10
  simp only [shapeCast_self]
  exact scale_apply _ _ _ p d

/-- A cast to the same shape: the value itself. -/
theorem k1_pay7_apply (v : FVec Ideal S5000x32 .f32) : k1_pay7 (F := Ideal) v = v := by
  unfold k1_pay7
  exact shapeCast_self v _

/-- A cast to the same shape: the value itself. -/
theorem k1_pay11_apply (v : Vec Ideal S5000x32 .f32) : k1_pay11 (F := Ideal) v = v := by
  unfold k1_pay11
  exact shapeCast_self v _

/-! ### The product [5000 × 32] · [32 × 16] -/

/-- The left operand's row coordinate is the output's row. -/
theorem lhs_k1a_0 (i : S5000x16.Idx) (q : dot_S5000x32_S32x16_S5000x16_1_0_0_1_n_n.contr.Idx) :
    (dot_S5000x32_S32x16_S5000x16_1_0_0_1_n_n.lhsIdx i q 0).val = (i 0).val := by
  unfold DotDims.lhsIdx
  rw [dif_neg (show ¬(0 : Fin S5000x32.rank) ∈ dot_S5000x32_S32x16_S5000x16_1_0_0_1_n_n.lhsBatch by decide), dif_pos (show (0 : Fin S5000x32.rank) ∈ dot_S5000x32_S32x16_S5000x16_1_0_0_1_n_n.lhsNonContracting by decide)]
  rfl
/-- The left operand's column coordinate is the contracted coordinate. -/
theorem lhs_k1a_1 (i : S5000x16.Idx) (q : dot_S5000x32_S32x16_S5000x16_1_0_0_1_n_n.contr.Idx) :
    (dot_S5000x32_S32x16_S5000x16_1_0_0_1_n_n.lhsIdx i q 1).val = (q ⟨0, by decide⟩).val :=
  dot_S5000x32_S32x16_S5000x16_1_0_0_1_n_n.lhsIdx_val_of_single rfl i q
/-- The right operand's row coordinate is the contracted coordinate. -/
theorem rhs_k1a_0 (i : S5000x16.Idx) (q : dot_S5000x32_S32x16_S5000x16_1_0_0_1_n_n.contr.Idx) :
    (dot_S5000x32_S32x16_S5000x16_1_0_0_1_n_n.rhsIdx i q 0).val = (q ⟨0, by decide⟩).val :=
  dot_S5000x32_S32x16_S5000x16_1_0_0_1_n_n.rhsIdx_val_of_single rfl i q
/-- The right operand's column coordinate is the output's column. -/
theorem rhs_k1a_1 (i : S5000x16.Idx) (q : dot_S5000x32_S32x16_S5000x16_1_0_0_1_n_n.contr.Idx) :
    (dot_S5000x32_S32x16_S5000x16_1_0_0_1_n_n.rhsIdx i q 1).val = (i 1).val := by
  unfold DotDims.rhsIdx
  rw [dif_neg (show ¬(1 : Fin S32x16.rank) ∈ dot_S5000x32_S32x16_S5000x16_1_0_0_1_n_n.rhsBatch by decide), dif_pos (show (1 : Fin S32x16.rank) ∈ dot_S5000x32_S32x16_S5000x16_1_0_0_1_n_n.rhsNonContracting by decide)]
  rfl
/-- The product into a zero accumulator, at (p, o): the sum over the contracted coordinate k of l (p, k) · r (k, o). -/
theorem matmul_k1a_apply {φ₁ φ₂ : FTy} (l : FVec Ideal S5000x32 φ₁) (r : FVec Ideal S32x16 φ₂) (p : Fin 5000) (o : Fin 16) :
    matmul dot_S5000x32_S32x16_S5000x16_1_0_0_1_n_n none l r (constant (F := Ideal) S5000x16 .f32 0x00000000#32) (ix2 p o)
      = ∑ k : Fin 32, l (ix2 p k) * r (ix2 k o) := by
  simp only [matmul]
  rw [Ideal.matmul_constant_zero_apply, ← Equiv.sum_comp (contrEquiv1 dot_S5000x32_S32x16_S5000x16_1_0_0_1_n_n 32 rfl rfl).symm]
  refine Finset.sum_congr rfl fun k _ => ?_
  have hk := contrEquiv1_symm_val dot_S5000x32_S32x16_S5000x16_1_0_0_1_n_n 32 rfl rfl k
  have el : dot_S5000x32_S32x16_S5000x16_1_0_0_1_n_n.lhsIdx (ix2 p o) ((contrEquiv1 dot_S5000x32_S32x16_S5000x16_1_0_0_1_n_n 32 rfl rfl).symm k) = ix2 p k := funext fun a => Fin.ext (by
    match a with
    | ⟨0, _⟩ => exact lhs_k1a_0 _ _
    | ⟨1, _⟩ => exact (lhs_k1a_1 _ _).trans hk)
  have er : dot_S5000x32_S32x16_S5000x16_1_0_0_1_n_n.rhsIdx (ix2 p o) ((contrEquiv1 dot_S5000x32_S32x16_S5000x16_1_0_0_1_n_n 32 rfl rfl).symm k) = ix2 k o := funext fun a => Fin.ext (by
    match a with
    | ⟨0, _⟩ => exact (rhs_k1a_0 _ _).trans hk
    | ⟨1, _⟩ => exact rhs_k1a_1 _ _)
  rw [el, er]

/-! ### The product [5000 × 256] · [256 × 16] -/

/-- The left operand's row coordinate is the output's row. -/
theorem lhs_k1b_0 (i : S5000x16.Idx) (q : dot_S5000x256_S256x16_S5000x16_1_0_0_1_n_n.contr.Idx) :
    (dot_S5000x256_S256x16_S5000x16_1_0_0_1_n_n.lhsIdx i q 0).val = (i 0).val := by
  unfold DotDims.lhsIdx
  rw [dif_neg (show ¬(0 : Fin S5000x256.rank) ∈ dot_S5000x256_S256x16_S5000x16_1_0_0_1_n_n.lhsBatch by decide), dif_pos (show (0 : Fin S5000x256.rank) ∈ dot_S5000x256_S256x16_S5000x16_1_0_0_1_n_n.lhsNonContracting by decide)]
  rfl
/-- The left operand's column coordinate is the contracted coordinate. -/
theorem lhs_k1b_1 (i : S5000x16.Idx) (q : dot_S5000x256_S256x16_S5000x16_1_0_0_1_n_n.contr.Idx) :
    (dot_S5000x256_S256x16_S5000x16_1_0_0_1_n_n.lhsIdx i q 1).val = (q ⟨0, by decide⟩).val :=
  dot_S5000x256_S256x16_S5000x16_1_0_0_1_n_n.lhsIdx_val_of_single rfl i q
/-- The right operand's row coordinate is the contracted coordinate. -/
theorem rhs_k1b_0 (i : S5000x16.Idx) (q : dot_S5000x256_S256x16_S5000x16_1_0_0_1_n_n.contr.Idx) :
    (dot_S5000x256_S256x16_S5000x16_1_0_0_1_n_n.rhsIdx i q 0).val = (q ⟨0, by decide⟩).val :=
  dot_S5000x256_S256x16_S5000x16_1_0_0_1_n_n.rhsIdx_val_of_single rfl i q
/-- The right operand's column coordinate is the output's column. -/
theorem rhs_k1b_1 (i : S5000x16.Idx) (q : dot_S5000x256_S256x16_S5000x16_1_0_0_1_n_n.contr.Idx) :
    (dot_S5000x256_S256x16_S5000x16_1_0_0_1_n_n.rhsIdx i q 1).val = (i 1).val := by
  unfold DotDims.rhsIdx
  rw [dif_neg (show ¬(1 : Fin S256x16.rank) ∈ dot_S5000x256_S256x16_S5000x16_1_0_0_1_n_n.rhsBatch by decide), dif_pos (show (1 : Fin S256x16.rank) ∈ dot_S5000x256_S256x16_S5000x16_1_0_0_1_n_n.rhsNonContracting by decide)]
  rfl
/-- The product into a zero accumulator, at (p, o): the sum over the contracted coordinate k of l (p, k) · r (k, o). -/
theorem matmul_k1b_apply {φ₁ φ₂ : FTy} (l : FVec Ideal S5000x256 φ₁) (r : FVec Ideal S256x16 φ₂) (p : Fin 5000) (o : Fin 16) :
    matmul dot_S5000x256_S256x16_S5000x16_1_0_0_1_n_n none l r (constant (F := Ideal) S5000x16 .f32 0x00000000#32) (ix2 p o)
      = ∑ k : Fin 256, l (ix2 p k) * r (ix2 k o) := by
  simp only [matmul]
  rw [Ideal.matmul_constant_zero_apply, ← Equiv.sum_comp (contrEquiv1 dot_S5000x256_S256x16_S5000x16_1_0_0_1_n_n 256 rfl rfl).symm]
  refine Finset.sum_congr rfl fun k _ => ?_
  have hk := contrEquiv1_symm_val dot_S5000x256_S256x16_S5000x16_1_0_0_1_n_n 256 rfl rfl k
  have el : dot_S5000x256_S256x16_S5000x16_1_0_0_1_n_n.lhsIdx (ix2 p o) ((contrEquiv1 dot_S5000x256_S256x16_S5000x16_1_0_0_1_n_n 256 rfl rfl).symm k) = ix2 p k := funext fun a => Fin.ext (by
    match a with
    | ⟨0, _⟩ => exact lhs_k1b_0 _ _
    | ⟨1, _⟩ => exact (lhs_k1b_1 _ _).trans hk)
  have er : dot_S5000x256_S256x16_S5000x16_1_0_0_1_n_n.rhsIdx (ix2 p o) ((contrEquiv1 dot_S5000x256_S256x16_S5000x16_1_0_0_1_n_n 256 rfl rfl).symm k) = ix2 k o := funext fun a => Fin.ext (by
    match a with
    | ⟨0, _⟩ => exact (rhs_k1b_0 _ _).trans hk
    | ⟨1, _⟩ => exact rhs_k1b_1 _ _)
  rw [el, er]

/-- The second body's output block, at (p, o): the two products' sums plus the bias of column o, with no clamp. -/
theorem k1_pay2_apply (v72 : Vec Ideal S5000x32 .f32) (v75 : Vec Ideal S32x16 .f32) (v77 : Vec Ideal S5000x256 .f32)
    (v79 : Vec Ideal S256x16 .f32) (v85 : Vec Ideal S1x16 .f32) (p : Fin 5000) (o : Fin 16) :
    k1_pay2 (F := Ideal) v72 v75 v77 v79 v85 (ix2 p o)
      = (∑ d : Fin 32, v72 (ix2 p d) * v75 (ix2 d o) + ∑ k : Fin 256, v77 (ix2 p k) * v79 (ix2 k o))
          + v85 (ix2 (0 : Fin 1) o) := by
  unfold k1_pay2
  simp only [shapeCast_self]
  rw [addf_apply, addf_apply, matmul_k1a_apply, matmul_k1b_apply, broadcastTo_1b_ab_apply]
  rfl

end Cert.KernelIdeal.KV
-- ==== Proof.KBody.lean ====
/-
  What one grid point of each layer's region leaves in its output block, as a function of the six input blocks.

  The body first fills a scratch block column slice by column slice: slice r (16 columns in layer 1, 32 in layer 2) is
  the same slice of the messages block, every row scaled by column r of the inverse-count block. The eight slices are
  blocks of ONE function of the scratch index, (p, k) ↦ s[p, k] · inv[p, k / D], so the scratch read back whole is that
  function. The output block is then the layer's formula of KSpec.lean over the row block, the scratch, and the weights.
-/
import proofs.«416438_j26963804684494_2_alg».proof.Proof.Gen.KernelIdeal.Frame
import proofs.«416438_j26963804684494_2_alg».proof.Proof.KSpec
import proofs.«416438_j26963804684494_2_alg».proof.Proof.KPay
import Idealize.ShloMosaic.Lib.Pipeline.Value
import Idealize.ShloMosaic.Lib.ValueIdx

noncomputable section

namespace Cert.KernelIdeal.KV

open Cert.KernelIdeal Cert.KernelIdeal.Gen Idealize.ShloMosaic Idealize.ShloMosaic.ValueIdx
open Idealize.ShloMosaic.Tactic

/-! # Layer 1 (region 0) -/

theorem hz2 : (![0, 0] : Fin 2 → Nat) = fun _ => 0 := funext fun a => by fin_cases a <;> rfl

section AnyF
variable {F : FTy → Type} [FloatOps F]

/-- The output block is the one store's payload over the loaded input blocks and the scratch read back whole. -/
theorem out0_A_6_pay (c : Dev nD) (i : grid0.Coords) (arg1 : Memref sig .tc .vmem S5000x16 .f32) (harg1 : arg1.IsWhole) (arg2 : Memref sig .tc .vmem S5000x128 .f32) (harg2 : arg2.IsWhole) (arg3 : Memref sig .tc .vmem S5000x8 .f32) (harg3 : arg3.IsWhole) (arg4 : Memref sig .tc .vmem S16x32 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S5000x32 .f32) (harg7 : arg7.IsWhole) (arg8 : Memref sig .tc .vmem S5000x128 .f32) (harg8 : arg8.IsWhole)
    (x0 : Vec F S5000x16 .f32) (x1 : Vec F S5000x128 .f32) (x2 : Vec F S5000x8 .f32) (x3 : Vec F S16x32 .f32) (x4 : Vec F S128x32 .f32) (x5 : Vec F S1x32 .f32) :
    out0_A_6 (F := F) c i arg1 harg1 arg2 harg2 arg3 harg3 arg4 harg4 arg5 harg5 arg6 harg6 arg7 harg7 arg8 harg8 x0 x1 x2 x3 x4 x5
      = k0_pay2 x0 x3 (kernelRun0_A.sl.v76 c arg2 harg2 arg3 harg3 arg8 x1 x2) x4 x5 := by
  unfold out0_A_6
  rw [View.read_writes_eq_canon _ _ _ (cover0_A_6 c i arg1 harg1 arg2 harg2 arg3 harg3 arg4 harg4 arg5 harg5 arg6 harg6 arg7 harg7 arg8 harg8 x0 x1 x2 x3 x4 x5)]
  unfold kernelRun0_A
  dsimp only
  rw [View.canon_unit_zero hz2]
  simp only [View.readAt_eq_ld, harg1.read_unread, harg4.read_unread, harg5.read_unread, harg6.read_unread,
    View.ld_unit_zero (S := S5000x16) hz2, View.ld_unit_zero (S := S16x32) hz2, View.ld_unit_zero (S := S128x32) hz2,
    View.ld_unit_zero (S := S1x32) hz2]

end AnyF

/-- What the scratch block holds once its eight column slices are stored: column k of the messages block scaled, row by
    row, by the inverse count of column k's relation. -/
def scr0 (x1 : Vec Ideal S5000x128 .f32) (x2 : Vec Ideal S5000x8 .f32) : S5000x128.Idx → EReal :=
  fun y => x1 y * x2 (ix2 (y 0) (rel16 (y 1)))

/-- Slice r of the messages block times column r of the inverse counts, at (p, q) of the slice, is the scratch function at
    the scratch index under it, (p, 16 r + q). -/
theorem scr0_piece (x1 : Vec Ideal S5000x128 .f32) (x2 : Vec Ideal S5000x8 .f32) (r o : ℕ) (ho : o = 16 * r)
    (inb : ∀ a, (![0, o] : Fin 2 → ℕ) a + S5000x16.size a ≤ S5000x128.size a)
    (inb' : ∀ a, (![0, r] : Fin 2 → ℕ) a + S5000x1.size a ≤ S5000x8.size a) (p : Fin 5000) (q : Fin 16) :
    View.ld x1 (Rect.unit (s := S5000x128) ![0, o] S5000x16.size inb) (ix2 p q)
        * View.ld x2 (Rect.unit (s := S5000x8) ![0, r] S5000x1.size inb') (ix2 p (0 : Fin 1))
      = scr0 x1 x2 ((Rect.unit (s := S5000x128) ![0, o] S5000x16.size inb).emb (ix2 p q)) := by
  subst ho
  have hq : q.val < 16 := q.isLt
  show _ = x1 _ * x2 _
  refine congrArg (x1 ((Rect.unit (s := S5000x128) ![0, 16 * r] S5000x16.size inb).idx (ix2 p q)) * ·) (congrArg x2 ?_)
  funext a
  match a with
  | ⟨0, _⟩ => exact Fin.ext (show 0 + 1 * p.val = 0 + 1 * p.val from rfl)
  | ⟨1, _⟩ => exact Fin.ext (show r + 1 * 0 = (16 * r + 1 * q.val) / 16 by omega)

/-- The scratch block read back whole after its eight column-slice stores is that one function: each store's payload is
    the function's block under the store's rectangle, and the eight rectangles tile the block. -/
theorem scratch0_eq (c : Dev nD) (arg2 : Memref sig .tc .vmem S5000x128 .f32) (harg2 : arg2.IsWhole) (arg3 : Memref sig .tc .vmem S5000x8 .f32) (harg3 : arg3.IsWhole) (arg8 : Memref sig .tc .vmem S5000x128 .f32)
    (x1 : Vec Ideal S5000x128 .f32) (x2 : Vec Ideal S5000x8 .f32) :
    kernelRun0_A.sl.v76 (F := Ideal) c arg2 harg2 arg3 harg3 arg8 x1 x2 = scr0 x1 x2 := by
  sl_unfold_run_names
  rw [View.readCov_eq_canon']
  simp only [View.readAt_eq_ld, harg2.read_unread, harg3.read_unread]
  funext j
  refine (View.canon_apply_of_pieces (scr0 x1 x2) _ ?_ _ ?_).trans ?_
  · intro pc hpc x
    simp only [List.mem_cons, List.mem_nil_iff, or_false] at hpc
    rcases hpc with rfl | rfl | rfl | rfl | rfl | rfl | rfl | rfl
    · -- slice 7
      obtain ⟨p, q, rfl⟩ : ∃ (p : Fin 5000) (q : Fin 16), x = ix2 p q := ⟨x 0, x 1, eq_ix2 x⟩
      refine (k0_pay1_apply _ _ p q).trans ?_
      rw [k0_pay11_apply]
      exact scr0_piece x1 x2 7 112 rfl _ _ p q
    · -- slice 6
      obtain ⟨p, q, rfl⟩ : ∃ (p : Fin 5000) (q : Fin 16), x = ix2 p q := ⟨x 0, x 1, eq_ix2 x⟩
      refine (k0_pay10_apply _ _ p q).trans ?_
      exact scr0_piece x1 x2 6 96 rfl _ _ p q
    · -- slice 5
      obtain ⟨p, q, rfl⟩ : ∃ (p : Fin 5000) (q : Fin 16), x = ix2 p q := ⟨x 0, x 1, eq_ix2 x⟩
      refine (k0_pay9_apply _ _ p q).trans ?_
      exact scr0_piece x1 x2 5 80 rfl _ _ p q
    · -- slice 4
      obtain ⟨p, q, rfl⟩ : ∃ (p : Fin 5000) (q : Fin 16), x = ix2 p q := ⟨x 0, x 1, eq_ix2 x⟩
      refine (k0_pay8_apply _ _ p q).trans ?_
      exact scr0_piece x1 x2 4 64 rfl _ _ p q
    · -- slice 3
      obtain ⟨p, q, rfl⟩ : ∃ (p : Fin 5000) (q : Fin 16), x = ix2 p q := ⟨x 0, x 1, eq_ix2 x⟩
      rw [k0_pay7_apply]
      refine (k0_pay6_apply _ _ p q).trans ?_
      exact scr0_piece x1 x2 3 48 rfl _ _ p q
    · -- slice 2
      obtain ⟨p, q, rfl⟩ : ∃ (p : Fin 5000) (q : Fin 16), x = ix2 p q := ⟨x 0, x 1, eq_ix2 x⟩
      refine (k0_pay5_apply _ _ p q).trans ?_
      exact scr0_piece x1 x2 2 32 rfl _ _ p q
    · -- slice 1
      obtain ⟨p, q, rfl⟩ : ∃ (p : Fin 5000) (q : Fin 16), x = ix2 p q := ⟨x 0, x 1, eq_ix2 x⟩
      refine (k0_pay4_apply _ _ p q).trans ?_
      exact scr0_piece x1 x2 1 16 rfl _ _ p q
    · -- slice 0
      obtain ⟨p, q, rfl⟩ : ∃ (p : Fin 5000) (q : Fin 16), x = ix2 p q := ⟨x 0, x 1, eq_ix2 x⟩
      refine (k0_pay3_apply _ _ p q).trans ?_
      exact scr0_piece x1 x2 0 0 rfl _ _ p q
  · exact View.cover_of_tiledL (s := S5000x128) _ ![5000, 16] (by sl_kernel_rfl) _
  · refine congrArg (scr0 x1 x2) (funext fun a => ?_)
    match a with
    | ⟨0, _⟩ => exact Fin.ext (show 0 + 1 * (j 0).val = (j 0).val by omega)
    | ⟨1, _⟩ => exact Fin.ext (show 0 + 1 * (j 1).val = (j 1).val by omega)

/-- Layer 1's output block is KSpec.lean's layer-1 formula of the six input blocks. -/
theorem out0_A_6_eq (c : Dev nD) (i : grid0.Coords) (arg1 : Memref sig .tc .vmem S5000x16 .f32) (harg1 : arg1.IsWhole) (arg2 : Memref sig .tc .vmem S5000x128 .f32) (harg2 : arg2.IsWhole) (arg3 : Memref sig .tc .vmem S5000x8 .f32) (harg3 : arg3.IsWhole) (arg4 : Memref sig .tc .vmem S16x32 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S5000x32 .f32) (harg7 : arg7.IsWhole) (arg8 : Memref sig .tc .vmem S5000x128 .f32) (harg8 : arg8.IsWhole)
    (x0 : Vec Ideal S5000x16 .f32) (x1 : Vec Ideal S5000x128 .f32) (x2 : Vec Ideal S5000x8 .f32) (x3 : Vec Ideal S16x32 .f32) (x4 : Vec Ideal S128x32 .f32) (x5 : Vec Ideal S1x32 .f32) :
    out0_A_6 (F := Ideal) c i arg1 harg1 arg2 harg2 arg3 harg3 arg4 harg4 arg5 harg5 arg6 harg6 arg7 harg7 arg8 harg8 x0 x1 x2 x3 x4 x5 = rowsL1 x0 x1 x2 x3 x4 x5 := by
  rw [out0_A_6_pay, scratch0_eq]
  funext j
  obtain ⟨p, o, rfl⟩ : ∃ (p : Fin 5000) (o : Fin 32), j = ix2 p o := ⟨j 0, j 1, eq_ix2 j⟩
  refine (k0_pay2_apply x0 x3 (scr0 x1 x2) x4 x5 p o).trans ?_
  rfl

end Cert.KernelIdeal.KV

end
-- ==== Proof.KBody1.lean ====
/-
  What one grid point of the second layer's region leaves in its output block, as a function of the six input blocks.

  The body first fills a scratch block column slice by column slice: slice r (32 columns) is the same slice of the
  messages block, every row scaled by column r of the inverse-count block. The eight slices are blocks of ONE function of
  the scratch index, (p, k) ↦ s[p, k] · inv[p, k / 32], so the scratch read back whole is that function. The output
  block is then the second layer's formula of KSpec.lean over the row block, the scratch, and the weights.
-/
import proofs.«416438_j26963804684494_2_alg».proof.Proof.Gen.KernelIdeal.Frame
import proofs.«416438_j26963804684494_2_alg».proof.Proof.KSpec
import proofs.«416438_j26963804684494_2_alg».proof.Proof.KPay
import Idealize.ShloMosaic.Lib.Pipeline.Value
import Idealize.ShloMosaic.Lib.ValueIdx

noncomputable section

namespace Cert.KernelIdeal.KV

open Cert.KernelIdeal Cert.KernelIdeal.Gen Idealize.ShloMosaic Idealize.ShloMosaic.ValueIdx
open Idealize.ShloMosaic.Tactic

/-- The zero offset of a whole block, as the constant function. -/
theorem hz2_1 : (![0, 0] : Fin 2 → Nat) = fun _ => 0 := funext fun a => by fin_cases a <;> rfl

section AnyF
variable {F : FTy → Type} [FloatOps F]

/-- The output block is the one store's payload over the loaded input blocks and the scratch read back whole. -/
theorem out1_A_6_pay (c : Dev nD) (i : grid1.Coords) (arg1 : Memref sig .tc .vmem S5000x32 .f32) (harg1 : arg1.IsWhole) (arg2 : Memref sig .tc .vmem S5000x256 .f32) (harg2 : arg2.IsWhole) (arg3 : Memref sig .tc .vmem S5000x8 .f32) (harg3 : arg3.IsWhole) (arg4 : Memref sig .tc .vmem S32x16 .f32) (harg4 : arg4.IsWhole) (arg5 : Memref sig .tc .vmem S256x16 .f32) (harg5 : arg5.IsWhole) (arg6 : Memref sig .tc .vmem S1x16 .f32) (harg6 : arg6.IsWhole) (arg7 : Memref sig .tc .vmem S5000x16 .f32) (harg7 : arg7.IsWhole) (arg8 : Memref sig .tc .vmem S5000x256 .f32) (harg8 : arg8.IsWhole)
    (x0 : Vec F S5000x32 .f32) (x1 : Vec F S5000x256 .f32) (x2 : Vec F S5000x8 .f32) (x3 : Vec F S32x16 .f32) (x4 : Vec F S256x16 .f32) (x5 : Vec F S1x16 .f32) :
    out1_A_6 (F := F) c i arg1 harg1 arg2 harg2 arg3 harg3 arg4 harg4 arg5 harg5 arg6 harg6 arg7 harg7 arg8 harg8 x0 x1 x2 x3 x4 x5
      = k1_pay2 x0 x3 (kernelRun1_A.sl.v77 c arg2 harg2 arg3 harg3 arg8 x1 x2) x4 x5 := by
  unfold out1_A_6
  rw [View.read_writes_eq_canon _ _ _ (cover1_A_6 c i arg1 harg1 arg2 harg2 arg3 harg3 arg4 harg4 arg5 harg5 arg6 harg6 arg7 harg7 arg8 harg8 x0 x1 x2 x3 x4 x5)]
  unfold kernelRun1_A
  dsimp only
  rw [View.canon_unit_zero hz2_1]
  simp only [View.readAt_eq_ld, harg1.read_unread, harg4.read_unread, harg5.read_unread, harg6.read_unread,
    View.ld_unit_zero (S := S5000x32) hz2_1, View.ld_unit_zero (S := S32x16) hz2_1, View.ld_unit_zero (S := S256x16) hz2_1,
    View.ld_unit_zero (S := S1x16) hz2_1]

end AnyF

/-- What the scratch block holds once its eight column slices are stored: column k of the messages block scaled, row by
    row, by the inverse count of column k's relation. -/
def scr1 (x1 : Vec Ideal S5000x256 .f32) (x2 : Vec Ideal S5000x8 .f32) : S5000x256.Idx → EReal :=
  fun y => x1 y * x2 (ix2 (y 0) (rel32 (y 1)))

/-- Slice r of the messages block times column r of the inverse counts, at (p, q) of the slice, is the scratch function at
    the scratch index under it, (p, 32 r + q). -/
theorem scr1_piece (x1 : Vec Ideal S5000x256 .f32) (x2 : Vec Ideal S5000x8 .f32) (r o : ℕ) (ho : o = 32 * r)
    (inb : ∀ a, (![0, o] : Fin 2 → ℕ) a + S5000x32.size a ≤ S5000x256.size a)
    (inb' : ∀ a, (![0, r] : Fin 2 → ℕ) a + S5000x1.size a ≤ S5000x8.size a) (p : Fin 5000) (q : Fin 32) :
    View.ld x1 (Rect.unit (s := S5000x256) ![0, o] S5000x32.size inb) (ix2 p q)
        * View.ld x2 (Rect.unit (s := S5000x8) ![0, r] S5000x1.size inb') (ix2 p (0 : Fin 1))
      = scr1 x1 x2 ((Rect.unit (s := S5000x256) ![0, o] S5000x32.size inb).emb (ix2 p q)) := by
  subst ho
  have hq : q.val < 32 := q.isLt
  show _ = x1 _ * x2 _
  refine congrArg (x1 ((Rect.unit (s := S5000x256) ![0, 32 * r] S5000x32.size inb).idx (ix2 p q)) * ·) (congrArg x2 ?_)
  funext a
  match a with
  | ⟨0, _⟩ => exact Fin.ext (show 0 + 1 * p.val = 0 + 1 * p.val from rfl)
  | ⟨1, _⟩ => exact Fin.ext (show r + 1 * 0 = (32 * r + 1 * q.val) / 32 by omega)

/-- The scratch block read back whole after its eight column-slice stores is that one function: each store's payload is
    the function's block under the store's rectangle, and the eight rectangles tile the block. -/
theorem scratch1_eq (c : Dev nD) (arg2 : Memref sig .tc .vmem S5000x256 .f32) (harg2 : arg2.IsWhole) (arg3 : Memref sig .tc .vmem S5000x8 .f32) (harg3 : arg3.IsWhole) (arg8 : Memref sig .tc .vmem S5000x256 .f32)
    (x1 : Vec Ideal S5000x256 .f32) (x2 : Vec Ideal S5000x8 .f32) :
    kernelRun1_A.sl.v77 (F := Ideal) c arg2 harg2 arg3 harg3 arg8 x1 x2 = scr1 x1 x2 := by
  sl_unfold_run_names
  rw [View.readCov_eq_canon']
  simp only [View.readAt_eq_ld, harg2.read_unread, harg3.read_unread]
  funext j
  refine (View.canon_apply_of_pieces (scr1 x1 x2) _ ?_ _ ?_).trans ?_
  · intro pc hpc x
    simp only [List.mem_cons, List.mem_nil_iff, or_false] at hpc
    rcases hpc with rfl | rfl | rfl | rfl | rfl | rfl | rfl | rfl
    · -- slice 7
      obtain ⟨p, q, rfl⟩ : ∃ (p : Fin 5000) (q : Fin 32), x = ix2 p q := ⟨x 0, x 1, eq_ix2 x⟩
      refine (k1_pay1_apply _ _ p q).trans ?_
      rw [k1_pay11_apply]
      exact scr1_piece x1 x2 7 224 rfl _ _ p q
    · -- slice 6
      obtain ⟨p, q, rfl⟩ : ∃ (p : Fin 5000) (q : Fin 32), x = ix2 p q := ⟨x 0, x 1, eq_ix2 x⟩
      refine (k1_pay10_apply _ _ p q).trans ?_
      exact scr1_piece x1 x2 6 192 rfl _ _ p q
    · -- slice 5
      obtain ⟨p, q, rfl⟩ : ∃ (p : Fin 5000) (q : Fin 32), x = ix2 p q := ⟨x 0, x 1, eq_ix2 x⟩
      refine (k1_pay9_apply _ _ p q).trans ?_
      exact scr1_piece x1 x2 5 160 rfl _ _ p q
    · -- slice 4
      obtain ⟨p, q, rfl⟩ : ∃ (p : Fin 5000) (q : Fin 32), x = ix2 p q := ⟨x 0, x 1, eq_ix2 x⟩
      refine (k1_pay8_apply _ _ p q).trans ?_
      exact scr1_piece x1 x2 4 128 rfl _ _ p q
    · -- slice 3
      obtain ⟨p, q, rfl⟩ : ∃ (p : Fin 5000) (q : Fin 32), x = ix2 p q := ⟨x 0, x 1, eq_ix2 x⟩
      rw [k1_pay7_apply]
      refine (k1_pay6_apply _ _ p q).trans ?_
      exact scr1_piece x1 x2 3 96 rfl _ _ p q
    · -- slice 2
      obtain ⟨p, q, rfl⟩ : ∃ (p : Fin 5000) (q : Fin 32), x = ix2 p q := ⟨x 0, x 1, eq_ix2 x⟩
      refine (k1_pay5_apply _ _ p q).trans ?_
      exact scr1_piece x1 x2 2 64 rfl _ _ p q
    · -- slice 1
      obtain ⟨p, q, rfl⟩ : ∃ (p : Fin 5000) (q : Fin 32), x = ix2 p q := ⟨x 0, x 1, eq_ix2 x⟩
      refine (k1_pay4_apply _ _ p q).trans ?_
      exact scr1_piece x1 x2 1 32 rfl _ _ p q
    · -- slice 0
      obtain ⟨p, q, rfl⟩ : ∃ (p : Fin 5000) (q : Fin 32), x = ix2 p q := ⟨x 0, x 1, eq_ix2 x⟩
      refine (k1_pay3_apply _ _ p q).trans ?_
      exact scr1_piece x1 x2 0 0 rfl _ _ p q
  · exact View.cover_of_tiledL (s := S5000x256) _ ![5000, 32] (by sl_kernel_rfl) _
  · refine congrArg (scr1 x1 x2) (funext fun a => ?_)
    match a with
    | ⟨0, _⟩ => exact Fin.ext (show 0 + 1 * (j 0).val = (j 0).val by omega)
    | ⟨1, _⟩ => exact Fin.ext (show 0 + 1 * (j 1).val = (j 1).val by omega)

/-- The second layer's output block is KSpec.lean's layer-2 formula of the six input blocks. -/
theorem out1_A_6_eq (c : Dev nD) (i : grid1.Coords) (arg1 : Memref sig .tc .vmem S5000x32 .f32) (harg1 : arg1.IsWhole) (arg2 : Memref sig .tc .vmem S5000x256 .f32) (harg2 : arg2.IsWhole) (arg3 : Memref sig .tc .vmem S5000x8 .f32) (harg3 : arg3.IsWhole) (arg4 : Memref sig .tc .vmem S32x16 .f32) (harg4 : arg4.IsWhole) (arg5 : Memref sig .tc .vmem S256x16 .f32) (harg5 : arg5.IsWhole) (arg6 : Memref sig .tc .vmem S1x16 .f32) (harg6 : arg6.IsWhole) (arg7 : Memref sig .tc .vmem S5000x16 .f32) (harg7 : arg7.IsWhole) (arg8 : Memref sig .tc .vmem S5000x256 .f32) (harg8 : arg8.IsWhole)
    (x0 : Vec Ideal S5000x32 .f32) (x1 : Vec Ideal S5000x256 .f32) (x2 : Vec Ideal S5000x8 .f32) (x3 : Vec Ideal S32x16 .f32) (x4 : Vec Ideal S256x16 .f32) (x5 : Vec Ideal S1x16 .f32) :
    out1_A_6 (F := Ideal) c i arg1 harg1 arg2 harg2 arg3 harg3 arg4 harg4 arg5 harg5 arg6 harg6 arg7 harg7 arg8 harg8 x0 x1 x2 x3 x4 x5 = rowsL2 x0 x1 x2 x3 x4 x5 := by
  rw [out1_A_6_pay, scratch1_eq]
  funext j
  obtain ⟨p, o, rfl⟩ : ∃ (p : Fin 5000) (o : Fin 16), j = ix2 p o := ⟨j 0, j 1, eq_ix2 j⟩
  refine (k1_pay2_apply x0 x3 (scr1 x1 x2) x4 x5 p o).trans ?_
  rfl

end Cert.KernelIdeal.KV
-- ==== Proof.Spec.lean ====
/-
  The relational graph convolution that both programs compute, stated once over plain finite index types.

  A graph has edges `e` with a destination `dst e`, a relation type `ty e` (both integers) and a gathered source row
  `xs e : Fin D → EReal`. For a node `n` and a relation `r`, `hits` is the set of edges that end at `n` with type `r`;
  `cnt` is their number clamped below at one; `mean` is the sum of their source rows divided by `cnt` (zero when there
  are none); `layer` is one convolution before its activation:
      x_n · root + b + Σ_r mean_r(n) · W_r .
  The kernel buckets the edges ONCE by the key `8·dst + ty` and multiplies each bucket's sum by a reciprocal count;
  the reference makes, per relation, a masked sum over all edges ending at the node and divides it by a masked count.
  `kernel_form` and `reference_form` bring the two arrangements to `layer`. Neither needs a finite input: on the
  extended reals `x·0 = 0`, `x·1 = x`, a quotient by a real `c ≥ 1` is the product with `1/c`, and a finite sum may be
  regrouped freely.
-/
import Idealize.ShloMosaic.PureOps.Ideal
import Mathlib.Algebra.BigOperators.Fin

noncomputable section

namespace Cert.Rgcn

open Idealize.ShloMosaic

variable {ε : Type} [Fintype ε] {D O : ℕ}

/-- The edges that end at node `n` and carry relation type `r`. -/
def hits (dst ty : ε → ℤ) (n r : ℤ) : Finset ε := Finset.univ.filter fun e => dst e = n ∧ ty e = r

/-- How many such edges there are, clamped below at one: the divisor of the mean, a real number at least one. -/
def cnt (dst ty : ε → ℤ) (n r : ℤ) : ℝ := max ((hits dst ty n r).card : ℝ) 1

/-- Feature `d` of the mean source row over relation `r`'s edges into node `n`. -/
def mean (xs : ε → Fin D → EReal) (dst ty : ε → ℤ) (n r : ℤ) (d : Fin D) : EReal :=
  (∑ e ∈ hits dst ty n r, xs e d) * ((1 / cnt dst ty n r : ℝ) : EReal)

/-- One layer before its activation, at node `n` (own feature row `xn`) and output feature `o`. -/
def layer (xn : Fin D → EReal) (xs : ε → Fin D → EReal) (dst ty : ε → ℤ) (root : Fin D → Fin O → EReal)
    (W : Fin 8 → Fin D → Fin O → EReal) (b : Fin O → EReal) (n : ℤ) (o : Fin O) : EReal :=
  (∑ d, xn d * root d o + b o) + ∑ r : Fin 8, ∑ d, mean xs dst ty n (r.val : ℤ) d * W r d o

/-- A sum of ones over a finite set is the number of its elements, as a real number. -/
theorem sum_ones (s : Finset ε) : (∑ _e ∈ s, (1 : EReal)) = ((s.card : ℝ) : EReal) := by
  simp

/-- The clamped count is at least one, so it is not zero. -/
theorem cnt_ne_zero (dst ty : ε → ℤ) (n r : ℤ) : cnt dst ty n r ≠ 0 := by
  have h : (1 : ℝ) ≤ cnt dst ty n r := le_max_right _ _
  exact ne_of_gt (lt_of_lt_of_le one_pos h)

/-- The larger of the edge count (a zero start plus a one per edge) and one is the real number `cnt`. -/
theorem max_count (dst ty : ε → ℤ) (n r : ℤ) :
    max (0 + ∑ _e ∈ hits dst ty n r, (1 : EReal)) 1 = ((cnt dst ty n r : ℝ) : EReal) := by
  rw [zero_add, sum_ones, cnt, EReal.coe_strictMono.monotone.map_max, EReal.coe_one]

/-- One over that clamped count is the real number `1 / cnt`. -/
theorem inv_count (dst ty : ε → ℤ) (n r : ℤ) :
    Ideal.div 1 (max (0 + ∑ _e ∈ hits dst ty n r, (1 : EReal)) 1) = ((1 / cnt dst ty n r : ℝ) : EReal) := by
  rw [max_count, Ideal.div_coe (cnt_ne_zero dst ty n r), one_mul]

/-- A masked sum over the edges ending at `n` is the plain sum over the edges ending at `n` with type `r`:
    a masked-out term is `x · 0 = 0`, a kept one is `x · 1 = x`. -/
theorem masked_sum (f : ε → EReal) (dst ty : ε → ℤ) (n r : ℤ) (m : ε → EReal)
    (hm : ∀ e, m e = if ty e = r then 1 else 0) :
    ∑ e ∈ Finset.univ.filter (fun e => dst e = n), f e * m e = ∑ e ∈ hits dst ty n r, f e := by
  rw [hits, ← Finset.filter_filter, Finset.sum_filter (p := fun e => ty e = r)]
  refine Finset.sum_congr rfl fun e _ => ?_
  rw [hm e]
  split_ifs
  · rw [mul_one]
  · rw [mul_zero]

/-- The masked count is the number of edges ending at `n` with type `r`, as a sum of ones. -/
theorem masked_count (dst ty : ε → ℤ) (n r : ℤ) (m : ε → EReal)
    (hm : ∀ e, m e = if ty e = r then 1 else 0) :
    ∑ e ∈ Finset.univ.filter (fun e => dst e = n), m e = ∑ _e ∈ hits dst ty n r, (1 : EReal) := by
  rw [← masked_sum (fun _ => 1) dst ty n r m hm]
  refine Finset.sum_congr rfl fun e _ => ?_
  rw [one_mul]

/-- The kernel's arrangement: bucket sums `sf r d` (a zero start plus the bucket's rows), reciprocal clamped counts
    `inv r` (one over the larger of the bucket's count and one, the count itself a zero start plus a one per edge),
    one contraction over relation and feature together, the bias added last. -/
theorem kernel_form (xn : Fin D → EReal) (xs : ε → Fin D → EReal) (dst ty : ε → ℤ) (root : Fin D → Fin O → EReal)
    (W : Fin 8 → Fin D → Fin O → EReal) (b : Fin O → EReal) (n : ℤ) (o : Fin O)
    (sf : Fin 8 → Fin D → EReal) (inv : Fin 8 → EReal)
    (hsf : ∀ r d, sf r d = 0 + ∑ e ∈ hits dst ty n (r.val : ℤ), xs e d)
    (hinv : ∀ r, inv r = Ideal.div 1 (max (0 + ∑ _e ∈ hits dst ty n (r.val : ℤ), (1 : EReal)) 1)) :
    (∑ d, xn d * root d o + ∑ r : Fin 8, ∑ d, (sf r d * inv r) * W r d o) + b o
      = layer xn xs dst ty root W b n o := by
  have h : ∀ r d, sf r d * inv r = mean xs dst ty n (r.val : ℤ) d := by
    intro r d
    rw [hsf, hinv, inv_count, zero_add, mean]
  simp only [h]
  rw [layer, add_right_comm]

/-- The reference's arrangement: per relation a masked sum over the edges ending at the node, divided by the masked
    count clamped at one, contracted with that relation's weights; the eight terms added one after the other onto
    `x_n · root + b`. The mask of relation `r` is one on an edge of type `r` and zero elsewhere. -/
theorem reference_form (xn : Fin D → EReal) (xs : ε → Fin D → EReal) (dst ty : ε → ℤ) (root : Fin D → Fin O → EReal)
    (W : Fin 8 → Fin D → Fin O → EReal) (b : Fin O → EReal) (n : ℤ) (o : Fin O)
    (mask : Fin 8 → ε → EReal) (T : Fin 8 → EReal)
    (hmask : ∀ r e, mask r e = if ty e = (r.val : ℤ) then 1 else 0)
    (hT : ∀ r, T r = ∑ d, Ideal.div (0 + ∑ e ∈ Finset.univ.filter (fun e => dst e = n), xs e d * mask r e)
        (max 1 (0 + ∑ e ∈ Finset.univ.filter (fun e => dst e = n), mask r e)) * W r d o) :
    ((((((((∑ d, xn d * root d o + b o) + T 0) + T 1) + T 2) + T 3) + T 4) + T 5) + T 6) + T 7
      = layer xn xs dst ty root W b n o := by
  have h : ∀ r, T r = ∑ d, mean xs dst ty n (r.val : ℤ) d * W r d o := by
    intro r
    rw [hT r]
    refine Finset.sum_congr rfl fun d _ => ?_
    rw [masked_sum (fun e => xs e d) dst ty n (r.val : ℤ) (mask r) (hmask r),
      masked_count dst ty n (r.val : ℤ) (mask r) (hmask r), max_comm, max_count,
      Ideal.div_coe (cnt_ne_zero dst ty n (r.val : ℤ)), zero_add, mean]
  rw [layer, Fin.sum_univ_eight, h 0, h 1, h 2, h 3, h 4, h 5, h 6, h 7]
  simp only [add_assoc]

end Cert.Rgcn

end
-- ==== Proof.PreKey.lean ====
/-
  The two integer conjuncts of the precondition, decoded: every destination (row 1 of the edge array) lies in
  [0, 100000) and every relation type in [0, 8); and the arithmetic of the sort key dst * 8 + ty on 32-bit words,
  which does not wrap on that range (8 * 99999 + 7 < 2 ^ 31), so a key determines its destination and its type.
-/
import proofs.«416438_j26963804684494_2_alg».proof.Pre_finite_inputs
import Idealize.ShloMosaic.Lib.StableHlo.Predicate
import Idealize.ShloMosaic.Lib.ReduceAll
import Idealize.ShloMosaic.Lib.ValueIdx
import Idealize.ShloMosaic.Lib.ValueLayout

noncomputable section

namespace Cert.Rgcn.Pre

open Cert.Pre_finite_inputs Idealize.ShloMosaic Idealize.ShloMosaic.ValueIdx

/-- what the two integer conjuncts say -/
structure Ranges (a1 : IVec S2x3200000 32) (a2 : IVec S3200000 32) : Prop where
  dst : ∀ e : Fin 3200000, 0 ≤ (a1 (ix2 (1 : Fin 2) e)).toInt ∧ (a1 (ix2 (1 : Fin 2) e)).toInt < 100000
  ty : ∀ e : Fin 3200000, 0 ≤ (a2 (ix1 e)).toInt ∧ (a2 (ix1 e)).toInt < 8

/-- The scalar shape has one index. -/
instance : Subsingleton S_.Idx := ⟨fun a b => funext fun d => d.elim0⟩

/-- Row 1 of the [2, n] array, sliced out as a [1, n] array and reshaped to [n], reads at `e` the array at `(1, e)`. -/
theorem row1_apply (a1 : IVec S2x3200000 32) (h1 : S2x3200000.Slices ![1, 0] S1x3200000)
    (h2 : S1x3200000.ShapeCasts S3200000) (e : Fin 3200000) :
    shapeCast S3200000 (extractStridedSlice S1x3200000 ![1, 0] a1 h1) h2 (ix1 e) = a1 (ix2 (1 : Fin 2) e) := by
  rw [shapeCast_1a_a_apply]
  exact extractStridedSlice_apply _ _ _ _ _ (fun a => match a with
    | ⟨0, _⟩ => rfl
    | ⟨1, _⟩ => by show e.val = 0 + e.val; omega)

section Decode

variable {F : FTy → Type} [FloatOps F] [Cert.Pre_finite_inputs.Facts]

theorem ranges_of_part2 (a1 : IVec S2x3200000 32) (a2 : IVec S3200000 32) (v33 : IVec S_ 1)
    (h : fn_part2 (F := F) a1 a2 v33 = fun _ => 1#1) : Ranges a1 a2 := by
  have e := congrFun h ix0
  unfold fn_part2 at e
  dsimp only at e
  -- the outermost two conjuncts: the destinations' `jnp.all`, then the types'
  obtain ⟨e1, ety⟩ := IntOp.andi_eq_one.1 e
  obtain ⟨-, edst⟩ := IntOp.andi_eq_one.1 e1
  have z0 : (0#32 : BitVec 32).toInt = 0 := by decide
  have zN : (100000#32 : BitVec 32).toInt = 100000 := by decide
  have z8 : (8#32 : BitVec 32).toInt = 8 := by decide
  refine ⟨fun k => ?_, fun k => ?_⟩
  · obtain ⟨hge, hlt⟩ := IntOp.andi_eq_one.1 (Host.reduce_andi_all _ _ _ _ _ edst (ix1 k))
    have hge' := IntOp.cmpi_sge.1 hge
    have hlt' := IntOp.cmpi_slt.1 hlt
    rw [row1_apply] at hge' hlt'
    exact ⟨z0 ▸ hge', zN ▸ hlt'⟩
  · obtain ⟨hge, hlt⟩ := IntOp.andi_eq_one.1 (Host.reduce_andi_all _ _ _ _ _ ety (ix1 k))
    have hge' := IntOp.cmpi_sge.1 hge
    have hlt' := IntOp.cmpi_slt.1 hlt
    exact ⟨z0 ▸ hge', z8 ▸ hlt'⟩

theorem ranges_of_pre (a0 : FVec F S100000x16 .f32) (a1 : IVec S2x3200000 32) (a2 : IVec S3200000 32)
    (a3 : FVec F S8x16x32 .f32) (a4 : FVec F S16x32 .f32) (a5 : FVec F S32 .f32) (a6 : FVec F S8x32x16 .f32)
    (a7 : FVec F S32x16 .f32) (a8 : FVec F S16 .f32)
    (h : fn (F := F) a0 a1 a2 a3 a4 a5 a6 a7 a8 = fun _ => 1#1) : Ranges a1 a2 := by
  -- the printed function is its first part, which is its second: the same chain of operations
  unfold fn at h
  dsimp only at h
  unfold fn_part1 at h
  dsimp only at h
  exact ranges_of_part2 (F := F) a1 a2 _ h

end Decode

/-! ## The key dst * 8 + ty on 32-bit words -/

/-- On the range the key does not wrap: its signed value is 8 * dst + ty. -/
theorem key_toInt (d t : BitVec 32) (hd : 0 ≤ d.toInt ∧ d.toInt < 100000) (ht : 0 ≤ t.toInt ∧ t.toInt < 8) :
    (d * 8#32 + t).toInt = 8 * d.toInt + t.toInt := by
  have h8 : (8#32 : BitVec 32).toInt = 8 := by decide
  have hm : (d * 8#32).toInt = 8 * d.toInt := by
    rw [BitVec.toInt_mul, h8, Int.bmod_eq_of_le_mul_two (by omega) (by omega)]
    omega
  rw [BitVec.toInt_add, hm, Int.bmod_eq_of_le_mul_two (by omega) (by omega)]

/-- A key is 8 n + r, with n a destination and r a type, exactly when its destination is n and its type r. -/
theorem key_eq_iff (d t : BitVec 32) (hd : 0 ≤ d.toInt ∧ d.toInt < 100000) (ht : 0 ≤ t.toInt ∧ t.toInt < 8)
    (n r : ℕ) (hn : n < 100000) (hr : r < 8) :
    (d * 8#32 + t).toInt = ((8 * n + r : ℕ) : ℤ) ↔ d.toInt = (n : ℤ) ∧ t.toInt = (r : ℤ) := by
  rw [key_toInt d t hd ht]
  constructor
  · intro h; constructor <;> omega
  · rintro ⟨h1, h2⟩; omega

/-- The product of two integer arrays, read at an index, is the product of the entries. -/
theorem muli_apply {s : Shape} {w : ℕ} (x y : IVec s w) (i : s.Idx) : muli x y i = x i * y i := rfl

/-- The sum of two integer arrays, read at an index, is the sum of the entries. -/
theorem addi_apply {s : Shape} {w : ℕ} (x y : IVec s w) (i : s.Idx) : addi x y i = x i + y i := rfl

end Cert.Rgcn.Pre

end
-- ==== Proof.LibScatterAdd.lean ====
/-
  A float scatter with an "add" body, READ AT AN INDEX, for the two shapes a segment sum takes.

  A segment sum of E update rows (or E update numbers) into N segments is a scatter whose indices are an [E × 1] column:
  update row e is added into operand row idx e, the index read as a SIGNED integer and not clamped, and an update whose
  index is not a row of the operand is dropped. So entry (n, c) of the result is the operand's entry plus the sum, over
  the updates e whose index is n, of entry c of update row e. The file proves this for a table of rows and for a vector,
  at any extents, from the four lists of the scatter's dimension numbers; and that a finite sum of ones in the extended
  reals is the number of terms.
-/
import Idealize.ShloMosaic.Lib.ValueIdx

noncomputable section

open scoped BigOperators

namespace Cert.Lib

open Idealize.ShloMosaic Idealize.ShloMosaic.ValueIdx

/-- A finite sum of ones in the extended reals is the number of terms, as a real number. -/
theorem sum_one_eq_card {ι : Type*} (s : Finset ι) : ∑ _e ∈ s, (1 : EReal) = ((s.card : ℝ) : EReal) := by
  classical
  induction s using Finset.induction_on with
  | empty => simp
  | insert a s ha ih =>
    rw [Finset.sum_insert ha, ih, Finset.card_insert_of_notMem ha, Nat.cast_add, Nat.cast_one, EReal.coe_add, EReal.coe_one,
      add_comm]

/-- An update index lands at operand index i exactly when, on every operand axis, the window's start plus the window
    coordinate is i's coordinate: the start is not clamped, and a landing place outside the operand is no index. -/
theorem resultIdx?_eq_some_iff {s si u : Shape} (d : ScatterDims s si u) {w : ℕ} (j : u.Idx) (idx : IVec si w) (i : s.Idx) :
    d.resultIdx? j idx = some i ↔ ∀ a, d.start j idx a + (d.window j a : ℤ) = ((i a).val : ℤ) := by
  unfold ScatterDims.resultIdx?
  split_ifs with h
  · constructor
    · intro he a
      have he' := Option.some.inj he
      subst he'
      simp only [Int.toNat_of_nonneg (h a).1]
    · intro hh
      congr 1
      funext a
      apply Fin.ext
      simp only [hh a, Int.toNat_natCast]
  · constructor
    · intro he; cases he
    · intro hh
      exfalso
      apply h
      intro a
      rw [hh a]
      exact ⟨Int.natCast_nonneg _, by exact_mod_cast (i a).isLt⟩

/-- ROWS OF A TABLE. A scatter-add of E update rows of width C into an [N × C] table, the indices an [E × 1] column: the
    updates' axis 1 is the window axis, the operand's axis 0 is inserted, and the one component of an index goes to operand
    axis 0 (`huw` … `hivd`: the four lists of the dimension numbers, each `rfl` at a record that spells them out). Entry
    (n, c) of the result is the operand's entry plus the sum of entry c of the update rows e whose index, read SIGNED, is
    n. An index that is negative or at least N is no row of the table: that update row is in no entry's sum. -/
theorem hostScatterAdd_rows_apply {N E C w : ℕ} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hivd : d.indexVectorDim = 1)
    (x : (⟨2, ![N, C]⟩ : Shape).Idx → EReal) (idx : IVec ⟨2, ![E, 1]⟩ w) (upd : (⟨2, ![E, C]⟩ : Shape).Idx → EReal)
    (n : Fin N) (c : Fin C) :
    Ideal.hostScatterAdd d x idx upd (ix2 n c)
      = x (ix2 n c) + ∑ e ∈ Finset.univ.filter (fun e : Fin E => (idx (ix2 e (0 : Fin 1))).toInt = (n.val : ℤ)), upd (ix2 e c) := by
  obtain ⟨uw, iw, sd, ivd, wf⟩ := d
  simp only at huw hiw hsd hivd
  subst huw hiw hsd hivd
  have key : ∀ (e : Fin E) (b : Fin C),
      (ScatterDims.mk [1] [0] [0] 1 wf : ScatterDims ⟨2, ![N, C]⟩ ⟨2, ![E, 1]⟩ ⟨2, ![E, C]⟩).resultIdx? (ix2 e b) idx = some (ix2 n c)
        ↔ (idx (ix2 e (0 : Fin 1))).toInt = (n.val : ℤ) ∧ b = c := by
    intro e b
    rw [resultIdx?_eq_some_iff, Fin.forall_fin_two]
    have hs1 : (ScatterDims.mk [1] [0] [0] 1 wf : ScatterDims ⟨2, ![N, C]⟩ ⟨2, ![E, 1]⟩ ⟨2, ![E, C]⟩).start (ix2 e b) idx 1 = 0 := rfl
    have hw0 : (ScatterDims.mk [1] [0] [0] 1 wf : ScatterDims ⟨2, ![N, C]⟩ ⟨2, ![E, 1]⟩ ⟨2, ![E, C]⟩).window (ix2 e b) 0 = 0 := rfl
    have hw1 : (ScatterDims.mk [1] [0] [0] 1 wf : ScatterDims ⟨2, ![N, C]⟩ ⟨2, ![E, 1]⟩ ⟨2, ![E, C]⟩).window (ix2 e b) 1 = b.val := rfl
    have hs0 : (ScatterDims.mk [1] [0] [0] 1 wf : ScatterDims ⟨2, ![N, C]⟩ ⟨2, ![E, 1]⟩ ⟨2, ![E, C]⟩).start (ix2 e b) idx 0
        = (idx (ix2 e (0 : Fin 1))).toInt := by
      have : (ScatterDims.mk [1] [0] [0] 1 wf : ScatterDims ⟨2, ![N, C]⟩ ⟨2, ![E, 1]⟩ ⟨2, ![E, C]⟩).siIdx (ix2 e b) ⟨0, Nat.zero_lt_one⟩
          = ix2 e (0 : Fin 1) := by
        funext a
        match a with
        | ⟨0, _⟩ => rfl
        | ⟨1, _⟩ => rfl
      exact congrArg (fun q => (idx q).toInt) this
    rw [hs0, hs1, hw0, hw1]
    change (idx (ix2 e (0 : Fin 1))).toInt + ((0 : ℕ) : ℤ) = (n.val : ℤ) ∧ 0 + (b.val : ℤ) = (c.val : ℤ) ↔ _
    rw [Fin.ext_iff]
    omega
  unfold Ideal.hostScatterAdd
  congr 1
  rw [Finset.sum_filter, sum_idx2, Finset.sum_filter]
  refine Finset.sum_congr rfl fun e _ => ?_
  simp only [key]
  by_cases hP : (idx (ix2 e (0 : Fin 1))).toInt = (n.val : ℤ)
  · simp only [hP, true_and, if_true, Finset.sum_ite_eq', Finset.mem_univ]
  · simp only [hP, false_and, if_false, Finset.sum_const_zero]

/-- A rank-1 index set is its one coordinate's range … -/
def idxEquiv1 {n : ℕ} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-- A VECTOR. A scatter-add of E update numbers into a vector of length N, the indices an [E × 1] column: the updates
    have no window axis, the operand's one axis is inserted, and the one component of an index goes to it (`huw` …
    `hivd`: the four lists of the dimension numbers, each `rfl` at a record that spells them out). Entry n of the result
    is the operand's entry plus the sum of the updates e whose index, read SIGNED, is n. An index that is negative or at
    least N is no position of the vector: that update is in no entry's sum. -/
theorem hostScatterAdd_vec_apply {N E w : ℕ} (d : ScatterDims ⟨1, ![N]⟩ ⟨2, ![E, 1]⟩ ⟨1, ![E]⟩)
    (huw : d.updateWindowDims = []) (hiw : d.insertedWindowDims = [0]) (hsd : d.scatterDimsToOperandDims = [0])
    (hivd : d.indexVectorDim = 1)
    (x : (⟨1, ![N]⟩ : Shape).Idx → EReal) (idx : IVec ⟨2, ![E, 1]⟩ w) (upd : (⟨1, ![E]⟩ : Shape).Idx → EReal) (n : Fin N) :
    Ideal.hostScatterAdd d x idx upd (ix1 n)
      = x (ix1 n) + ∑ e ∈ Finset.univ.filter (fun e : Fin E => (idx (ix2 e (0 : Fin 1))).toInt = (n.val : ℤ)), upd (ix1 e) := by
  obtain ⟨uw, iw, sd, ivd, wf⟩ := d
  simp only at huw hiw hsd hivd
  subst huw hiw hsd hivd
  have key : ∀ e : Fin E,
      (ScatterDims.mk [] [0] [0] 1 wf : ScatterDims ⟨1, ![N]⟩ ⟨2, ![E, 1]⟩ ⟨1, ![E]⟩).resultIdx? (ix1 e) idx = some (ix1 n)
        ↔ (idx (ix2 e (0 : Fin 1))).toInt = (n.val : ℤ) := by
    intro e
    rw [resultIdx?_eq_some_iff, Fin.forall_fin_one]
    have hw0 : (ScatterDims.mk [] [0] [0] 1 wf : ScatterDims ⟨1, ![N]⟩ ⟨2, ![E, 1]⟩ ⟨1, ![E]⟩).window (ix1 e) 0 = 0 := rfl
    have hs0 : (ScatterDims.mk [] [0] [0] 1 wf : ScatterDims ⟨1, ![N]⟩ ⟨2, ![E, 1]⟩ ⟨1, ![E]⟩).start (ix1 e) idx 0
        = (idx (ix2 e (0 : Fin 1))).toInt := by
      have : (ScatterDims.mk [] [0] [0] 1 wf : ScatterDims ⟨1, ![N]⟩ ⟨2, ![E, 1]⟩ ⟨1, ![E]⟩).siIdx (ix1 e) ⟨0, Nat.zero_lt_one⟩
          = ix2 e (0 : Fin 1) := by
        funext a
        match a with
        | ⟨0, _⟩ => rfl
        | ⟨1, _⟩ => rfl
      exact congrArg (fun q => (idx q).toInt) this
    rw [hs0, hw0]
    change (idx (ix2 e (0 : Fin 1))).toInt + ((0 : ℕ) : ℤ) = (n.val : ℤ) ↔ _
    omega
  unfold Ideal.hostScatterAdd
  congr 1
  rw [Finset.sum_filter, sum_idx1, Finset.sum_filter]
  refine Finset.sum_congr rfl fun e _ => ?_
  simp only [key]

end Cert.Lib
-- ==== Proof.KRead.lean ====
/-
  The arrays the two regions read, READ AT AN INDEX.

  Before each region the program prepares, from the edge array (row 0 sources, row 1 destinations) and the relation
  types, the key 8·dst + ty of every edge, and from it three arrays: the number of edges of each key, turned into
  1 / max(count, 1) and laid out as [node, relation]; the sum of the gathered source rows of each key, laid out as
  [node, relation·feature]; and the weights and the bias, flattened. Each of these is a chain of layout operations
  around a segment sum. Read at an index given by its coordinates, a reshape [8·N, D] → [N, 8·D] sends (n, D·r + d) to
  (8·n + r, d); the segment sum at bucket 8·n + r adds the updates of the edges whose key is 8·n + r; and on the
  precondition's ranges (0 ≤ dst < 100000, 0 ≤ ty < 8) the key of an edge is 8·n + r exactly when the edge ends at n
  with type r. So bucket (n, r) holds a zero start plus the terms of exactly the edges in hits dst ty n r.
-/
import proofs.«416438_j26963804684494_2_alg».proof.KernelIdeal
import proofs.«416438_j26963804684494_2_alg».proof.Proof.KDefs
import proofs.«416438_j26963804684494_2_alg».proof.Proof.Spec
import proofs.«416438_j26963804684494_2_alg».proof.Proof.PreKey
import proofs.«416438_j26963804684494_2_alg».proof.Proof.LibScatterAdd
import Idealize.ShloMosaic.Lib.ValueIdx
import Idealize.ShloMosaic.Lib.Pipeline.Value
import Idealize.ShloMosaic.Lib.ValueLayout
import Idealize.ShloMosaic.Lib.StableHlo.Predicate
import Idealize.ShloMosaic.Lib.IdealHost

noncomputable section

namespace Cert.KernelIdeal.KV

open Cert.KernelIdeal Cert.KernelIdeal.Gen Cert.Rgcn Idealize.ShloMosaic Idealize.ShloMosaic.ValueIdx

/-! ## Reshapes read at an index -/

section Layout
variable {α : Type}

/-- [800000, 16] as [100000, 128]: entry (n, 16·r + d) is the operand's entry (8·n + r, d). -/
theorem cast_rows16_apply (x : S800000x16.Idx → α) (h : S800000x16.ShapeCasts S100000x128)
    (n : Fin 100000) (r : Fin 8) (d : Fin 16) :
    shapeCast S100000x128 x h (ix2 n ⟨16 * r.val + d.val, by omega⟩) = x (ix2 ⟨8 * n.val + r.val, by omega⟩ d) :=
  shapeCast_apply x h _ _ (by
    rw [Shape.rowMajor_val_two, Shape.rowMajor_val_two]
    show (8 * n.val + r.val) * 16 + d.val = n.val * 128 + (16 * r.val + d.val)
    omega)

/-- [800000, 32] as [100000, 256]: entry (n, 32·r + d) is the operand's entry (8·n + r, d). -/
theorem cast_rows32_apply (x : S800000x32.Idx → α) (h : S800000x32.ShapeCasts S100000x256)
    (n : Fin 100000) (r : Fin 8) (d : Fin 32) :
    shapeCast S100000x256 x h (ix2 n ⟨32 * r.val + d.val, by omega⟩) = x (ix2 ⟨8 * n.val + r.val, by omega⟩ d) :=
  shapeCast_apply x h _ _ (by
    rw [Shape.rowMajor_val_two, Shape.rowMajor_val_two]
    show (8 * n.val + r.val) * 32 + d.val = n.val * 256 + (32 * r.val + d.val)
    omega)

/-- [800000] as [100000, 8]: entry (n, r) is the operand's entry 8·n + r. -/
theorem cast_vec8_apply (x : S800000.Idx → α) (h : S800000.ShapeCasts S100000x8) (n : Fin 100000) (r : Fin 8) :
    shapeCast S100000x8 x h (ix2 n r) = x (ix1 ⟨8 * n.val + r.val, by omega⟩) :=
  shapeCast_apply x h _ _ (by
    rw [Shape.rowMajor_val_one, Shape.rowMajor_val_two]
    show 8 * n.val + r.val = n.val * 8 + r.val
    omega)

/-- [8, 16, 32] as [128, 32]: entry (16·r + d, o) is the operand's entry (r, d, o). -/
theorem cast_w1_apply (x : S8x16x32.Idx → α) (h : S8x16x32.ShapeCasts S128x32) (r : Fin 8) (d : Fin 16) (o : Fin 32) :
    shapeCast S128x32 x h (ix2 ⟨16 * r.val + d.val, by omega⟩ o) = x (ix3 r d o) :=
  shapeCast_apply x h _ _ (by
    rw [Shape.rowMajor_val_three, Shape.rowMajor_val_two]
    show (r.val * 16 + d.val) * 32 + o.val = (16 * r.val + d.val) * 32 + o.val
    omega)

/-- [8, 32, 16] as [256, 16]: entry (32·r + d, o) is the operand's entry (r, d, o). -/
theorem cast_w2_apply (x : S8x32x16.Idx → α) (h : S8x32x16.ShapeCasts S256x16) (r : Fin 8) (d : Fin 32) (o : Fin 16) :
    shapeCast S256x16 x h (ix2 ⟨32 * r.val + d.val, by omega⟩ o) = x (ix3 r d o) :=
  shapeCast_apply x h _ _ (by
    rw [Shape.rowMajor_val_three, Shape.rowMajor_val_two]
    show (r.val * 32 + d.val) * 16 + o.val = (32 * r.val + d.val) * 16 + o.val
    omega)

/-- A vector as an [E × 1] column: entry (e, 0) is the vector's entry e. -/
theorem col_apply (x : S3200000.Idx → α) (h : S3200000.BroadcastsInDim S3200000x1 (![0] : Fin 1 → Fin S3200000x1.rank))
    (e : Fin 3200000) : broadcastInDim S3200000x1 ![0] h x (ix2 e (0 : Fin 1)) = x (ix1 e) :=
  broadcastInDim_apply _ h x _ _ (fun a => match a with
    | ⟨0, _⟩ => by
      have h1 : ¬ S3200000.size ⟨0, Nat.zero_lt_one⟩ = 1 := by decide
      rw [if_neg h1]
      rfl)

end Layout

/-! ## The flattened weights and biases -/

theorem w1_apply (a3 : FVec Ideal S8x16x32 .f32) (r : Fin 8) (d : Fin 16) (o : Fin 32) :
    shapeCast S128x32 a3 shapeCasts_S8x16x32_S128x32 (ix2 ⟨16 * r.val + d.val, by omega⟩ o) = a3 (ix3 r d o) :=
  cast_w1_apply a3 _ r d o

theorem w2_apply (a6 : FVec Ideal S8x32x16 .f32) (r : Fin 8) (d : Fin 32) (o : Fin 16) :
    shapeCast S256x16 a6 shapeCasts_S8x32x16_S256x16 (ix2 ⟨32 * r.val + d.val, by omega⟩ o) = a6 (ix3 r d o) :=
  cast_w2_apply a6 _ r d o

theorem b1_apply (a5 : FVec Ideal S32 .f32) (o : Fin 32) :
    shapeCast S1x32 a5 shapeCasts_S32_S1x32 (ix2 (0 : Fin 1) o) = a5 (ix1 o) :=
  shapeCast_a_1a_apply a5 _ 0 o

theorem b2_apply (a8 : FVec Ideal S16 .f32) (o : Fin 16) :
    shapeCast S1x16 a8 shapeCasts_S16_S1x16 (ix2 (0 : Fin 1) o) = a8 (ix1 o) :=
  shapeCast_a_1a_apply a8 _ 0 o

/-! ## The host's segment sum at the ideal values -/

/-- At the ideal values the host's scatter with an add body is the exact sum (any shapes, any operands). -/
theorem hostScatterAdd_eq {s si u : Shape} {w : ℕ} {φ : FTy} (d : ScatterDims s si u) (x : FVec Ideal s φ)
    (idx : IVec si w) (upd : FVec Ideal u φ) :
    Host.scatterAdd (F := Ideal) d x idx upd = Ideal.hostScatterAdd d x idx upd := rfl

/-! ## The constants -/

/-- The broadcast f32 zero reads 0 everywhere. -/
theorem zeros_apply {T : Shape} (h : S_.BroadcastsInDim T (![] : Fin 0 → Fin T.rank)) (j : T.Idx) :
    broadcastInDim T ![] h (constant (F := Ideal) S_ .f32 0x00000000#32) j = 0 := by
  rw [broadcastInDim_scalar_apply, constant_apply, Ideal.ofBits_zero_f32]

/-- The broadcast f32 one reads 1 everywhere. -/
theorem ones_apply {T : Shape} (h : S_.BroadcastsInDim T (![] : Fin 0 → Fin T.rank)) (j : T.Idx) :
    broadcastInDim T ![] h (constant (F := Ideal) S_ .f32 0x3F800000#32) j = 1 := by
  rw [broadcastInDim_scalar_apply, constant_apply, Ideal.ofBits_one_f32]

/-! ## The key of an edge -/

/-- The destination of edge e as an integer. -/
abbrev dstZ (a1 : IVec S2x3200000 32) : Fin 3200000 → ℤ := fun e => (a1 (ix2 (1 : Fin 2) e)).toInt
/-- The relation type of edge e as an integer. -/
abbrev tyZ (a2 : IVec S3200000 32) : Fin 3200000 → ℤ := fun e => (a2 (ix1 e)).toInt

/-- The key column at edge e is dst e * 8 + ty e on 32-bit words. -/
theorem keyCol_apply (a1 : IVec S2x3200000 32) (a2 : IVec S3200000 32) (e : Fin 3200000) :
    keyCol a1 a2 (ix2 e (0 : Fin 1)) = a1 (ix2 (1 : Fin 2) e) * 8#32 + a2 (ix1 e) := by
  unfold keyCol
  rw [col_apply]
  unfold keyVec
  rw [Pre.addi_apply, Pre.muli_apply]
  unfold row1
  rw [Pre.row1_apply, broadcastInDim_scalar_apply, constantI_apply]

/-- On the precondition's ranges the edges whose key is 8·n + r are the edges that end at n with type r. -/
theorem bucket_eq_hits (a1 : IVec S2x3200000 32) (a2 : IVec S3200000 32) (hR : Pre.Ranges a1 a2)
    (n : Fin 100000) (r : Fin 8) (k : Fin 800000) (hk : k.val = 8 * n.val + r.val) :
    Finset.univ.filter (fun e : Fin 3200000 => (keyCol a1 a2 (ix2 e (0 : Fin 1))).toInt = (k.val : ℤ))
      = hits (dstZ a1) (tyZ a2) (n.val : ℤ) (r.val : ℤ) := by
  unfold hits
  refine Finset.filter_congr fun e _ => ?_
  rw [keyCol_apply, hk]
  exact Pre.key_eq_iff _ _ (hR.dst e) (hR.ty e) n.val r.val n.isLt r.isLt

/-! ## The bucket sums and the reciprocal counts -/

/-- Entry (n, 16·r + d) of the flattened bucket sums of layer 1: a zero start plus feature d of the gathered source
    row of every edge that ends at n with type r. -/
theorem sumFlat16_apply (X : FVec Ideal S100000x16 .f32) (a1 : IVec S2x3200000 32) (a2 : IVec S3200000 32)
    (hR : Pre.Ranges a1 a2) (n : Fin 100000) (r : Fin 8) (d : Fin 16) :
    sumFlat16 (F := Ideal) X a1 a2 (ix2 n ⟨16 * r.val + d.val, by omega⟩)
      = 0 + ∑ e ∈ hits (dstZ a1) (tyZ a2) (n.val : ℤ) (r.val : ℤ),
          Host.gather gather_S100000x16_S3200000x1_S3200000x16_1_0_n_n_0_1_116 X (srcCol a1) (ix2 e d) := by
  unfold sumFlat16
  rw [cast_rows16_apply, hostScatterAdd_eq,
    Cert.Lib.hostScatterAdd_rows_apply scatter_S800000x16_S3200000x1_S3200000x16_1_0_0_1 rfl rfl rfl rfl,
    bucket_eq_hits a1 a2 hR n r ⟨8 * n.val + r.val, by omega⟩ rfl, zeros_apply]

/-- The same for layer 2, at width 32. -/
theorem sumFlat32_apply (X : FVec Ideal S100000x32 .f32) (a1 : IVec S2x3200000 32) (a2 : IVec S3200000 32)
    (hR : Pre.Ranges a1 a2) (n : Fin 100000) (r : Fin 8) (d : Fin 32) :
    sumFlat32 (F := Ideal) X a1 a2 (ix2 n ⟨32 * r.val + d.val, by omega⟩)
      = 0 + ∑ e ∈ hits (dstZ a1) (tyZ a2) (n.val : ℤ) (r.val : ℤ),
          Host.gather gather_S100000x32_S3200000x1_S3200000x32_1_0_n_n_0_1_132 X (srcCol a1) (ix2 e d) := by
  unfold sumFlat32
  rw [cast_rows32_apply, hostScatterAdd_eq,
    Cert.Lib.hostScatterAdd_rows_apply scatter_S800000x32_S3200000x1_S3200000x32_1_0_0_1 rfl rfl rfl rfl,
    bucket_eq_hits a1 a2 hR n r ⟨8 * n.val + r.val, by omega⟩ rfl, zeros_apply]

/-- Entry (n, r) of the reciprocal counts: one over the larger of one and the number of edges that end at n with
    type r, that number a zero start plus a one per edge. -/
theorem invOf_apply (a1 : IVec S2x3200000 32) (a2 : IVec S3200000 32) (hR : Pre.Ranges a1 a2)
    (n : Fin 100000) (r : Fin 8) :
    invOf (F := Ideal) a1 a2 (ix2 n r)
      = Ideal.div 1 (max (0 + ∑ _e ∈ hits (dstZ a1) (tyZ a2) (n.val : ℤ) (r.val : ℤ), (1 : EReal)) 1) := by
  unfold invOf
  rw [cast_vec8_apply, hostDivf_apply, maximumf_apply, ones_apply, hostScatterAdd_eq,
    Cert.Lib.hostScatterAdd_vec_apply scatter_S800000_S3200000x1_S3200000_n_0_0_1 rfl rfl rfl rfl,
    bucket_eq_hits a1 a2 hR n r ⟨8 * n.val + r.val, by omega⟩ rfl, zeros_apply]
  exact congrArg (fun z : EReal => Ideal.div 1 (max (0 + z) 1))
    (Finset.sum_congr rfl fun e _ => ones_apply bcast_S_S3200000 (ix1 e))

end Cert.KernelIdeal.KV

end
-- ==== Proof.KAlg.lean ====
/-
  At one row the kernel's formula is the convolution `layer`.

  The kernel contracts the flattened (relation, feature) axis of 8·D columns in one sum; column `k = D·r + d` belongs
  to relation `k / D = r`. Splitting that sum into the double sum over `r` and `d` turns the row's formula into the
  kernel's arrangement of `layer`: bucket sums times reciprocal clamped counts, contracted with the weights, the
  bias added last.
-/
import proofs.«416438_j26963804684494_2_alg».proof.Proof.Spec
import proofs.«416438_j26963804684494_2_alg».proof.Proof.KSpec
import Mathlib.Algebra.BigOperators.Fin
import Mathlib.Logic.Equiv.Fin.Basic

noncomputable section

namespace Cert.KernelIdeal.KV

open Cert.Rgcn Idealize.ShloMosaic Idealize.ShloMosaic.ValueIdx

/-- The flattened axis of 8·16 columns is the pairs (relation, feature): column `16·r + d`. -/
theorem sum_flat16 (f : Fin 128 → EReal) :
    ∑ k : Fin 128, f k = ∑ r : Fin 8, ∑ d : Fin 16, f ⟨16 * r.val + d.val, by omega⟩ := by
  calc ∑ k : Fin 128, f k
      = ∑ q : Fin 8 × Fin 16, f (finProdFinEquiv (m := 8) (n := 16) q) :=
        (Equiv.sum_comp (finProdFinEquiv (m := 8) (n := 16)) f).symm
    _ = ∑ r : Fin 8, ∑ d : Fin 16, f (finProdFinEquiv (m := 8) (n := 16) (r, d)) := Fintype.sum_prod_type _
    _ = ∑ r : Fin 8, ∑ d : Fin 16, f ⟨16 * r.val + d.val, by omega⟩ := by
      refine Finset.sum_congr rfl fun r _ => Finset.sum_congr rfl fun d _ => ?_
      congr 1
      apply Fin.ext
      show d.val + 16 * r.val = 16 * r.val + d.val
      omega

/-- Column `16·r + d` (with `d < 16`) belongs to relation `r`. -/
theorem rel16_flat (r : Fin 8) (d : Fin 16) (h : 16 * r.val + d.val < 128) :
    rel16 ⟨16 * r.val + d.val, h⟩ = r := by
  apply Fin.ext
  show (16 * r.val + d.val) / 16 = r.val
  omega

/-- Layer 1 of the kernel at one row is the convolution `layer` clamped below at zero, when the row of `s` holds the
    bucket sums, the row of `inv` the reciprocal clamped counts, and `w`, `bias` the flattened weights and the bias. -/
theorem rowsL1_apply_eq_layer {ε : Type} [Fintype ε] {R : ℕ}
    (x : (⟨2, ![R, 16]⟩ : Shape).Idx → EReal) (s : (⟨2, ![R, 128]⟩ : Shape).Idx → EReal)
    (inv : (⟨2, ![R, 8]⟩ : Shape).Idx → EReal)
    (root : (⟨2, ![16, 32]⟩ : Shape).Idx → EReal) (w : (⟨2, ![128, 32]⟩ : Shape).Idx → EReal)
    (bias : (⟨2, ![1, 32]⟩ : Shape).Idx → EReal)
    (xs : ε → Fin 16 → EReal) (dst ty : ε → ℤ) (W : Fin 8 → Fin 16 → Fin 32 → EReal) (b : Fin 32 → EReal)
    (p : Fin R) (n : ℤ) (o : Fin 32)
    (hs : ∀ (r : Fin 8) (d : Fin 16), s (ix2 p ⟨16 * r.val + d.val, by omega⟩)
      = 0 + ∑ e ∈ hits dst ty n (r.val : ℤ), xs e d)
    (hinv : ∀ r : Fin 8, inv (ix2 p r)
      = Ideal.div 1 (max (0 + ∑ _e ∈ hits dst ty n (r.val : ℤ), (1 : EReal)) 1))
    (hw : ∀ (r : Fin 8) (d : Fin 16), w (ix2 ⟨16 * r.val + d.val, by omega⟩ o) = W r d o)
    (hb : bias (ix2 (0 : Fin 1) o) = b o) :
    rowsL1 x s inv root w bias (ix2 p o)
      = max (layer (fun d => x (ix2 p d)) xs dst ty (fun d o' => root (ix2 d o')) W b n o) 0 := by
  have hk := kernel_form (fun d => x (ix2 p d)) xs dst ty (fun d o' => root (ix2 d o')) W b n o
    (fun r d => s (ix2 p ⟨16 * r.val + d.val, by omega⟩)) (fun r => inv (ix2 p r)) hs hinv
  rw [← hk]
  show max ((∑ d : Fin 16, x (ix2 p d) * root (ix2 d o)
      + ∑ k : Fin 128, (s (ix2 p k) * inv (ix2 p (rel16 k))) * w (ix2 k o)) + bias (ix2 (0 : Fin 1) o)) 0 = _
  rw [sum_flat16, hb]
  simp only [rel16_flat, hw]

/-- The flattened axis of 8·32 columns is the pairs (relation, feature): column `32·r + d`. -/
theorem sum_flat32 (f : Fin 256 → EReal) :
    ∑ k : Fin 256, f k = ∑ r : Fin 8, ∑ d : Fin 32, f ⟨32 * r.val + d.val, by omega⟩ := by
  calc ∑ k : Fin 256, f k
      = ∑ q : Fin 8 × Fin 32, f (finProdFinEquiv (m := 8) (n := 32) q) :=
        (Equiv.sum_comp (finProdFinEquiv (m := 8) (n := 32)) f).symm
    _ = ∑ r : Fin 8, ∑ d : Fin 32, f (finProdFinEquiv (m := 8) (n := 32) (r, d)) := Fintype.sum_prod_type _
    _ = ∑ r : Fin 8, ∑ d : Fin 32, f ⟨32 * r.val + d.val, by omega⟩ := by
      refine Finset.sum_congr rfl fun r _ => Finset.sum_congr rfl fun d _ => ?_
      congr 1
      apply Fin.ext
      show d.val + 32 * r.val = 32 * r.val + d.val
      omega

/-- Column `32·r + d` (with `d < 32`) belongs to relation `r`. -/
theorem rel32_flat (r : Fin 8) (d : Fin 32) (h : 32 * r.val + d.val < 256) :
    rel32 ⟨32 * r.val + d.val, h⟩ = r := by
  apply Fin.ext
  show (32 * r.val + d.val) / 32 = r.val
  omega

/-- Layer 2 of the kernel at one row is the convolution `layer`, when the row of `s` holds the bucket sums,
    the row of `inv` the reciprocal clamped counts, and `w`, `bias` the flattened weights and the bias. -/
theorem rowsL2_apply_eq_layer {ε : Type} [Fintype ε] {R : ℕ}
    (x : (⟨2, ![R, 32]⟩ : Shape).Idx → EReal) (s : (⟨2, ![R, 256]⟩ : Shape).Idx → EReal)
    (inv : (⟨2, ![R, 8]⟩ : Shape).Idx → EReal)
    (root : (⟨2, ![32, 16]⟩ : Shape).Idx → EReal) (w : (⟨2, ![256, 16]⟩ : Shape).Idx → EReal)
    (bias : (⟨2, ![1, 16]⟩ : Shape).Idx → EReal)
    (xs : ε → Fin 32 → EReal) (dst ty : ε → ℤ) (W : Fin 8 → Fin 32 → Fin 16 → EReal) (b : Fin 16 → EReal)
    (p : Fin R) (n : ℤ) (o : Fin 16)
    (hs : ∀ (r : Fin 8) (d : Fin 32), s (ix2 p ⟨32 * r.val + d.val, by omega⟩)
      = 0 + ∑ e ∈ hits dst ty n (r.val : ℤ), xs e d)
    (hinv : ∀ r : Fin 8, inv (ix2 p r)
      = Ideal.div 1 (max (0 + ∑ _e ∈ hits dst ty n (r.val : ℤ), (1 : EReal)) 1))
    (hw : ∀ (r : Fin 8) (d : Fin 32), w (ix2 ⟨32 * r.val + d.val, by omega⟩ o) = W r d o)
    (hb : bias (ix2 (0 : Fin 1) o) = b o) :
    rowsL2 x s inv root w bias (ix2 p o)
      = layer (fun d => x (ix2 p d)) xs dst ty (fun d o' => root (ix2 d o')) W b n o := by
  have hk := kernel_form (fun d => x (ix2 p d)) xs dst ty (fun d o' => root (ix2 d o')) W b n o
    (fun r d => s (ix2 p ⟨32 * r.val + d.val, by omega⟩)) (fun r => inv (ix2 p r)) hs hinv
  rw [← hk]
  show (∑ d : Fin 32, x (ix2 p d) * root (ix2 d o)
      + ∑ k : Fin 256, (s (ix2 p k) * inv (ix2 p (rel32 k))) * w (ix2 k o)) + bias (ix2 (0 : Fin 1) o) = _
  rw [sum_flat32, hb]
  simp only [rel32_flat, hw]

end Cert.KernelIdeal.KV

end
-- ==== Proof.KValue.lean ====
import proofs.«416438_j26963804684494_2_alg».proof.Proof.KHost
import proofs.«416438_j26963804684494_2_alg».proof.Proof.KArr
import proofs.«416438_j26963804684494_2_alg».proof.Proof.KBody
import proofs.«416438_j26963804684494_2_alg».proof.Proof.KBody1
import proofs.«416438_j26963804684494_2_alg».proof.Proof.KRead
import proofs.«416438_j26963804684494_2_alg».proof.Proof.KAlg
import proofs.«416438_j26963804684494_2_alg».proof.Proof.PreKey

/-! The kernel program's result, index by index, is the convolution: the first region leaves layer 1 clamped
    below at zero, the second region leaves layer 2 of it. -/

set_option maxRecDepth 16384

noncomputable section

namespace Cert.KernelIdeal.KV

open Cert.KernelIdeal Cert.KernelIdeal.Gen Cert.Rgcn Idealize.ShloMosaic Idealize.ShloMosaic.ValueIdx
open Idealize.ShloMosaic.TcCoe

variable (m : (ℓ : Loc nD τ sig) → Buf (Elt Ideal) ℓ) (ρ : Dev nD → PrngReg)

/-- At every grid point the first region's body leaves layer 1 of the point's blocks. -/
theorem hbody0 (c : Dev nD) (t : Fin cfg0.N) :
    outsAt0 (F := Ideal) (V1 m ρ) c t
      = rowsL1 (iblk0 (V1 m ρ) c 0 t) (iblk0 (V1 m ρ) c 1 t) (iblk0 (V1 m ρ) c 2 t) (iblk0 (V1 m ρ) c 3 t)
          (iblk0 (V1 m ρ) c 4 t) (iblk0 (V1 m ρ) c 5 t) := by
  unfold outsAt0
  exact out0_A_6_eq ..

/-- At every grid point the second region's body leaves layer 2 of the point's blocks. -/
theorem hbody1 (c : Dev nD) (t : Fin cfg1.N) :
    outsAt1 (F := Ideal) (V3 m ρ) c t
      = rowsL2 (iblk1 (V3 m ρ) c 0 t) (iblk1 (V3 m ρ) c 1 t) (iblk1 (V3 m ρ) c 2 t) (iblk1 (V3 m ρ) c 3 t)
          (iblk1 (V3 m ρ) c 4 t) (iblk1 (V3 m ρ) c 5 t) := by
  unfold outsAt1
  exact out1_A_6_eq ..

/-- The second region's output array (window 6) holds what the pipeline's write-backs leave. -/
theorem W4_out (c : Dev nD) :
    W4 m ρ c (Proc.devRef .tc main_v43) = (dat1 (F := Ideal) (V3 m ρ) c).arrAt 6 cfg1.N :=
  W4_arr m ρ c 6

/-- The hidden features: layer 1 of the input features, clamped below at zero. -/
theorem h1_apply (c : Dev nD)
    (hR : Cert.Rgcn.Pre.Ranges (m ((c : Thread nD τ).loc main_arg1)) (m ((c : Thread nD τ).loc main_arg2)))
    (n : Fin 100000) (o : Fin 32) :
    (V3 m ρ c main_v29 : S100000x32.Idx → EReal) (ix2 n o)
      = max (layer (fun d => (m ((c : Thread nD τ).loc main_arg0) : S100000x16.Idx → EReal) (ix2 n d))
          (fun e d => Host.gather gather_S100000x16_S3200000x1_S3200000x16_1_0_n_n_0_1_116
            (m ((c : Thread nD τ).loc main_arg0)) (srcCol (m ((c : Thread nD τ).loc main_arg1))) (ix2 e d))
          (dstZ (m ((c : Thread nD τ).loc main_arg1))) (tyZ (m ((c : Thread nD τ).loc main_arg2)))
          (fun d o' => (m ((c : Thread nD τ).loc main_arg4) : S16x32.Idx → EReal) (ix2 d o'))
          (fun r d o' => (m ((c : Thread nD τ).loc main_arg3) : S8x16x32.Idx → EReal) (ix3 r d o'))
          (fun o' => (m ((c : Thread nD τ).loc main_arg5) : S32.Idx → EReal) (ix1 o')) (n.val : ℤ) o) 0 := by
  rw [V3_h, arr0 (V1 m ρ) c (hbody0 m ρ c), V1_x, V1_sum, V1_inv, V1_root, V1_w, V1_b]
  exact rowsL1_apply_eq_layer _ _ _ _ _ _ _ _ _ _ _ n _ o
    (fun r d => sumFlat16_apply _ _ _ hR n r d) (fun r => invOf_apply _ _ hR n r)
    (fun r d => w1_apply _ r d o) (b1_apply _ o)

/-- The result: layer 2 of the hidden features. -/
theorem result_apply (c : Dev nD)
    (hR : Cert.Rgcn.Pre.Ranges (m ((c : Thread nD τ).loc main_arg1)) (m ((c : Thread nD τ).loc main_arg2)))
    (n : Fin 100000) (o : Fin 16) :
    (W4 m ρ c (Proc.devRef .tc main_v43) : S100000x16.Idx → EReal) (ix2 n o)
      = layer (fun d => (V3 m ρ c main_v29 : S100000x32.Idx → EReal) (ix2 n d))
          (fun e d => Host.gather gather_S100000x32_S3200000x1_S3200000x32_1_0_n_n_0_1_132
            (V3 m ρ c main_v29) (srcCol (m ((c : Thread nD τ).loc main_arg1))) (ix2 e d))
          (dstZ (m ((c : Thread nD τ).loc main_arg1))) (tyZ (m ((c : Thread nD τ).loc main_arg2)))
          (fun d o' => (m ((c : Thread nD τ).loc main_arg7) : S32x16.Idx → EReal) (ix2 d o'))
          (fun r d o' => (m ((c : Thread nD τ).loc main_arg6) : S8x32x16.Idx → EReal) (ix3 r d o'))
          (fun o' => (m ((c : Thread nD τ).loc main_arg8) : S16.Idx → EReal) (ix1 o')) (n.val : ℤ) o := by
  rw [W4_out, arr1 (V3 m ρ) c (hbody1 m ρ c), V3_sum, V3_inv, V3_root, V3_w, V3_b]
  exact rowsL2_apply_eq_layer _ _ _ _ _ _ _ _ _ _ _ n _ o
    (fun r d => sumFlat32_apply _ _ _ hR n r d) (fun r => invOf_apply _ _ hR n r)
    (fun r d => w2_apply _ r d o) (b2_apply _ o)

end Cert.KernelIdeal.KV
-- ==== Proof.RRel.lean ====
/-
  One relation's term of a relational graph convolution, read off the stages that compute it.

  For a relation `r`, the computation masks the gathered source rows by "the edge's type is `r`", sums the masked rows
  into their destination nodes (a scatter onto zeros along the destination column), sums the mask itself the same way
  to count the edges, clamps the count below at one, divides, and contracts the quotient with the relation's slice of the
  weights. `relTerm` is that term as a formula over plain finite index types; `relTerm_of_stages` derives it from
  stage functions that are each known at an index, for any feature widths; `wslice1` / `wslice2` read a relation's
  slice of the weights, reshaped to a matrix, at an index.
-/
import proofs.«416438_j26963804684494_2_alg».proof.Proof.RefRead
import proofs.«416438_j26963804684494_2_alg».proof.Proof.Spec
import proofs.«416438_j26963804684494_2_alg».proof.Proof.LibScatterAdd
import Idealize.ShloMosaic.Lib.StableHlo.Predicate
import Idealize.ShloMosaic.Lib.IdealHost

noncomputable section

open scoped BigOperators

namespace Cert.ReferenceIdeal.RV

open Cert.ReferenceIdeal Cert.ReferenceIdeal.ReadP Cert.Rgcn Idealize.ShloMosaic Idealize.ShloMosaic.ValueIdx
open Idealize.ShloMosaic.StableHlo.Predicate (cmpi_eq_iff)

/-- Float contents of a shape, at the ideal instance. -/
abbrev FBuf (s : Shape) : Type := (⟨s, .f32⟩ : BufTy).Contents (Elt Ideal)
/-- 32-bit integer contents of a shape. -/
abbrev IBuf (s : Shape) : Type := (⟨s, .i32⟩ : BufTy).Contents (Elt Ideal)
/-- One-bit contents of a shape. -/
abbrev BBuf (s : Shape) : Type := (⟨s, .i1⟩ : BufTy).Contents (Elt Ideal)

/-- The destination node of edge `e`: row 1 of the edge list, read as a signed integer. -/
def dstOf (x1 : IVec S2x3200000 32) (e : Fin 3200000) : ℤ := (x1 (ix2 (1 : Fin 2) e)).toInt
/-- The relation type of edge `e`, read as a signed integer. -/
def tyOf (x2 : IVec S3200000 32) (e : Fin 3200000) : ℤ := (x2 (ix1 e)).toInt

/-- The mask of relation `r`: one on an edge of type `r`, zero elsewhere. -/
def maskOf {ε : Type} (ty : ε → ℤ) (r : Fin 8) (e : ε) : EReal := if ty e = (r.val : ℤ) then 1 else 0

/-- Relation `r`'s term of a layer at node `n` and output feature `o`, in the reference's arrangement: the masked sum
    over the edges ending at `n`, divided by the masked count clamped at one, contracted with the relation's weights. -/
def relTerm {ε : Type} [Fintype ε] {D O : ℕ} (xs : ε → Fin D → EReal) (dst ty : ε → ℤ) (W : Fin 8 → Fin D → Fin O → EReal)
    (n : ℤ) (o : Fin O) (r : Fin 8) : EReal :=
  ∑ d, Ideal.div (0 + ∑ e ∈ Finset.univ.filter (fun e => dst e = n), xs e d * maskOf ty r e)
      (max 1 (0 + ∑ e ∈ Finset.univ.filter (fun e => dst e = n), maskOf ty r e)) * W r d o

/-! ## Indices -/

/-- The column entry `(e, ·)` of an edge column, seen as the vector entry `e`. -/
theorem edge_flat (e : Fin 3200000) (b : Fin 1) : idx_main_v18 (ix2 e b) = ix1 e := by
  funext c; match c with | ⟨0, _⟩ => rfl
/-- The column entry `(n, ·)` of a node column, seen as the vector entry `n`. -/
theorem node_flat (n : Fin 100000) (b : Fin 1) : idx_main_v28 (ix2 n b) = ix1 n := by
  funext c; match c with | ⟨0, _⟩ => rfl

/-- Row 1 of the edge list, flattened: entry `e` is the list's entry `(1, e)`. -/
theorem dst_col (x1 : IBuf S2x3200000) (e : Fin 3200000) :
    val_main_v3 (F := Ideal) x1 (ix1 e) = x1 (ix2 (1 : Fin 2) e) := by
  rw [val_main_v3_apply, val_main_v2_apply]
  refine congrArg x1 ?_
  funext a
  refine Fin.ext ?_
  match a with
  | ⟨0, _⟩ => rfl
  | ⟨1, _⟩ => exact Nat.mod_eq_of_lt e.isLt

/-! ## The mask -/

/-- The float of "the word equals the constant `c`" is one when the word's signed value is `c`'s, else zero. -/
theorem mask_word (a c : BitVec 32) (r : Fin 8) (hc : c.toInt = (r.val : ℤ)) :
    FloatOps.uitofp (F := Ideal) .f32 (IntOp.cmpi .eq a c) = if a.toInt = (r.val : ℤ) then 1 else 0 := by
  by_cases h : a = c
  · rw [cmpi_eq_iff.mpr h, if_pos (by rw [h, hc])]
    show (((1#1 : BitVec 1).toNat : ℝ) : EReal) = 1
    simp
  · have h0 : IntOp.cmpi .eq a c = 0#1 := eq_zero_of_ne_one (fun h1 => h (cmpi_eq_iff.mp h1))
    rw [h0, if_neg (fun h1 => h (BitVec.toInt_inj.mp (h1.trans hc.symm)))]
    show (((0#1 : BitVec 1).toNat : ℝ) : EReal) = 0
    simp

/-! ## One relation's term, from its stages -/

/-- Relation `r`'s term at `(n, o)`, from the stages that compute it, each given by what it is at an index: the mask
    (the float of "type equals `c`", `c` the word of `r`), the masked rows scattered onto zeros along the destination
    column, the mask scattered onto zeros along the same column, the count clamped below at one and broadcast over the
    features, the quotient, the relation's slice of the weights, and the contraction over the features. The feature
    widths `D`, `O`, the two scatters' dimension numbers and the four index maps that depend on the widths are
    parameters: `j19` / `j29` send a row entry to its column entry, `jl` / `jr` are the contraction's operand indices. -/
theorem relTerm_of_stages {D O : ℕ}
    (drows : ScatterDims ⟨2, ![100000, D]⟩ ⟨2, ![3200000, 1]⟩ ⟨2, ![3200000, D]⟩)
    (hr1 : drows.updateWindowDims = [1]) (hr2 : drows.insertedWindowDims = [0])
    (hr3 : drows.scatterDimsToOperandDims = [0]) (hr4 : drows.indexVectorDim = 1)
    (dvec : ScatterDims ⟨1, ![100000]⟩ ⟨2, ![3200000, 1]⟩ ⟨1, ![3200000]⟩)
    (hv1 : dvec.updateWindowDims = []) (hv2 : dvec.insertedWindowDims = [0])
    (hv3 : dvec.scatterDimsToOperandDims = [0]) (hv4 : dvec.indexVectorDim = 1)
    (j19 : (⟨2, ![3200000, D]⟩ : Shape).Idx → S3200000x1.Idx)
    (hj19 : ∀ (e : Fin 3200000) (k : Fin D), j19 (ix2 e k) = ix2 e (0 : Fin 1))
    (j29 : (⟨2, ![100000, D]⟩ : Shape).Idx → S100000x1.Idx)
    (hj29 : ∀ (n : Fin 100000) (k : Fin D), j29 (ix2 n k) = ix2 n (0 : Fin 1))
    (jl : (⟨2, ![100000, O]⟩ : Shape).Idx → Fin D → (⟨2, ![100000, D]⟩ : Shape).Idx)
    (hjl : ∀ (n : Fin 100000) (o : Fin O) (k : Fin D), jl (ix2 n o) k = ix2 n k)
    (jr : (⟨2, ![100000, O]⟩ : Shape).Idx → Fin D → (⟨2, ![D, O]⟩ : Shape).Idx)
    (hjr : ∀ (n : Fin 100000) (o : Fin O) (k : Fin D), jr (ix2 n o) k = ix2 k o)
    (x1 : IBuf S2x3200000) (x2 : IBuf S3200000)
    (gath : FBuf ⟨2, ![3200000, D]⟩) (W3 : FBuf ⟨3, ![8, D, O]⟩) (r : Fin 8) (c : BitVec 32) (hc : c.toInt = (r.val : ℤ))
    {s15 : IBuf S3200000} {s16 : BBuf S3200000} {s17 : FBuf S3200000} {s18 : FBuf S3200000x1}
    {s19 s20 : FBuf ⟨2, ![3200000, D]⟩} {s21 : FBuf ⟨2, ![100000, D]⟩} {s22 : IBuf S3200000x1}
    (s23 : FBuf ⟨2, ![100000, D]⟩) {s24 : FBuf S100000} {s25 : IBuf S3200000x1} (s26 : FBuf S100000)
    {ones s27 : FBuf S100000} {s28 : FBuf S100000x1} {s29 s30 : FBuf ⟨2, ![100000, D]⟩} {s32 : FBuf ⟨2, ![D, O]⟩}
    {s33 : FBuf ⟨2, ![100000, O]⟩}
    (h15 : ∀ i, s15 i = c)
    (h16 : ∀ i, s16 i = IntOp.cmpi .eq (x2 i) (s15 i))
    (h17 : ∀ i, s17 i = FloatOps.uitofp (F := Ideal) .f32 (s16 i))
    (h18 : ∀ i, s18 i = s17 (idx_main_v18 i))
    (h19 : ∀ i, s19 i = s18 (j19 i))
    (h20 : ∀ i, s20 i = FloatOps.mulf (F := Ideal) (φ := .f32) (gath i) (s19 i))
    (h21 : ∀ i, s21 i = Ideal.ofBits .f32 0x00000000#32)
    (h22 : ∀ i, s22 i = val_main_v3 (F := Ideal) x1 (idx_main_v18 i))
    (h23 : s23 = Host.scatterAdd (F := Ideal) (φ := .f32) drows s21 s22 s20)
    (h24 : ∀ i, s24 i = Ideal.ofBits .f32 0x00000000#32)
    (h25 : ∀ i, s25 i = val_main_v3 (F := Ideal) x1 (idx_main_v18 i))
    (h26 : s26 = Host.scatterAdd (F := Ideal) (φ := .f32) dvec s24 s25 s17)
    (hones : ∀ i, ones i = Ideal.ofBits .f32 0x3F800000#32)
    (h27 : ∀ i, s27 i = FloatOps.maximumf (F := Ideal) (φ := .f32) (ones i) (s26 i))
    (h28 : ∀ i, s28 i = s27 (idx_main_v28 i))
    (h29 : ∀ i, s29 i = s28 (j29 i))
    (h30 : ∀ i, s30 i = FloatOps.hostDivf (F := Ideal) (φ := .f32) (s23 i) (s29 i))
    (hwr : ∀ (k : Fin D) (o : Fin O), s32 (ix2 k o) = W3 (ix3 r k o))
    (h33 : ∀ i, s33 i = ∑ k : Fin D, s30 (jl i k) * s32 (jr i k))
    (n : Fin 100000) (o : Fin O) :
    s33 (ix2 n o) = relTerm (fun e d => gath (ix2 e d)) (dstOf x1) (tyOf x2) (fun r' d o' => W3 (ix3 r' d o'))
      (n.val : ℤ) o r := by
  have hmask : ∀ e : Fin 3200000, s17 (ix1 e) = maskOf (tyOf x2) r e := fun e => by
    rw [h17, h16, h15]
    exact mask_word (x2 (ix1 e)) c r hc
  have hnum : ∀ k : Fin D, s23 (ix2 n k)
      = 0 + ∑ e ∈ Finset.univ.filter (fun e => dstOf x1 e = (n.val : ℤ)), gath (ix2 e k) * maskOf (tyOf x2) r e := fun k => by
    rw [h23]
    refine (Cert.Lib.hostScatterAdd_rows_apply drows hr1 hr2 hr3 hr4 s21 s22 s20 n k).trans ?_
    simp only [h21, h22, h20, h19, h18, hj19, edge_flat, dst_col, hmask, Ideal.mulf_def, Ideal.ofBits_zero_f32]
    rfl
  have hcnt : s26 (ix1 n)
      = 0 + ∑ e ∈ Finset.univ.filter (fun e => dstOf x1 e = (n.val : ℤ)), maskOf (tyOf x2) r e := by
    rw [h26]
    refine (Cert.Lib.hostScatterAdd_vec_apply dvec hv1 hv2 hv3 hv4 s24 s25 s17 n).trans ?_
    simp only [h24, h25, edge_flat, dst_col, hmask, Ideal.ofBits_zero_f32]
    rfl
  rw [h33, relTerm]
  refine Finset.sum_congr rfl fun k _ => ?_
  rw [hjl, hjr, h30, h29, h28, h27, hones, hj29, node_flat, hwr, hnum, hcnt, Ideal.ofBits_one_f32]
  rfl

/-! ## A relation's slice of the weights -/

/-- Slice `r` of the first layer's weights, reshaped to a matrix: entry `(k, o)` is the weights' entry `(r, k, o)`. -/
theorem wslice1 (x3 : FBuf S8x16x32) (r : Fin 8) (s31 : FBuf S1x16x32) (s32 : FBuf S16x32)
    (sl : S1x16x32.Idx → S8x16x32.Idx)
    (hsl0 : ∀ i, (sl i 0).val = r.val + (i 0).val) (hsl1 : ∀ i, (sl i 1).val = (i 1).val)
    (hsl2 : ∀ i, (sl i 2).val = (i 2).val)
    (h31 : ∀ i, s31 i = x3 (sl i)) (h32 : ∀ i, s32 i = s31 (idx_main_v32 i))
    (k : Fin 16) (o : Fin 32) : s32 (ix2 k o) = x3 (ix3 r k o) := by
  rw [h32, h31]
  refine congrArg x3 (funext fun a => Fin.ext ?_)
  match a with
  | ⟨0, _⟩ => exact hsl0 _
  | ⟨1, _⟩ => exact (hsl1 _).trans (by show (k.val * 32 + o.val) / 32 % 16 = k.val; omega)
  | ⟨2, _⟩ => exact (hsl2 _).trans (by show (k.val * 32 + o.val) % 32 = o.val; omega)

/-- Slice `r` of the second layer's weights, reshaped to a matrix: entry `(k, o)` is the weights' entry `(r, k, o)`. -/
theorem wslice2 (x6 : FBuf S8x32x16) (r : Fin 8) (s31 : FBuf S1x32x16) (s32 : FBuf S32x16)
    (sl : S1x32x16.Idx → S8x32x16.Idx)
    (hsl0 : ∀ i, (sl i 0).val = r.val + (i 0).val) (hsl1 : ∀ i, (sl i 1).val = (i 1).val)
    (hsl2 : ∀ i, (sl i 2).val = (i 2).val)
    (h31 : ∀ i, s31 i = x6 (sl i)) (h32 : ∀ i, s32 i = s31 (idx_main_v204 i))
    (k : Fin 32) (o : Fin 16) : s32 (ix2 k o) = x6 (ix3 r k o) := by
  rw [h32, h31]
  refine congrArg x6 (funext fun a => Fin.ext ?_)
  match a with
  | ⟨0, _⟩ => exact hsl0 _
  | ⟨1, _⟩ => exact (hsl1 _).trans (by show (k.val * 16 + o.val) / 16 % 32 = k.val; omega)
  | ⟨2, _⟩ => exact (hsl2 _).trans (by show (k.val * 16 + o.val) % 16 = o.val; omega)

end Cert.ReferenceIdeal.RV

end
-- ==== Proof.RLayer1.lean ====
/-
  The first layer of the two-layer relational graph convolution, read at a node and an output feature.

  The layer's value before its activation is `x_n · root + b` plus, for each of the eight relations, that relation's
  term: the masked sum of the gathered source rows over the edges ending at the node, divided by the masked edge count
  clamped below at one, contracted with the relation's weights. Each relation's term comes from one statement about
  its stages; the eight are then added in order and the sum is the layer of the specification; the activation is the
  maximum with zero.
-/
import proofs.«416438_j26963804684494_2_alg».proof.Proof.RRel

noncomputable section

open scoped BigOperators

namespace Cert.ReferenceIdeal.RV

open Cert.ReferenceIdeal Cert.ReferenceIdeal.ReadP Cert.Rgcn Idealize.ShloMosaic Idealize.ShloMosaic.ValueIdx

/-! ## The first layer's index maps -/

/-- A row entry `(e, k)` of the masked rows reads the mask's column entry `(e, 0)`. -/
theorem edge_col1 (e : Fin 3200000) (k : Fin 16) : idx_main_v19 (ix2 e k) = ix2 e (0 : Fin 1) := by
  funext c; match c with | ⟨0, _⟩ => rfl | ⟨1, _⟩ => rfl
/-- A row entry `(n, k)` of the quotient reads the clamped count's column entry `(n, 0)`. -/
theorem node_col1 (n : Fin 100000) (k : Fin 16) : idx_main_v29 (ix2 n k) = ix2 n (0 : Fin 1) := by
  funext c; match c with | ⟨0, _⟩ => rfl | ⟨1, _⟩ => rfl
/-- The left operand of a relation's contraction at `(n, o)`, summand `k`, is read at `(n, k)`. -/
theorem lhs_idx1 (n : Fin 100000) (o : Fin 32) (k : Fin 16) : lidx_main_v33 (ix2 n o) k = ix2 n k := by
  funext c; match c with | ⟨0, _⟩ => rfl | ⟨1, _⟩ => rfl
/-- The right operand of that contraction is read at `(k, o)`. -/
theorem rhs_idx1 (n : Fin 100000) (o : Fin 32) (k : Fin 16) : ridx_main_v33 (ix2 n o) k = ix2 k o := by
  funext c; match c with | ⟨0, _⟩ => rfl | ⟨1, _⟩ => rfl
/-- The left operand of the root contraction at `(n, o)`, summand `k`, is read at `(n, k)`. -/
theorem root_lhs1 (n : Fin 100000) (o : Fin 32) (k : Fin 16) : lidx_main_v4 (ix2 n o) k = ix2 n k := by
  funext c; match c with | ⟨0, _⟩ => rfl | ⟨1, _⟩ => rfl
/-- The right operand of the root contraction is read at `(k, o)`. -/
theorem root_rhs1 (n : Fin 100000) (o : Fin 32) (k : Fin 16) : ridx_main_v4 (ix2 n o) k = ix2 k o := by
  funext c; match c with | ⟨0, _⟩ => rfl | ⟨1, _⟩ => rfl
/-- The bias broadcast over the nodes reads entry `o` of the bias at `(n, o)`. -/
theorem bias_idx1 (n : Fin 100000) (o : Fin 32) : idx_main_v5 (idx_main_v6 (ix2 n o)) = ix1 o := by
  funext c; match c with | ⟨0, _⟩ => rfl

/-- The statement about one relation's stages, at the first layer's widths, dimension numbers and index maps. -/
local notation "rel1" => relTerm_of_stages (D := 16) (O := 32)
    scatter_S100000x16_S3200000x1_S3200000x16_1_0_0_1 rfl rfl rfl rfl
    scatter_S100000_S3200000x1_S3200000_n_0_0_1 rfl rfl rfl rfl
    idx_main_v19 edge_col1 idx_main_v29 node_col1 lidx_main_v33 lhs_idx1 ridx_main_v33 rhs_idx1

/-! ## The eight relations' terms -/

/-- Relation 0's term at `(n, o)`. -/
theorem term1_0 (x0 : FBuf S100000x16) (x1 : IBuf S2x3200000) (x2 : IBuf S3200000) (x3 : FBuf S8x16x32)
    (n : Fin 100000) (o : Fin 32) :
    val_main_v33 (F := Ideal) x0 x1 x2 x3 (ix2 n o)
      = relTerm (fun e d => val_main_v14 (F := Ideal) x0 x1 (ix2 e d)) (dstOf x1) (tyOf x2)
          (fun r' d o' => x3 (ix3 r' d o')) (n.val : ℤ) o 0 :=
  rel1 x1 x2 (val_main_v14 (F := Ideal) x0 x1) x3 0 0#32 rfl
    (val_main_v23 (F := Ideal) x0 x1 x2) (val_main_v26 (F := Ideal) x1 x2)
    (val_main_v15_apply (F := Ideal)) (val_main_v16_apply x2) (val_main_v17_apply x2) (val_main_v18_apply x2)
    (val_main_v19_apply x2) (val_main_v20_apply x0 x1 x2) (val_main_v21_apply (F := Ideal)) (val_main_v22_apply x1) rfl
    (val_main_v24_apply (F := Ideal)) (val_main_v25_apply x1) rfl (val_main_call0_v1_apply (F := Ideal))
    (val_main_v27_apply x1 x2) (val_main_v28_apply x1 x2) (val_main_v29_apply x1 x2) (val_main_v30_apply x0 x1 x2)
    (wslice1 x3 0 (val_main_v31 (F := Ideal) x3) (val_main_v32 (F := Ideal) x3) idx_main_v31
      (fun _ => (Nat.zero_add _).symm) (fun _ => rfl) (fun _ => rfl) (val_main_v31_apply x3) (val_main_v32_apply x3))
    (val_main_v33_apply x0 x1 x2 x3) n o

/-- Relation 1's term at `(n, o)`. -/
theorem term1_1 (x0 : FBuf S100000x16) (x1 : IBuf S2x3200000) (x2 : IBuf S3200000) (x3 : FBuf S8x16x32)
    (n : Fin 100000) (o : Fin 32) :
    val_main_v53 (F := Ideal) x0 x1 x2 x3 (ix2 n o)
      = relTerm (fun e d => val_main_v14 (F := Ideal) x0 x1 (ix2 e d)) (dstOf x1) (tyOf x2)
          (fun r' d o' => x3 (ix3 r' d o')) (n.val : ℤ) o 1 :=
  rel1 x1 x2 (val_main_v14 (F := Ideal) x0 x1) x3 1 1#32 rfl
    (val_main_v43 (F := Ideal) x0 x1 x2) (val_main_v46 (F := Ideal) x1 x2)
    (val_main_v35_apply (F := Ideal)) (val_main_v36_apply x2) (val_main_v37_apply x2) (val_main_v38_apply x2)
    (val_main_v39_apply x2) (val_main_v40_apply x0 x1 x2) (val_main_v41_apply (F := Ideal)) (val_main_v42_apply x1) rfl
    (val_main_v44_apply (F := Ideal)) (val_main_v45_apply x1) rfl (val_main_call1_v1_apply (F := Ideal))
    (val_main_v47_apply x1 x2) (val_main_v48_apply x1 x2) (val_main_v49_apply x1 x2) (val_main_v50_apply x0 x1 x2)
    (wslice1 x3 1 (val_main_v51 (F := Ideal) x3) (val_main_v52 (F := Ideal) x3) idx_main_v51
      (fun _ => rfl) (fun _ => rfl) (fun _ => rfl) (val_main_v51_apply x3) (val_main_v52_apply x3))
    (val_main_v53_apply x0 x1 x2 x3) n o

/-- Relation 2's term at `(n, o)`. -/
theorem term1_2 (x0 : FBuf S100000x16) (x1 : IBuf S2x3200000) (x2 : IBuf S3200000) (x3 : FBuf S8x16x32)
    (n : Fin 100000) (o : Fin 32) :
    val_main_v73 (F := Ideal) x0 x1 x2 x3 (ix2 n o)
      = relTerm (fun e d => val_main_v14 (F := Ideal) x0 x1 (ix2 e d)) (dstOf x1) (tyOf x2)
          (fun r' d o' => x3 (ix3 r' d o')) (n.val : ℤ) o 2 :=
  rel1 x1 x2 (val_main_v14 (F := Ideal) x0 x1) x3 2 2#32 rfl
    (val_main_v63 (F := Ideal) x0 x1 x2) (val_main_v66 (F := Ideal) x1 x2)
    (val_main_v55_apply (F := Ideal)) (val_main_v56_apply x2) (val_main_v57_apply x2) (val_main_v58_apply x2)
    (val_main_v59_apply x2) (val_main_v60_apply x0 x1 x2) (val_main_v61_apply (F := Ideal)) (val_main_v62_apply x1) rfl
    (val_main_v64_apply (F := Ideal)) (val_main_v65_apply x1) rfl (val_main_call2_v1_apply (F := Ideal))
    (val_main_v67_apply x1 x2) (val_main_v68_apply x1 x2) (val_main_v69_apply x1 x2) (val_main_v70_apply x0 x1 x2)
    (wslice1 x3 2 (val_main_v71 (F := Ideal) x3) (val_main_v72 (F := Ideal) x3) idx_main_v71
      (fun _ => rfl) (fun _ => rfl) (fun _ => rfl) (val_main_v71_apply x3) (val_main_v72_apply x3))
    (val_main_v73_apply x0 x1 x2 x3) n o

/-- Relation 3's term at `(n, o)`. -/
theorem term1_3 (x0 : FBuf S100000x16) (x1 : IBuf S2x3200000) (x2 : IBuf S3200000) (x3 : FBuf S8x16x32)
    (n : Fin 100000) (o : Fin 32) :
    val_main_v93 (F := Ideal) x0 x1 x2 x3 (ix2 n o)
      = relTerm (fun e d => val_main_v14 (F := Ideal) x0 x1 (ix2 e d)) (dstOf x1) (tyOf x2)
          (fun r' d o' => x3 (ix3 r' d o')) (n.val : ℤ) o 3 :=
  rel1 x1 x2 (val_main_v14 (F := Ideal) x0 x1) x3 3 3#32 rfl
    (val_main_v83 (F := Ideal) x0 x1 x2) (val_main_v86 (F := Ideal) x1 x2)
    (val_main_v75_apply (F := Ideal)) (val_main_v76_apply x2) (val_main_v77_apply x2) (val_main_v78_apply x2)
    (val_main_v79_apply x2) (val_main_v80_apply x0 x1 x2) (val_main_v81_apply (F := Ideal)) (val_main_v82_apply x1) rfl
    (val_main_v84_apply (F := Ideal)) (val_main_v85_apply x1) rfl (val_main_call3_v1_apply (F := Ideal))
    (val_main_v87_apply x1 x2) (val_main_v88_apply x1 x2) (val_main_v89_apply x1 x2) (val_main_v90_apply x0 x1 x2)
    (wslice1 x3 3 (val_main_v91 (F := Ideal) x3) (val_main_v92 (F := Ideal) x3) idx_main_v91
      (fun _ => rfl) (fun _ => rfl) (fun _ => rfl) (val_main_v91_apply x3) (val_main_v92_apply x3))
    (val_main_v93_apply x0 x1 x2 x3) n o

/-- Relation 4's term at `(n, o)`. -/
theorem term1_4 (x0 : FBuf S100000x16) (x1 : IBuf S2x3200000) (x2 : IBuf S3200000) (x3 : FBuf S8x16x32)
    (n : Fin 100000) (o : Fin 32) :
    val_main_v113 (F := Ideal) x0 x1 x2 x3 (ix2 n o)
      = relTerm (fun e d => val_main_v14 (F := Ideal) x0 x1 (ix2 e d)) (dstOf x1) (tyOf x2)
          (fun r' d o' => x3 (ix3 r' d o')) (n.val : ℤ) o 4 :=
  rel1 x1 x2 (val_main_v14 (F := Ideal) x0 x1) x3 4 4#32 rfl
    (val_main_v103 (F := Ideal) x0 x1 x2) (val_main_v106 (F := Ideal) x1 x2)
    (val_main_v95_apply (F := Ideal)) (val_main_v96_apply x2) (val_main_v97_apply x2) (val_main_v98_apply x2)
    (val_main_v99_apply x2) (val_main_v100_apply x0 x1 x2) (val_main_v101_apply (F := Ideal)) (val_main_v102_apply x1) rfl
    (val_main_v104_apply (F := Ideal)) (val_main_v105_apply x1) rfl (val_main_call4_v1_apply (F := Ideal))
    (val_main_v107_apply x1 x2) (val_main_v108_apply x1 x2) (val_main_v109_apply x1 x2) (val_main_v110_apply x0 x1 x2)
    (wslice1 x3 4 (val_main_v111 (F := Ideal) x3) (val_main_v112 (F := Ideal) x3) idx_main_v111
      (fun _ => rfl) (fun _ => rfl) (fun _ => rfl) (val_main_v111_apply x3) (val_main_v112_apply x3))
    (val_main_v113_apply x0 x1 x2 x3) n o

/-- Relation 5's term at `(n, o)`. -/
theorem term1_5 (x0 : FBuf S100000x16) (x1 : IBuf S2x3200000) (x2 : IBuf S3200000) (x3 : FBuf S8x16x32)
    (n : Fin 100000) (o : Fin 32) :
    val_main_v133 (F := Ideal) x0 x1 x2 x3 (ix2 n o)
      = relTerm (fun e d => val_main_v14 (F := Ideal) x0 x1 (ix2 e d)) (dstOf x1) (tyOf x2)
          (fun r' d o' => x3 (ix3 r' d o')) (n.val : ℤ) o 5 :=
  rel1 x1 x2 (val_main_v14 (F := Ideal) x0 x1) x3 5 5#32 rfl
    (val_main_v123 (F := Ideal) x0 x1 x2) (val_main_v126 (F := Ideal) x1 x2)
    (val_main_v115_apply (F := Ideal)) (val_main_v116_apply x2) (val_main_v117_apply x2) (val_main_v118_apply x2)
    (val_main_v119_apply x2) (val_main_v120_apply x0 x1 x2) (val_main_v121_apply (F := Ideal)) (val_main_v122_apply x1) rfl
    (val_main_v124_apply (F := Ideal)) (val_main_v125_apply x1) rfl (val_main_call5_v1_apply (F := Ideal))
    (val_main_v127_apply x1 x2) (val_main_v128_apply x1 x2) (val_main_v129_apply x1 x2) (val_main_v130_apply x0 x1 x2)
    (wslice1 x3 5 (val_main_v131 (F := Ideal) x3) (val_main_v132 (F := Ideal) x3) idx_main_v131
      (fun _ => rfl) (fun _ => rfl) (fun _ => rfl) (val_main_v131_apply x3) (val_main_v132_apply x3))
    (val_main_v133_apply x0 x1 x2 x3) n o

/-- Relation 6's term at `(n, o)`. -/
theorem term1_6 (x0 : FBuf S100000x16) (x1 : IBuf S2x3200000) (x2 : IBuf S3200000) (x3 : FBuf S8x16x32)
    (n : Fin 100000) (o : Fin 32) :
    val_main_v153 (F := Ideal) x0 x1 x2 x3 (ix2 n o)
      = relTerm (fun e d => val_main_v14 (F := Ideal) x0 x1 (ix2 e d)) (dstOf x1) (tyOf x2)
          (fun r' d o' => x3 (ix3 r' d o')) (n.val : ℤ) o 6 :=
  rel1 x1 x2 (val_main_v14 (F := Ideal) x0 x1) x3 6 6#32 rfl
    (val_main_v143 (F := Ideal) x0 x1 x2) (val_main_v146 (F := Ideal) x1 x2)
    (val_main_v135_apply (F := Ideal)) (val_main_v136_apply x2) (val_main_v137_apply x2) (val_main_v138_apply x2)
    (val_main_v139_apply x2) (val_main_v140_apply x0 x1 x2) (val_main_v141_apply (F := Ideal)) (val_main_v142_apply x1) rfl
    (val_main_v144_apply (F := Ideal)) (val_main_v145_apply x1) rfl (val_main_call6_v1_apply (F := Ideal))
    (val_main_v147_apply x1 x2) (val_main_v148_apply x1 x2) (val_main_v149_apply x1 x2) (val_main_v150_apply x0 x1 x2)
    (wslice1 x3 6 (val_main_v151 (F := Ideal) x3) (val_main_v152 (F := Ideal) x3) idx_main_v151
      (fun _ => rfl) (fun _ => rfl) (fun _ => rfl) (val_main_v151_apply x3) (val_main_v152_apply x3))
    (val_main_v153_apply x0 x1 x2 x3) n o

/-- Relation 7's term at `(n, o)`. -/
theorem term1_7 (x0 : FBuf S100000x16) (x1 : IBuf S2x3200000) (x2 : IBuf S3200000) (x3 : FBuf S8x16x32)
    (n : Fin 100000) (o : Fin 32) :
    val_main_v173 (F := Ideal) x0 x1 x2 x3 (ix2 n o)
      = relTerm (fun e d => val_main_v14 (F := Ideal) x0 x1 (ix2 e d)) (dstOf x1) (tyOf x2)
          (fun r' d o' => x3 (ix3 r' d o')) (n.val : ℤ) o 7 :=
  rel1 x1 x2 (val_main_v14 (F := Ideal) x0 x1) x3 7 7#32 rfl
    (val_main_v163 (F := Ideal) x0 x1 x2) (val_main_v166 (F := Ideal) x1 x2)
    (val_main_v155_apply (F := Ideal)) (val_main_v156_apply x2) (val_main_v157_apply x2) (val_main_v158_apply x2)
    (val_main_v159_apply x2) (val_main_v160_apply x0 x1 x2) (val_main_v161_apply (F := Ideal)) (val_main_v162_apply x1) rfl
    (val_main_v164_apply (F := Ideal)) (val_main_v165_apply x1) rfl (val_main_call7_v1_apply (F := Ideal))
    (val_main_v167_apply x1 x2) (val_main_v168_apply x1 x2) (val_main_v169_apply x1 x2) (val_main_v170_apply x0 x1 x2)
    (wslice1 x3 7 (val_main_v171 (F := Ideal) x3) (val_main_v172 (F := Ideal) x3) idx_main_v171
      (fun _ => rfl) (fun _ => rfl) (fun _ => rfl) (val_main_v171_apply x3) (val_main_v172_apply x3))
    (val_main_v173_apply x0 x1 x2 x3) n o

/-! ## The layer -/

/-- The root term plus the bias at `(n, o)`. -/
theorem base1 (x0 : FBuf S100000x16) (x4 : FBuf S16x32) (x5 : FBuf S32) (n : Fin 100000) (o : Fin 32) :
    val_main_v7 (F := Ideal) x0 x4 x5 (ix2 n o) = ∑ d : Fin 16, x0 (ix2 n d) * x4 (ix2 d o) + x5 (ix1 o) := by
  rw [val_main_v7_apply, val_main_v4_apply, val_main_v6_apply, val_main_v5_apply, bias_idx1]
  simp only [root_lhs1, root_rhs1]
  rfl

/-- The first layer after its activation, at node `n` and output feature `o`. -/
theorem layer1_apply (x0 : (⟨S100000x16, .f32⟩ : BufTy).Contents (Elt Ideal))
    (x1 : (⟨S2x3200000, .i32⟩ : BufTy).Contents (Elt Ideal)) (x2 : (⟨S3200000, .i32⟩ : BufTy).Contents (Elt Ideal))
    (x3 : (⟨S8x16x32, .f32⟩ : BufTy).Contents (Elt Ideal)) (x4 : (⟨S16x32, .f32⟩ : BufTy).Contents (Elt Ideal))
    (x5 : (⟨S32, .f32⟩ : BufTy).Contents (Elt Ideal)) (n : Fin 100000) (o : Fin 32) :
    val_main_v175 (F := Ideal) x0 x1 x2 x3 x4 x5 (ix2 n o)
      = max (layer (fun d => x0 (ix2 n d)) (fun e d => val_main_v14 (F := Ideal) x0 x1 (ix2 e d)) (dstOf x1) (tyOf x2)
          (fun d o' => x4 (ix2 d o')) (fun r d o' => x3 (ix3 r d o')) (fun o' => x5 (ix1 o')) (n.val : ℤ) o) 0 := by
  rw [val_main_v175_apply, val_main_v174_apply, val_main_v154_apply, val_main_v134_apply, val_main_v114_apply,
    val_main_v94_apply, val_main_v74_apply, val_main_v54_apply, val_main_v34_apply, base1, term1_0, term1_1, term1_2,
    term1_3, term1_4, term1_5, term1_6, term1_7, val_main_call8_v0_apply]
  have hz : val_main_call8_cst (F := Ideal) (idx_main_call8_v0 (ix2 n o)) = 0 := Ideal.ofBits_zero_f32
  rw [hz]
  exact congrArg (fun t => max t 0)
    (reference_form (fun d => x0 (ix2 n d)) (fun e d => val_main_v14 (F := Ideal) x0 x1 (ix2 e d)) (dstOf x1) (tyOf x2)
      (fun d o' => x4 (ix2 d o')) (fun r d o' => x3 (ix3 r d o')) (fun o' => x5 (ix1 o')) (n.val : ℤ) o
      (maskOf (tyOf x2))
      (relTerm (fun e d => val_main_v14 (F := Ideal) x0 x1 (ix2 e d)) (dstOf x1) (tyOf x2)
        (fun r d o' => x3 (ix3 r d o')) (n.val : ℤ) o)
      (fun _ _ => rfl) (fun _ => rfl))

end Cert.ReferenceIdeal.RV

end
-- ==== Proof.RLayer2.lean ====
/-
  The reference's second layer, read down to the convolution `layer`.

  The second layer starts from `h · root + bias` (`h` the first layer's output, 32 features in, 16 out) and adds, one
  after the other, the eight relations' terms: for relation `r` the masked sum of the gathered rows over the edges
  ending at the node, divided by the masked count clamped at one, contracted with slice `r` of the weights. Each term
  is `relTerm` by the stage-by-stage reading; the eight additions onto the head are the reference's arrangement of
  `layer`.
-/
import proofs.«416438_j26963804684494_2_alg».proof.Proof.RRel

noncomputable section

open scoped BigOperators

namespace Cert.ReferenceIdeal.RV

open Cert.ReferenceIdeal Cert.ReferenceIdeal.ReadP Cert.Rgcn Idealize.ShloMosaic Idealize.ShloMosaic.ValueIdx

/-! ## The second layer's index maps -/

/-- A row entry `(e, k)` of the edge rows reads the column entry `(e, 0)`. -/
theorem edge_col2 (e : Fin 3200000) (k : Fin 32) : idx_main_v191 (ix2 e k) = ix2 e (0 : Fin 1) := by
  funext c; match c with | ⟨0, _⟩ => rfl | ⟨1, _⟩ => rfl
/-- A row entry `(n, k)` of the node rows reads the column entry `(n, 0)`. -/
theorem node_col2 (n : Fin 100000) (k : Fin 32) : idx_main_v201 (ix2 n k) = ix2 n (0 : Fin 1) := by
  funext c; match c with | ⟨0, _⟩ => rfl | ⟨1, _⟩ => rfl
/-- The contraction's left operand at output `(n, o)` and feature `k` is entry `(n, k)`. -/
theorem lhs_idx2 (n : Fin 100000) (o : Fin 16) (k : Fin 32) : lidx_main_v205 (ix2 n o) k = ix2 n k := by
  funext c; match c with | ⟨0, _⟩ => rfl | ⟨1, _⟩ => rfl
/-- The contraction's right operand at output `(n, o)` and feature `k` is entry `(k, o)`. -/
theorem rhs_idx2 (n : Fin 100000) (o : Fin 16) (k : Fin 32) : ridx_main_v205 (ix2 n o) k = ix2 k o := by
  funext c; match c with | ⟨0, _⟩ => rfl | ⟨1, _⟩ => rfl
/-- The same two for the head's contraction with the root weights. -/
theorem lhs_idx_head (n : Fin 100000) (o : Fin 16) (k : Fin 32) : lidx_main_v176 (ix2 n o) k = ix2 n k := by
  funext c; match c with | ⟨0, _⟩ => rfl | ⟨1, _⟩ => rfl
theorem rhs_idx_head (n : Fin 100000) (o : Fin 16) (k : Fin 32) : ridx_main_v176 (ix2 n o) k = ix2 k o := by
  funext c; match c with | ⟨0, _⟩ => rfl | ⟨1, _⟩ => rfl
/-- The bias broadcast over the nodes reads entry `o` of the bias at `(n, o)`. -/
theorem bias_idx (n : Fin 100000) (o : Fin 16) : idx_main_v177 (idx_main_v178 (ix2 n o)) = ix1 o := by
  funext c; match c with | ⟨0, _⟩ => rfl

/-! ## The head: `h · root + bias` -/

/-- The head of the second layer at `(n, o)`: the first layer's row `n` contracted with the root weights, plus the
    bias. -/
theorem head2 (x0 : FBuf S100000x16) (x1 : IBuf S2x3200000) (x2 : IBuf S3200000) (x3 : FBuf S8x16x32)
    (x4 : FBuf S16x32) (x5 : FBuf S32) (x7 : FBuf S32x16) (x8 : FBuf S16)
    (n : Fin 100000) (o : Fin 16) :
    val_main_v179 (F := Ideal) x0 x1 x2 x3 x4 x5 x7 x8 (ix2 n o)
      = ∑ d : Fin 32, val_main_v175 (F := Ideal) x0 x1 x2 x3 x4 x5 (ix2 n d) * x7 (ix2 d o) + x8 (ix1 o) := by
  rw [val_main_v179_apply, Ideal.addf_def, val_main_v176_apply, val_main_v178_apply, val_main_v177_apply, bias_idx]
  congr 1
  refine Finset.sum_congr rfl fun k _ => ?_
  rw [lhs_idx_head, rhs_idx_head]

/-! ## The eight relations' terms -/

local notation "rel2" => relTerm_of_stages (D := 32) (O := 16)
    scatter_S100000x32_S3200000x1_S3200000x32_1_0_0_1 rfl rfl rfl rfl
    scatter_S100000_S3200000x1_S3200000_n_0_0_1 rfl rfl rfl rfl
    idx_main_v191 edge_col2 idx_main_v201 node_col2 lidx_main_v205 lhs_idx2 ridx_main_v205 rhs_idx2

/-- Relation 0's term of the second layer. -/
theorem term2_0 (x0 : FBuf S100000x16) (x1 : IBuf S2x3200000) (x2 : IBuf S3200000) (x3 : FBuf S8x16x32)
    (x4 : FBuf S16x32) (x5 : FBuf S32) (x6 : FBuf S8x32x16)
    (n : Fin 100000) (o : Fin 16) :
    val_main_v205 (F := Ideal) x0 x1 x2 x3 x4 x5 x6 (ix2 n o)
      = relTerm (fun e d => val_main_v186 (F := Ideal) x0 x1 x2 x3 x4 x5 (ix2 e d)) (dstOf x1) (tyOf x2)
          (fun r' d o' => x6 (ix3 r' d o')) (n.val : ℤ) o 0 :=
  rel2 x1 x2 (val_main_v186 (F := Ideal) x0 x1 x2 x3 x4 x5) x6 0 0#32 rfl
    (val_main_v195 (F := Ideal) x0 x1 x2 x3 x4 x5) (val_main_v198 (F := Ideal) x1 x2)
    (val_main_v187_apply (F := Ideal)) (val_main_v188_apply x2) (val_main_v189_apply x2) (val_main_v190_apply x2)
    (val_main_v191_apply x2) (val_main_v192_apply x0 x1 x2 x3 x4 x5) (val_main_v193_apply (F := Ideal))
    (val_main_v194_apply x1) rfl (val_main_v196_apply (F := Ideal)) (val_main_v197_apply x1) rfl
    (val_main_call9_v1_apply (F := Ideal)) (val_main_v199_apply x1 x2) (val_main_v200_apply x1 x2)
    (val_main_v201_apply x1 x2) (val_main_v202_apply x0 x1 x2 x3 x4 x5)
    (wslice2 x6 0 (val_main_v203 (F := Ideal) x6) (val_main_v204 (F := Ideal) x6) idx_main_v203
      (fun _ => (Nat.zero_add _).symm) (fun _ => rfl) (fun _ => rfl) (val_main_v203_apply x6)
      (val_main_v204_apply x6))
    (val_main_v205_apply x0 x1 x2 x3 x4 x5 x6) n o

/-- Relation 1's term of the second layer. -/
theorem term2_1 (x0 : FBuf S100000x16) (x1 : IBuf S2x3200000) (x2 : IBuf S3200000) (x3 : FBuf S8x16x32)
    (x4 : FBuf S16x32) (x5 : FBuf S32) (x6 : FBuf S8x32x16)
    (n : Fin 100000) (o : Fin 16) :
    val_main_v225 (F := Ideal) x0 x1 x2 x3 x4 x5 x6 (ix2 n o)
      = relTerm (fun e d => val_main_v186 (F := Ideal) x0 x1 x2 x3 x4 x5 (ix2 e d)) (dstOf x1) (tyOf x2)
          (fun r' d o' => x6 (ix3 r' d o')) (n.val : ℤ) o 1 :=
  rel2 x1 x2 (val_main_v186 (F := Ideal) x0 x1 x2 x3 x4 x5) x6 1 1#32 rfl
    (val_main_v215 (F := Ideal) x0 x1 x2 x3 x4 x5) (val_main_v218 (F := Ideal) x1 x2)
    (val_main_v207_apply (F := Ideal)) (val_main_v208_apply x2) (val_main_v209_apply x2) (val_main_v210_apply x2)
    (val_main_v211_apply x2) (val_main_v212_apply x0 x1 x2 x3 x4 x5) (val_main_v213_apply (F := Ideal))
    (val_main_v214_apply x1) rfl (val_main_v216_apply (F := Ideal)) (val_main_v217_apply x1) rfl
    (val_main_call10_v1_apply (F := Ideal)) (val_main_v219_apply x1 x2) (val_main_v220_apply x1 x2)
    (val_main_v221_apply x1 x2) (val_main_v222_apply x0 x1 x2 x3 x4 x5)
    (wslice2 x6 1 (val_main_v223 (F := Ideal) x6) (val_main_v224 (F := Ideal) x6) idx_main_v223
      (fun _ => rfl) (fun _ => rfl) (fun _ => rfl) (val_main_v223_apply x6) (val_main_v224_apply x6))
    (val_main_v225_apply x0 x1 x2 x3 x4 x5 x6) n o

/-- Relation 2's term of the second layer. -/
theorem term2_2 (x0 : FBuf S100000x16) (x1 : IBuf S2x3200000) (x2 : IBuf S3200000) (x3 : FBuf S8x16x32)
    (x4 : FBuf S16x32) (x5 : FBuf S32) (x6 : FBuf S8x32x16)
    (n : Fin 100000) (o : Fin 16) :
    val_main_v245 (F := Ideal) x0 x1 x2 x3 x4 x5 x6 (ix2 n o)
      = relTerm (fun e d => val_main_v186 (F := Ideal) x0 x1 x2 x3 x4 x5 (ix2 e d)) (dstOf x1) (tyOf x2)
          (fun r' d o' => x6 (ix3 r' d o')) (n.val : ℤ) o 2 :=
  rel2 x1 x2 (val_main_v186 (F := Ideal) x0 x1 x2 x3 x4 x5) x6 2 2#32 rfl
    (val_main_v235 (F := Ideal) x0 x1 x2 x3 x4 x5) (val_main_v238 (F := Ideal) x1 x2)
    (val_main_v227_apply (F := Ideal)) (val_main_v228_apply x2) (val_main_v229_apply x2) (val_main_v230_apply x2)
    (val_main_v231_apply x2) (val_main_v232_apply x0 x1 x2 x3 x4 x5) (val_main_v233_apply (F := Ideal))
    (val_main_v234_apply x1) rfl (val_main_v236_apply (F := Ideal)) (val_main_v237_apply x1) rfl
    (val_main_call11_v1_apply (F := Ideal)) (val_main_v239_apply x1 x2) (val_main_v240_apply x1 x2)
    (val_main_v241_apply x1 x2) (val_main_v242_apply x0 x1 x2 x3 x4 x5)
    (wslice2 x6 2 (val_main_v243 (F := Ideal) x6) (val_main_v244 (F := Ideal) x6) idx_main_v243
      (fun _ => rfl) (fun _ => rfl) (fun _ => rfl) (val_main_v243_apply x6) (val_main_v244_apply x6))
    (val_main_v245_apply x0 x1 x2 x3 x4 x5 x6) n o

/-- Relation 3's term of the second layer. -/
theorem term2_3 (x0 : FBuf S100000x16) (x1 : IBuf S2x3200000) (x2 : IBuf S3200000) (x3 : FBuf S8x16x32)
    (x4 : FBuf S16x32) (x5 : FBuf S32) (x6 : FBuf S8x32x16)
    (n : Fin 100000) (o : Fin 16) :
    val_main_v265 (F := Ideal) x0 x1 x2 x3 x4 x5 x6 (ix2 n o)
      = relTerm (fun e d => val_main_v186 (F := Ideal) x0 x1 x2 x3 x4 x5 (ix2 e d)) (dstOf x1) (tyOf x2)
          (fun r' d o' => x6 (ix3 r' d o')) (n.val : ℤ) o 3 :=
  rel2 x1 x2 (val_main_v186 (F := Ideal) x0 x1 x2 x3 x4 x5) x6 3 3#32 rfl
    (val_main_v255 (F := Ideal) x0 x1 x2 x3 x4 x5) (val_main_v258 (F := Ideal) x1 x2)
    (val_main_v247_apply (F := Ideal)) (val_main_v248_apply x2) (val_main_v249_apply x2) (val_main_v250_apply x2)
    (val_main_v251_apply x2) (val_main_v252_apply x0 x1 x2 x3 x4 x5) (val_main_v253_apply (F := Ideal))
    (val_main_v254_apply x1) rfl (val_main_v256_apply (F := Ideal)) (val_main_v257_apply x1) rfl
    (val_main_call12_v1_apply (F := Ideal)) (val_main_v259_apply x1 x2) (val_main_v260_apply x1 x2)
    (val_main_v261_apply x1 x2) (val_main_v262_apply x0 x1 x2 x3 x4 x5)
    (wslice2 x6 3 (val_main_v263 (F := Ideal) x6) (val_main_v264 (F := Ideal) x6) idx_main_v263
      (fun _ => rfl) (fun _ => rfl) (fun _ => rfl) (val_main_v263_apply x6) (val_main_v264_apply x6))
    (val_main_v265_apply x0 x1 x2 x3 x4 x5 x6) n o

/-- Relation 4's term of the second layer. -/
theorem term2_4 (x0 : FBuf S100000x16) (x1 : IBuf S2x3200000) (x2 : IBuf S3200000) (x3 : FBuf S8x16x32)
    (x4 : FBuf S16x32) (x5 : FBuf S32) (x6 : FBuf S8x32x16)
    (n : Fin 100000) (o : Fin 16) :
    val_main_v285 (F := Ideal) x0 x1 x2 x3 x4 x5 x6 (ix2 n o)
      = relTerm (fun e d => val_main_v186 (F := Ideal) x0 x1 x2 x3 x4 x5 (ix2 e d)) (dstOf x1) (tyOf x2)
          (fun r' d o' => x6 (ix3 r' d o')) (n.val : ℤ) o 4 :=
  rel2 x1 x2 (val_main_v186 (F := Ideal) x0 x1 x2 x3 x4 x5) x6 4 4#32 rfl
    (val_main_v275 (F := Ideal) x0 x1 x2 x3 x4 x5) (val_main_v278 (F := Ideal) x1 x2)
    (val_main_v267_apply (F := Ideal)) (val_main_v268_apply x2) (val_main_v269_apply x2) (val_main_v270_apply x2)
    (val_main_v271_apply x2) (val_main_v272_apply x0 x1 x2 x3 x4 x5) (val_main_v273_apply (F := Ideal))
    (val_main_v274_apply x1) rfl (val_main_v276_apply (F := Ideal)) (val_main_v277_apply x1) rfl
    (val_main_call13_v1_apply (F := Ideal)) (val_main_v279_apply x1 x2) (val_main_v280_apply x1 x2)
    (val_main_v281_apply x1 x2) (val_main_v282_apply x0 x1 x2 x3 x4 x5)
    (wslice2 x6 4 (val_main_v283 (F := Ideal) x6) (val_main_v284 (F := Ideal) x6) idx_main_v283
      (fun _ => rfl) (fun _ => rfl) (fun _ => rfl) (val_main_v283_apply x6) (val_main_v284_apply x6))
    (val_main_v285_apply x0 x1 x2 x3 x4 x5 x6) n o

/-- Relation 5's term of the second layer. -/
theorem term2_5 (x0 : FBuf S100000x16) (x1 : IBuf S2x3200000) (x2 : IBuf S3200000) (x3 : FBuf S8x16x32)
    (x4 : FBuf S16x32) (x5 : FBuf S32) (x6 : FBuf S8x32x16)
    (n : Fin 100000) (o : Fin 16) :
    val_main_v305 (F := Ideal) x0 x1 x2 x3 x4 x5 x6 (ix2 n o)
      = relTerm (fun e d => val_main_v186 (F := Ideal) x0 x1 x2 x3 x4 x5 (ix2 e d)) (dstOf x1) (tyOf x2)
          (fun r' d o' => x6 (ix3 r' d o')) (n.val : ℤ) o 5 :=
  rel2 x1 x2 (val_main_v186 (F := Ideal) x0 x1 x2 x3 x4 x5) x6 5 5#32 rfl
    (val_main_v295 (F := Ideal) x0 x1 x2 x3 x4 x5) (val_main_v298 (F := Ideal) x1 x2)
    (val_main_v287_apply (F := Ideal)) (val_main_v288_apply x2) (val_main_v289_apply x2) (val_main_v290_apply x2)
    (val_main_v291_apply x2) (val_main_v292_apply x0 x1 x2 x3 x4 x5) (val_main_v293_apply (F := Ideal))
    (val_main_v294_apply x1) rfl (val_main_v296_apply (F := Ideal)) (val_main_v297_apply x1) rfl
    (val_main_call14_v1_apply (F := Ideal)) (val_main_v299_apply x1 x2) (val_main_v300_apply x1 x2)
    (val_main_v301_apply x1 x2) (val_main_v302_apply x0 x1 x2 x3 x4 x5)
    (wslice2 x6 5 (val_main_v303 (F := Ideal) x6) (val_main_v304 (F := Ideal) x6) idx_main_v303
      (fun _ => rfl) (fun _ => rfl) (fun _ => rfl) (val_main_v303_apply x6) (val_main_v304_apply x6))
    (val_main_v305_apply x0 x1 x2 x3 x4 x5 x6) n o

/-- Relation 6's term of the second layer. -/
theorem term2_6 (x0 : FBuf S100000x16) (x1 : IBuf S2x3200000) (x2 : IBuf S3200000) (x3 : FBuf S8x16x32)
    (x4 : FBuf S16x32) (x5 : FBuf S32) (x6 : FBuf S8x32x16)
    (n : Fin 100000) (o : Fin 16) :
    val_main_v325 (F := Ideal) x0 x1 x2 x3 x4 x5 x6 (ix2 n o)
      = relTerm (fun e d => val_main_v186 (F := Ideal) x0 x1 x2 x3 x4 x5 (ix2 e d)) (dstOf x1) (tyOf x2)
          (fun r' d o' => x6 (ix3 r' d o')) (n.val : ℤ) o 6 :=
  rel2 x1 x2 (val_main_v186 (F := Ideal) x0 x1 x2 x3 x4 x5) x6 6 6#32 rfl
    (val_main_v315 (F := Ideal) x0 x1 x2 x3 x4 x5) (val_main_v318 (F := Ideal) x1 x2)
    (val_main_v307_apply (F := Ideal)) (val_main_v308_apply x2) (val_main_v309_apply x2) (val_main_v310_apply x2)
    (val_main_v311_apply x2) (val_main_v312_apply x0 x1 x2 x3 x4 x5) (val_main_v313_apply (F := Ideal))
    (val_main_v314_apply x1) rfl (val_main_v316_apply (F := Ideal)) (val_main_v317_apply x1) rfl
    (val_main_call15_v1_apply (F := Ideal)) (val_main_v319_apply x1 x2) (val_main_v320_apply x1 x2)
    (val_main_v321_apply x1 x2) (val_main_v322_apply x0 x1 x2 x3 x4 x5)
    (wslice2 x6 6 (val_main_v323 (F := Ideal) x6) (val_main_v324 (F := Ideal) x6) idx_main_v323
      (fun _ => rfl) (fun _ => rfl) (fun _ => rfl) (val_main_v323_apply x6) (val_main_v324_apply x6))
    (val_main_v325_apply x0 x1 x2 x3 x4 x5 x6) n o

/-- Relation 7's term of the second layer. -/
theorem term2_7 (x0 : FBuf S100000x16) (x1 : IBuf S2x3200000) (x2 : IBuf S3200000) (x3 : FBuf S8x16x32)
    (x4 : FBuf S16x32) (x5 : FBuf S32) (x6 : FBuf S8x32x16)
    (n : Fin 100000) (o : Fin 16) :
    val_main_v345 (F := Ideal) x0 x1 x2 x3 x4 x5 x6 (ix2 n o)
      = relTerm (fun e d => val_main_v186 (F := Ideal) x0 x1 x2 x3 x4 x5 (ix2 e d)) (dstOf x1) (tyOf x2)
          (fun r' d o' => x6 (ix3 r' d o')) (n.val : ℤ) o 7 :=
  rel2 x1 x2 (val_main_v186 (F := Ideal) x0 x1 x2 x3 x4 x5) x6 7 7#32 rfl
    (val_main_v335 (F := Ideal) x0 x1 x2 x3 x4 x5) (val_main_v338 (F := Ideal) x1 x2)
    (val_main_v327_apply (F := Ideal)) (val_main_v328_apply x2) (val_main_v329_apply x2) (val_main_v330_apply x2)
    (val_main_v331_apply x2) (val_main_v332_apply x0 x1 x2 x3 x4 x5) (val_main_v333_apply (F := Ideal))
    (val_main_v334_apply x1) rfl (val_main_v336_apply (F := Ideal)) (val_main_v337_apply x1) rfl
    (val_main_call16_v1_apply (F := Ideal)) (val_main_v339_apply x1 x2) (val_main_v340_apply x1 x2)
    (val_main_v341_apply x1 x2) (val_main_v342_apply x0 x1 x2 x3 x4 x5)
    (wslice2 x6 7 (val_main_v343 (F := Ideal) x6) (val_main_v344 (F := Ideal) x6) idx_main_v343
      (fun _ => rfl) (fun _ => rfl) (fun _ => rfl) (val_main_v343_apply x6) (val_main_v344_apply x6))
    (val_main_v345_apply x0 x1 x2 x3 x4 x5 x6) n o

/-! ## The layer -/

/-- The reference's second layer at node `n` and output feature `o` is the convolution `layer` of the first layer's
    output: own row `h_n`, gathered source rows, destination and type of each edge, root weights, relation weights,
    bias. -/
theorem layer2_apply (x0 : FBuf S100000x16) (x1 : IBuf S2x3200000) (x2 : IBuf S3200000) (x3 : FBuf S8x16x32)
    (x4 : FBuf S16x32) (x5 : FBuf S32) (x6 : FBuf S8x32x16) (x7 : FBuf S32x16) (x8 : FBuf S16)
    (n : Fin 100000) (o : Fin 16) :
    val_main_v346 (F := Ideal) x0 x1 x2 x3 x4 x5 x6 x7 x8 (ix2 n o)
      = layer (fun d => val_main_v175 (F := Ideal) x0 x1 x2 x3 x4 x5 (ix2 n d))
          (fun e d => val_main_v186 (F := Ideal) x0 x1 x2 x3 x4 x5 (ix2 e d)) (dstOf x1) (tyOf x2)
          (fun d o' => x7 (ix2 d o')) (fun r d o' => x6 (ix3 r d o')) (fun o' => x8 (ix1 o')) (n.val : ℤ) o := by
  rw [val_main_v346_apply, val_main_v326_apply, val_main_v306_apply, val_main_v286_apply, val_main_v266_apply,
    val_main_v246_apply, val_main_v226_apply, val_main_v206_apply]
  simp only [Ideal.addf_def]
  rw [head2, term2_0, term2_1, term2_2, term2_3, term2_4, term2_5, term2_6, term2_7]
  exact reference_form (fun d => val_main_v175 (F := Ideal) x0 x1 x2 x3 x4 x5 (ix2 n d))
    (fun e d => val_main_v186 (F := Ideal) x0 x1 x2 x3 x4 x5 (ix2 e d)) (dstOf x1) (tyOf x2)
    (fun d o' => x7 (ix2 d o')) (fun r d o' => x6 (ix3 r d o')) (fun o' => x8 (ix1 o')) (n.val : ℤ) o
    (maskOf (tyOf x2))
    (relTerm (fun e d => val_main_v186 (F := Ideal) x0 x1 x2 x3 x4 x5 (ix2 e d)) (dstOf x1) (tyOf x2)
      (fun r d o' => x6 (ix3 r d o')) (n.val : ℤ) o)
    (fun _ _ => rfl) (fun _ => rfl)

end Cert.ReferenceIdeal.RV

end
-- ==== Proof.Glue.lean ====
/-
  Both programs gather the source rows through the same operations on the same arrays: row 0 of the edge array (slice,
  reshape), each negative entry wrapped by + 100000 (compare with 0, add 100000, select), the vector laid as an [E, 1]
  column, then a gather of whole rows under the same dimension numbers. The two texts spell that column, and the
  gather's dimension numbers, over their own names for the same literal shapes; here they are identified, and so are
  the two gathers of any array of rows, at both widths (16 and 32).
-/
import proofs.«416438_j26963804684494_2_alg».proof.Proof.KHost
import proofs.«416438_j26963804684494_2_alg».proof.Proof.RefRead

noncomputable section

namespace Cert.Proof.Glue

open Idealize.ShloMosaic

/-! ## The index column -/

/-- The kernel side's source column is the reference's first-layer one: the same operations, term by term. -/
theorem srcCol_eq_v13 (a1 : IVec Cert.KernelIdeal.S2x3200000 32) :
    Cert.KernelIdeal.KV.srcCol a1 = Cert.ReferenceIdeal.ReadP.val_main_v13 (F := Ideal) a1 := rfl

/-- … and the reference's second-layer one, which repeats them. -/
theorem srcCol_eq_v185 (a1 : IVec Cert.KernelIdeal.S2x3200000 32) :
    Cert.KernelIdeal.KV.srcCol a1 = Cert.ReferenceIdeal.ReadP.val_main_v185 (F := Ideal) a1 := rfl

/-! ## The gathers' dimension numbers -/

theorem gatherDims16_eq :
    Cert.KernelIdeal.gather_S100000x16_S3200000x1_S3200000x16_1_0_n_n_0_1_116
      = Cert.ReferenceIdeal.gather_S100000x16_S3200000x1_S3200000x16_1_0_n_n_0_1_116 := rfl

theorem gatherDims32_eq :
    Cert.KernelIdeal.gather_S100000x32_S3200000x1_S3200000x32_1_0_n_n_0_1_132
      = Cert.ReferenceIdeal.gather_S100000x32_S3200000x1_S3200000x32_1_0_n_n_0_1_132 := rfl

/-! ## The gathers -/

theorem gather16_eq (X : FVec Ideal Cert.KernelIdeal.S100000x16 .f32) (a1 : IVec Cert.KernelIdeal.S2x3200000 32) :
    Host.gather Cert.KernelIdeal.gather_S100000x16_S3200000x1_S3200000x16_1_0_n_n_0_1_116 X (Cert.KernelIdeal.KV.srcCol a1)
      = Host.gather Cert.ReferenceIdeal.gather_S100000x16_S3200000x1_S3200000x16_1_0_n_n_0_1_116 X
          (Cert.ReferenceIdeal.ReadP.val_main_v13 (F := Ideal) a1) := by
  rw [srcCol_eq_v13, gatherDims16_eq]

theorem gather32_eq (X : FVec Ideal Cert.KernelIdeal.S100000x32 .f32) (a1 : IVec Cert.KernelIdeal.S2x3200000 32) :
    Host.gather Cert.KernelIdeal.gather_S100000x32_S3200000x1_S3200000x32_1_0_n_n_0_1_132 X (Cert.KernelIdeal.KV.srcCol a1)
      = Host.gather Cert.ReferenceIdeal.gather_S100000x32_S3200000x1_S3200000x32_1_0_n_n_0_1_132 X
          (Cert.ReferenceIdeal.ReadP.val_main_v185 (F := Ideal) a1) := by
  rw [srcCol_eq_v185, gatherDims32_eq]

end Cert.Proof.Glue

end
-- ==== Proof.lean ====
/-
  The certificate of a two-layer relational graph convolution: a Pallas kernel program against its jnp reference.

  Each layer maps node features x : [100000, D] to  x·root + b + Σ_r mean_r·W_r , where mean_r at node n is the mean, over
  the edges of relation type r that end at n, of the source nodes' feature rows (zero when there are none); layer 1
  (16 → 32 features) is followed by a clamp below at zero, layer 2 (32 → 16) is not.

  The REFERENCE makes, per relation, a masked sum over all edges into 100000 node buckets and divides by the masked count
  clamped at one, and adds the eight products with W_r one after the other. The KERNEL buckets every edge ONCE by the key
  8·dst + type into 800000 buckets (sums and counts), and each of its two Pallas regions, over blocks of 5000 nodes,
  multiplies the bucket sums by the reciprocal clamped counts into a scratch block and contracts it with the flattened
  weights in one product, beside x·root, then adds the bias.

  The two agree where every edge's destination lies in [0, 100000) and its type in [0, 8): then the key of an edge is
  8·n + r exactly when the edge ends at n with type r (nothing wraps in 32 bits), so a bucket of the kernel is the
  reference's masked set. Outside that domain they differ (a type 8 at node 0 lands in node 1's bucket 0; a destination
  2^29 wraps to node 0), which is why the precondition carries the two range conjuncts. No finiteness is used: on the
  extended reals x·0 = 0, x·1 = x, a quotient by a real c ≥ 1 is the product with 1/c, and finite sums regroup freely.

  Kernel side: the run of @main with its result named (KRun), the region arrays from the blocks (KArr) and the blocks
  from what the body's stores leave (KBody, KBody1, KPay), the host arrays (KHost) read at an index (KRead, over the
  scatter-add lemma LibScatterAdd and the key arithmetic PreKey), brought to the specification's `layer` (KAlg, KValue).
  Reference side: its run in seven lists (RefRun0 … RefRun6, RefRun) over the stage functions (RefRead), each relation's
  stages read to one term (RRel) and the layers to `layer` (RLayer1, RLayer2). Both programs gather the source rows by
  the same operations (Glue). Here: the two results are one array, and the five claims.
-/
import proofs.«416438_j26963804684494_2_alg».proof.Defs
import proofs.«416438_j26963804684494_2_alg».proof.Proof.Gen.Kernel
import proofs.«416438_j26963804684494_2_alg».proof.Proof.Gen.Kernel.Frame
import proofs.«416438_j26963804684494_2_alg».proof.Proof.Gen.KernelIdeal
import proofs.«416438_j26963804684494_2_alg».proof.Proof.Gen.KernelIdeal.Frame
import proofs.«416438_j26963804684494_2_alg».proof.Proof.Gen.ReferenceIdeal
import proofs.«416438_j26963804684494_2_alg».proof.Proof.Gen.Pre_finite_inputs
import proofs.«416438_j26963804684494_2_alg».proof.Proof.KRun
import proofs.«416438_j26963804684494_2_alg».proof.Proof.KValue
import proofs.«416438_j26963804684494_2_alg».proof.Proof.RefRun
import proofs.«416438_j26963804684494_2_alg».proof.Proof.RLayer1
import proofs.«416438_j26963804684494_2_alg».proof.Proof.RLayer2
import proofs.«416438_j26963804684494_2_alg».proof.Proof.Glue
import proofs.«416438_j26963804684494_2_alg».proof.Proof.PreKey
import Idealize.ShloMosaic.Adequacy
import Idealize.ShloMosaic.Init

noncomputable section

namespace Cert.Proof

open Idealize.ShloMosaic Idealize.ShloMosaic.ValueIdx Idealize.ShloMosaic.TcCoe Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

/-- The precondition's two integer conjuncts, at the launch memory's own arrays: every destination in [0, 100000),
    every relation type in [0, 8). -/
theorem ranges (m : (ℓ : Loc Cert.KernelIdeal.nD Cert.KernelIdeal.τ Cert.KernelIdeal.sig) → Buf (Elt Ideal) ℓ) (h : Cert.Pre_KernelIdeal m) (c : Dev Cert.KernelIdeal.nD) :
    Cert.Rgcn.Pre.Ranges (m ((c.tc : Thread Cert.KernelIdeal.nD Cert.KernelIdeal.τ).loc Cert.KernelIdeal.main_arg1)) (m ((c.tc : Thread Cert.KernelIdeal.nD Cert.KernelIdeal.τ).loc Cert.KernelIdeal.main_arg2)) :=
  Cert.Rgcn.Pre.ranges_of_pre (F := Ideal) _ _ _ _ _ _ _ _ _ (h c)

/-- Layer 1 after its clamp is one array in both programs: index by index both are the clamped `layer` of the
    arguments, the gathered source rows the same term. -/
theorem hidden_eq (m : (ℓ : Loc Cert.KernelIdeal.nD Cert.KernelIdeal.τ Cert.KernelIdeal.sig) → Buf (Elt Ideal) ℓ) (ρ : Dev Cert.KernelIdeal.nD → PrngReg) (c : Dev Cert.KernelIdeal.nD)
    (hR : Cert.Rgcn.Pre.Ranges (m ((c.tc : Thread Cert.KernelIdeal.nD Cert.KernelIdeal.τ).loc Cert.KernelIdeal.main_arg1)) (m ((c.tc : Thread Cert.KernelIdeal.nD Cert.KernelIdeal.τ).loc Cert.KernelIdeal.main_arg2))) :
    (Cert.KernelIdeal.Gen.V3 m ρ c Cert.KernelIdeal.main_v29 : Cert.KernelIdeal.S100000x32.Idx → EReal)
      = Cert.ReferenceIdeal.ReadP.val_main_v175 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) := by
  funext j
  obtain ⟨n, o, rfl⟩ : ∃ (n : Fin 100000) (o : Fin 32), j = ix2 n o := ⟨j 0, j 1, eq_ix2 j⟩
  rw [Cert.KernelIdeal.KV.h1_apply m ρ c hR n o, Cert.ReferenceIdeal.RV.layer1_apply _ _ _ _ _ _ n o, Cert.Proof.Glue.gather16_eq]
  rfl

/-- The kernel's result array is the reference's last stage. -/
theorem result_eq (m : (ℓ : Loc Cert.KernelIdeal.nD Cert.KernelIdeal.τ Cert.KernelIdeal.sig) → Buf (Elt Ideal) ℓ) (ρ : Dev Cert.KernelIdeal.nD → PrngReg) (c : Dev Cert.KernelIdeal.nD)
    (hR : Cert.Rgcn.Pre.Ranges (m ((c.tc : Thread Cert.KernelIdeal.nD Cert.KernelIdeal.τ).loc Cert.KernelIdeal.main_arg1)) (m ((c.tc : Thread Cert.KernelIdeal.nD Cert.KernelIdeal.τ).loc Cert.KernelIdeal.main_arg2))) :
    (Cert.KernelIdeal.Gen.W4 m ρ c (Proc.devRef .tc Cert.KernelIdeal.main_v43) : Cert.KernelIdeal.S100000x16.Idx → EReal)
      = Cert.ReferenceIdeal.ReadP.val_main_v346 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) := by
  funext j
  obtain ⟨n, o, rfl⟩ : ∃ (n : Fin 100000) (o : Fin 16), j = ix2 n o := ⟨j 0, j 1, eq_ix2 j⟩
  rw [Cert.KernelIdeal.KV.result_apply m ρ c hR n o, Cert.ReferenceIdeal.RV.layer2_apply _ _ _ _ _ _ _ _ _ n o, hidden_eq m ρ c hR,
    Cert.Proof.Glue.gather32_eq]
  rfl

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- The ideal pass rewrote nothing: the idealization is the kernel's own text read at the extended reals. -/
theorem preserves : Cert.preserves_Kernel_KernelIdeal := trivial

/-- From memories agreeing on the arguments both programs run and end with one result: the reference's last stage
    of the arguments (`result_eq` on the kernel's side, under the precondition's two ranges). -/
theorem algebraic : Cert.algebraic_KernelIdeal_ReferenceIdeal := by
  intro m ρ m' ρ' hpre hagree
  refine ⟨fun c => Cert.ReferenceIdeal.ReadP.val_main_v346 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (result_eq m ρ c (ranges m hpre c)), (h c).2⟩) (Cert.KernelIdeal.Gen.run_value m ρ)
  · refine (θ_run Cert.ReferenceIdeal.defs _ _).mono (fun r h c => ⟨?_, (h c).2⟩) (Cert.ReferenceIdeal.RunP.run (F := Ideal) m' ρ')
    rw [(h c).1, (hagree c).1, (hagree c).2.1, (hagree c).2.2.1, (hagree c).2.2.2.1, (hagree c).2.2.2.2.1,
      (hagree c).2.2.2.2.2.1, (hagree c).2.2.2.2.2.2.1, (hagree c).2.2.2.2.2.2.2.1, (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
